-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temperature" .f32 0x41200000#32 ((134217728 / 13421773 : ℝ) : EReal)
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2x64x1024 : Shape := ⟨4, ![2, 2, 64, 1024]⟩
abbrev S2x2x1024 : Shape := ⟨3, ![2, 2, 1024]⟩
abbrev S_ : Shape := ⟨0, ![]⟩

class Facts : Prop where
  bcast_S_S2x2x64x1024 : S_.BroadcastsInDim S2x2x64x1024 (![] : Fin 0 → Fin S2x2x64x1024.rank)
  reducesTo_S2x2x64x1024_S_d0_1_2_3 : S2x2x64x1024.ReducesTo [0, 1, 2, 3] S_
  h_S_ : 0 < S_.numel

variable [Facts]

def fn {F : FTy → Type} [FloatOps F] (main_arg0 : FVec F S2x2x64x1024 .f32) (main_arg1 : FVec F S2x2x64x1024 .f32) (main_arg2 : IVec S2x2x1024 32) : IVec S_ 1 :=
  let main_v0 : FVec F S2x2x64x1024 .f32 := Host.absf main_arg0
  let main_cst : FVec F S_ .f32 := constant S_ .f32 0x7F800000#32
  let main_v1 : FVec F S2x2x64x1024 .f32 := broadcastInDim S2x2x64x1024 ![] bcast_S_S2x2x64x1024 main_cst
  let main_v2 : IVec S2x2x64x1024 1 := cmpf .olt main_v0 main_v1
  let main_c : IVec S_ 1 := constantI S_ 1 1#1
  let main_v3 : IVec S_ 1 := (fun x v => Host.reduce IntOp.andi x v reducesTo_S2x2x64x1024_S_d0_1_2_3 h_S_) main_v2 main_c
  let main_v4 : FVec F S2x2x64x1024 .f32 := Host.absf main_arg1
  let main_cst_0 : FVec F S_ .f32 := constant S_ .f32 0x7F800000#32
  let main_v5 : FVec F S2x2x64x1024 .f32 := broadcastInDim S2x2x64x1024 ![] bcast_S_S2x2x64x1024 main_cst_0
  let main_v6 : IVec S2x2x64x1024 1 := cmpf .olt main_v4 main_v5
  let main_c_1 : IVec S_ 1 := constantI S_ 1 1#1
  let main_v7 : IVec S_ 1 := (fun x v => Host.reduce IntOp.andi x v reducesTo_S2x2x64x1024_S_d0_1_2_3 h_S_) main_v6 main_c_1
  let main_v8 : IVec S_ 1 := andi main_v3 main_v7
  main_v8
-- ==== Kernel.lean ====
abbrev S2x2x64x1024 : Shape := ⟨4, ![2, 2, 64, 1024]⟩
abbrev S2x2x1024 : Shape := ⟨3, ![2, 2, 1024]⟩
abbrev S2x2x1024x64 : Shape := ⟨4, ![2, 2, 1024, 64]⟩
abbrev S2x2048x64 : Shape := ⟨3, ![2, 2048, 64]⟩
abbrev S2x2048 : Shape := ⟨2, ![2, 2048]⟩
abbrev S2x2048x1 : Shape := ⟨3, ![2, 2048, 1]⟩
abbrev S2x1x2048 : Shape := ⟨3, ![2, 1, 2048]⟩
abbrev S1x256x64 : Shape := ⟨3, ![1, 256, 64]⟩
abbrev S1x2048x64 : Shape := ⟨3, ![1, 2048, 64]⟩
abbrev S1x256x1 : Shape := ⟨3, ![1, 256, 1]⟩
abbrev S1x1x2048 : Shape := ⟨3, ![1, 1, 2048]⟩
abbrev S256x64 : Shape := ⟨2, ![256, 64]⟩
abbrev S2048x64 : Shape := ⟨2, ![2048, 64]⟩
abbrev S256 : Shape := ⟨1, ![256]⟩
abbrev S256x1 : Shape := ⟨2, ![256, 1]⟩
abbrev S2048 : Shape := ⟨1, ![2048]⟩
abbrev S2048x1 : Shape := ⟨2, ![2048, 1]⟩
abbrev S64x2048 : Shape := ⟨2, ![64, 2048]⟩
abbrev S256x2048 : Shape := ⟨2, ![256, 2048]⟩
abbrev S1x2048 : Shape := ⟨2, ![1, 2048]⟩
abbrev S4096 : Shape := ⟨1, ![4096]⟩
abbrev S_ : Shape := ⟨0, ![]⟩

abbrev nBuf : Space → Nat
  | .hbm => 45
  | .vmem => 12
  | .smem => 0
  | _ => 0

abbrev bufTy : (tb : Table) → Fin (tcTables nBuf tb) → BufTy
  | .hbm, ⟨0, _⟩ => ⟨S2x2x64x1024, .f32⟩
  | .hbm, ⟨1, _⟩ => ⟨S2x2x64x1024, .f32⟩
  | .hbm, ⟨2, _⟩ => ⟨S2x2x1024, .i32⟩
  | .hbm, ⟨3, _⟩ => ⟨S2x2x1024x64, .f32⟩
  | .hbm, ⟨4, _⟩ => ⟨S2x2048x64, .f32⟩
  | .hbm, ⟨5, _⟩ => ⟨S2x2x1024x64, .f32⟩
  | .hbm, ⟨6, _⟩ => ⟨S2x2048x64, .f32⟩
  | .hbm, ⟨7, _⟩ => ⟨S2x2048, .i32⟩
  | .hbm, ⟨8, _⟩ => ⟨S2x2048x1, .i32⟩
  | .hbm, ⟨9, _⟩ => ⟨S2x1x2048, .i32⟩
  | .hbm, ⟨10, _⟩ => ⟨S2x2048x1, .f32⟩
  | .hbm, ⟨11, _⟩ => ⟨S2x2048x1, .f32⟩
  | .hbm, ⟨12, _⟩ => ⟨S4096, .f32⟩
  | .hbm, ⟨13, _⟩ => ⟨S4096, .f32⟩
  | .hbm, ⟨14, _⟩ => ⟨S4096, .i32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .i1⟩
  | .hbm, ⟨22, _⟩ => ⟨S4096, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x256x1, .i32⟩
  | .local _ .vmem, ⟨5, _⟩ => ⟨S1x256x1, .i32⟩
  | .local _ .vmem, ⟨6, _⟩ => ⟨S1x1x2048, .i32⟩
  | .local _ .vmem, ⟨7, _⟩ => ⟨S1x1x2048, .i32⟩
  | .local _ .vmem, ⟨8, _⟩ => ⟨S1x256x1, .f32⟩
  | .local _ .vmem, ⟨9, _⟩ => ⟨S1x256x1, .f32⟩
  | .local _ .vmem, ⟨10, _⟩ => ⟨S1x256x1, .f32⟩
  | .local _ .vmem, ⟨11, _⟩ => ⟨S1x256x1, .f32⟩
  | _, _ => ⟨S2x2x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S2x2x64x1024_S2x2x1024x64_0_1_3_2 : S2x2x64x1024.Transposes [0, 1, 3, 2] S2x2x1024x64
  shapeCasts_S2x2x1024x64_S2x2048x64 : S2x2x1024x64.ShapeCasts S2x2048x64
  shapeCasts_S2x2x1024_S2x2048 : S2x2x1024.ShapeCasts S2x2048
  bcast_S2x2048_S2x2048x1_0_1 : S2x2048.BroadcastsInDim S2x2048x1 (![0, 1] : Fin 2 → Fin S2x2048x1.rank)
  bcast_S2x2048_S2x1x2048_0_2 : S2x2048.BroadcastsInDim S2x1x2048 (![0, 2] : Fin 2 → Fin S2x1x2048.rank)
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S256x64_S256 : S256x64.Reduces [1] S256
  shapeCasts_S256_S256x1 : S256.ShapeCasts S256x1
  broadcasts_S256x1_S256x64 : S256x1.Broadcasts S256x64
  reduces_S2048x64_S2048 : S2048x64.Reduces [1] S2048
  shapeCasts_S2048_S2048x1 : S2048.ShapeCasts S2048x1
  broadcasts_S2048x1_S2048x64 : S2048x1.Broadcasts S2048x64
  bitsLt_bf16_f32 : FTy.bits .bf16 < FTy.bits .f32
  transposes_S2048x64_p1_0_S64x2048 : S2048x64.Transposes [1, 0] S64x2048
  iota_S256x1_d0_w32 : S256x1.Iotas .tc 32 [0]
  iota_S1x2048_d1_w32 : S1x2048.Iotas .tc 32 [1]
  broadcasts_S256x1_S256x2048 : S256x1.Broadcasts S256x2048
  broadcasts_S1x2048_S256x2048 : S1x2048.Broadcasts S256x2048
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  natLt_1_32 : 1 < 32
  reduces_S256x2048_S256 : S256x2048.Reduces [1] S256
  shapeCasts_S256x1_S1x256x1 : S256x1.ShapeCasts S1x256x1
  shapeCasts_S2x2048x1_S4096 : S2x2048x1.ShapeCasts S4096
  shapeCasts_S2x2x1024_S4096 : S2x2x1024.ShapeCasts S4096
  bcast_S_S4096 : S_.BroadcastsInDim S4096 (![] : Fin 0 → Fin S4096.rank)
  reducesTo_S4096_S_d0 : S4096.ReducesTo [0] S_
  h_S_ : 0 < S_.numel
  dot_S256x64_S64x2048_S256x2048_1_0_0_1_n_n_wf : DotDims.WF S256x64 S64x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S2x2048x64.size a
  hwx0_0 : ∀ i : grid0.Coords, EltTy.bits .f32 = 32 ∨ (Rect.block (s := S2x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S2x2048x64.size a
  hwx0_1 : ∀ i : grid0.Coords, EltTy.bits .f32 = 32 ∨ (Rect.block (s := S2x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S2x2048x1.size a
  hwx0_2 : ∀ i : grid0.Coords, EltTy.bits .i32 = 32 ∨ (Rect.block (s := S2x2048x1) S1x256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S2x1x2048.size a
  hwx0_3 : ∀ i : grid0.Coords, EltTy.bits .i32 = 32 ∨ (Rect.block (s := S2x1x2048) S1x1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1.size a ≤ S2x2048x1.size a
  hwx0_4 : ∀ i : grid0.Coords, EltTy.bits .f32 = 32 ∨ (Rect.block (s := S2x2048x1) S1x256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1.size a ≤ S2x2048x1.size a
  hwx0_5 : ∀ i : grid0.Coords, EltTy.bits .f32 = 32 ∨ (Rect.block (s := S2x2048x1) S1x256x1.size (cc0_transform_5 i) (hinb0_5 i)).WholeWords (EltTy.packing .f32)

variable [Facts₀]

def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf

abbrev win0_0 : Pipeline.Window sig grid0 :=
  Pipeline.Window.ofSpec (Memref.whole main_v1) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S1x256x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S1x256x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x2x64x1024 : Shape := ⟨4, ![2, 2, 64, 1024]⟩
abbrev S2x2x1024 : Shape := ⟨3, ![2, 2, 1024]⟩
abbrev S2x2x1024x64 : Shape := ⟨4, ![2, 2, 1024, 64]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S64x4096 : Shape := ⟨2, ![64, 4096]⟩
abbrev S4096x4096 : Shape := ⟨2, ![4096, 4096]⟩
abbrev S2 : Shape := ⟨1, ![2]⟩
abbrev S2x2048 : Shape := ⟨2, ![2, 2048]⟩
abbrev S2x1024 : Shape := ⟨2, ![2, 1024]⟩
abbrev S2048 : Shape := ⟨1, ![2048]⟩
abbrev S1x2048 : Shape := ⟨2, ![1, 2048]⟩
abbrev S1024 : Shape := ⟨1, ![1024]⟩
abbrev S1x1024 : Shape := ⟨2, ![1, 1024]⟩
abbrev S4x1024 : Shape := ⟨2, ![4, 1024]⟩
abbrev S1x4096 : Shape := ⟨2, ![1, 4096]⟩

abbrev nBuf : Space → Nat
  | .hbm => 154
  | .vmem => 0
  | .smem => 0
  | _ => 0

abbrev hbmTy0_0 (i : Nat) : BufTy := match i % 128 with
  | 0 => ⟨S2x2x64x1024, .f32⟩
  | 1 => ⟨S2x2x64x1024, .f32⟩
  | 2 => ⟨S2x2x1024, .i32⟩
  | 3 => ⟨S2x2x1024x64, .f32⟩
  | 4 => ⟨S4096x64, .f32⟩
  | 5 => ⟨S2x2x1024x64, .f32⟩
  | 6 => ⟨S4096x64, .f32⟩
  | 7 => ⟨S4096x64, .f32⟩
  | 8 => ⟨S_, .f32⟩
  | 9 => ⟨S4096, .f32⟩
  | 10 => ⟨S4096x1, .f32⟩
  | 11 => ⟨S4096x1, .f32⟩
  | 12 => ⟨S_, .f32⟩
  | 13 => ⟨S_, .f32⟩
  | 14 => ⟨S4096x1, .f32⟩
  | 15 => ⟨S4096x1, .f32⟩
  | 16 => ⟨S4096x64, .f32⟩
  | 17 => ⟨S4096x64, .f32⟩
  | 18 => ⟨S4096x64, .f32⟩
  | 19 => ⟨S_, .f32⟩
  | 20 => ⟨S4096, .f32⟩
  | 21 => ⟨S4096x1, .f32⟩
  | 22 => ⟨S4096x1, .f32⟩
  | 23 => ⟨S_, .f32⟩
  | 24 => ⟨S_, .f32⟩
  | 25 => ⟨S4096x1, .f32⟩
  | 26 => ⟨S4096x1, .f32⟩
  | 27 => ⟨S4096x64, .f32⟩
  | 28 => ⟨S4096x64, .f32⟩
  | 29 => ⟨S64x4096, .f32⟩
  | 30 => ⟨S4096x4096, .f32⟩
  | 31 => ⟨S_, .f32⟩
  | 32 => ⟨S4096x4096, .f32⟩
  | 33 => ⟨S4096x4096, .f32⟩
  | 34 => ⟨S4096, .i32⟩
  | 35 => ⟨S2, .i32⟩
  | 36 => ⟨S2x2048, .i32⟩
  | 37 => ⟨S4096, .i32⟩
  | 38 => ⟨S2, .i32⟩
  | 39 => ⟨S2x1024, .i32⟩
  | 40 => ⟨S2048, .i32⟩
  | 41 => ⟨S1x2048, .i32⟩
  | 42 => ⟨S2x2048, .i32⟩
  | 43 => ⟨S4096, .i32⟩
  | 44 => ⟨S1024, .i32⟩
  | 45 => ⟨S1x1024, .i32⟩
  | 46 => ⟨S4x1024, .i32⟩
  | 47 => ⟨S4096, .i32⟩
  | 48 => ⟨S4096x1, .i32⟩
  | 49 => ⟨S1x4096, .i32⟩
  | 50 => ⟨S4096x4096, .i32⟩
  | 51 => ⟨S4096x4096, .i32⟩
  | 52 => ⟨S4096x4096, .i1⟩
  | 53 => ⟨S4096x1, .i32⟩
  | 54 => ⟨S1x4096, .i32⟩
  | 55 => ⟨S4096x4096, .i32⟩
  | 56 => ⟨S4096x4096, .i32⟩
  | 57 => ⟨S4096x4096, .i1⟩
  | 58 => ⟨S4096x1, .i32⟩
  | 59 => ⟨S1x4096, .i32⟩
  | 60 => ⟨S4096x4096, .i32⟩
  | 61 => ⟨S4096x4096, .i32⟩
  | 62 => ⟨S4096x4096, .i1⟩
  | 63 => ⟨S4096x1, .i32⟩
  | 64 => ⟨S1x4096, .i32⟩
  | 65 => ⟨S4096x4096, .i32⟩
  | 66 => ⟨S4096x4096, .i32⟩
  | 67 => ⟨S4096x4096, .i1⟩
  | 68 => ⟨S_, .i32⟩
  | 69 => ⟨S_, .i32⟩
  | 70 => ⟨S4096x4096, .i32⟩
  | 71 => ⟨S4096x4096, .i32⟩
  | 72 => ⟨S4096x4096, .i32⟩
  | 73 => ⟨S_, .i32⟩
  | 74 => ⟨S4096x4096, .i32⟩
  | 75 => ⟨S4096x4096, .i32⟩
  | 76 => ⟨S4096x4096, .i1⟩
  | 77 => ⟨S4096x4096, .i1⟩
  | 78 => ⟨S_, .i32⟩
  | 79 => ⟨S4096x4096, .i32⟩
  | 80 => ⟨S4096x4096, .i32⟩
  | 81 => ⟨S_, .i32⟩
  | 82 => ⟨S4096x4096, .i32⟩
  | 83 => ⟨S4096x4096, .i1⟩
  | 84 => ⟨S4096x4096, .f32⟩
  | 85 => ⟨S_, .i32⟩
  | 86 => ⟨S4096x4096, .i32⟩
  | 87 => ⟨S4096x4096, .i1⟩
  | 88 => ⟨S4096x4096, .f32⟩
  | 89 => ⟨S_, .f32⟩
  | 90 => ⟨S4096x4096, .f32⟩
  | 91 => ⟨S4096x4096, .i1⟩
  | 92 => ⟨S_, .f32⟩
  | 93 => ⟨S_, .f32⟩
  | 94 => ⟨S4096x4096, .f32⟩
  | 95 => ⟨S4096x4096, .f32⟩
  | 96 => ⟨S_, .f32⟩
  | 97 => ⟨S4096, .f32⟩
  | 98 => ⟨S_, .f32⟩
  | 99 => ⟨S4096, .f32⟩
  | 100 => ⟨S4096, .f32⟩
  | 101 => ⟨S4096x1, .f32⟩
  | 102 => ⟨S4096x4096, .f32⟩
  | 103 => ⟨S4096x4096, .f32⟩
  | 104 => ⟨S4096x4096, .f32⟩
  | 105 => ⟨S_, .f32⟩
  | 106 => ⟨S4096, .f32⟩
  | 107 => ⟨S4096x1, .f32⟩
  | 108 => ⟨S4096x1, .f32⟩
  | 109 => ⟨S4096x4096, .f32⟩
  | 110 => ⟨S4096x4096, .f32⟩
  | 111 => ⟨S_, .f32⟩
  | 112 => ⟨S4096x4096, .f32⟩
  | 113 => ⟨S4096x4096, .i1⟩
  | 114 => ⟨S_, .f32⟩
  | 115 => ⟨S_, .f32⟩
  | 116 => ⟨S4096x4096, .f32⟩
  | 117 => ⟨S4096x4096, .f32⟩
  | 118 => ⟨S_, .f32⟩
  | 119 => ⟨S4096, .f32⟩
  | 120 => ⟨S4096x4096, .f32⟩
  | 121 => ⟨S_, .f32⟩
  | 122 => ⟨S4096, .f32⟩
  | 123 => ⟨S_, .f32⟩
  | 124 => ⟨S4096, .f32⟩
  | 125 => ⟨S4096, .f32⟩
  | 126 => ⟨S4096, .f32⟩
  | 127 => ⟨S_, .f32⟩
  | _ => ⟨S2x2x64x1024, .f32⟩

abbrev hbmTy0_1 (i : Nat) : BufTy := match i % 128 with
  | 0 => ⟨S4096, .f32⟩
  | 1 => ⟨S4096, .i1⟩
  | 2 => ⟨S4096, .i32⟩
  | 3 => ⟨S_, .i32⟩
  | 4 => ⟨S_, .i32⟩
  | 5 => ⟨S_, .f32⟩
  | 6 => ⟨S_, .f32⟩
  | 7 => ⟨S_, .f32⟩
  | 8 => ⟨S4096, .f32⟩
  | 9 => ⟨S4096, .f32⟩
  | 10 => ⟨S_, .f32⟩
  | 11 => ⟨S_, .f32⟩
  | 12 => ⟨S_, .f32⟩
  | 13 => ⟨S_, .f32⟩
  | 14 => ⟨S_, .i32⟩
  | 15 => ⟨S4096, .i32⟩
  | 16 => ⟨S4096, .i1⟩
  | 17 => ⟨S4096, .f32⟩
  | 18 => ⟨S4096, .f32⟩
  | 19 => ⟨S4096, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | _ => ⟨S2x2x64x1024, .f32⟩

abbrev hbmTy (i : Nat) : BufTy := match i / 128 with
  | 0 => hbmTy0_0 i
  | 1 => hbmTy0_1 i
  | _ => ⟨S2x2x64x1024, .f32⟩

abbrev bufTy : (tb : Table) → Fin (tcTables nBuf tb) → BufTy
  | .hbm, ⟨i, _⟩ => hbmTy i
  | _, _ => ⟨S2x2x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v4 : Ref sig .tc := ⟨.hbm, 11, rfl⟩
abbrev main_cst : Ref sig .tc := ⟨.hbm, 12, rfl⟩
abbrev main_call1_v0 : Ref sig .tc := ⟨.hbm, 13, rfl⟩
abbrev main_call1_v1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call2_v0 : Ref sig .tc := ⟨.hbm, 18, rfl⟩
abbrev main_call2_cst : Ref sig .tc := ⟨.hbm, 19, rfl⟩
abbrev main_call2_v1 : Ref sig .tc := ⟨.hbm, 20, rfl⟩
abbrev main_call2_v2 : Ref sig .tc := ⟨.hbm, 21, rfl⟩
abbrev main_v8 : Ref sig .tc := ⟨.hbm, 22, rfl⟩
abbrev main_cst_0 : Ref sig .tc := ⟨.hbm, 23, rfl⟩
abbrev main_call3_v0 : Ref sig .tc := ⟨.hbm, 24, rfl⟩
abbrev main_call3_v1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c : Ref sig .tc := ⟨.hbm, 68, rfl⟩
abbrev main_c_2 : Ref sig .tc := ⟨.hbm, 69, rfl⟩
abbrev main_call4_v0 : Ref sig .tc := ⟨.hbm, 70, rfl⟩
abbrev main_call4_v1 : Ref sig .tc := ⟨.hbm, 71, rfl⟩
abbrev main_v50 : Ref sig .tc := ⟨.hbm, 72, rfl⟩
abbrev main_c_3 : Ref sig .tc := ⟨.hbm, 73, rfl⟩
abbrev main_call5_v0 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_4 : Ref sig .tc := ⟨.hbm, 78, rfl⟩
abbrev main_call6_v0 : Ref sig .tc := ⟨.hbm, 79, rfl⟩
abbrev main_v54 : Ref sig .tc := ⟨.hbm, 80, rfl⟩
abbrev main_c_5 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_6 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_7 : Ref sig .tc := ⟨.hbm, 89, rfl⟩
abbrev main_v61 : Ref sig .tc := ⟨.hbm, 90, rfl⟩
abbrev main_v62 : Ref sig .tc := ⟨.hbm, 91, rfl⟩
abbrev main_cst_8 : Ref sig .tc := ⟨.hbm, 92, rfl⟩
abbrev main_call7_v0 : Ref sig .tc := ⟨.hbm, 93, rfl⟩
abbrev main_call7_v1 : Ref sig .tc := ⟨.hbm, 94, rfl⟩
abbrev main_v63 : Ref sig .tc := ⟨.hbm, 95, rfl⟩
abbrev main_call8_cst : Ref sig .tc := ⟨.hbm, 96, rfl⟩
abbrev main_call8_v0 : Ref sig .tc := ⟨.hbm, 97, rfl⟩
abbrev main_call8_cst_0 : Ref sig .tc := ⟨.hbm, 98, rfl⟩
abbrev main_call8_v1 : Ref sig .tc := ⟨.hbm, 99, rfl⟩
abbrev main_call8_v2 : Ref sig .tc := ⟨.hbm, 100, rfl⟩
abbrev main_call8_v3 : Ref sig .tc := ⟨.hbm, 101, rfl⟩
abbrev main_call8_v4 : Ref sig .tc := ⟨.hbm, 102, rfl⟩
abbrev main_call8_v5 : Ref sig .tc := ⟨.hbm, 103, rfl⟩
abbrev main_call8_v6 : Ref sig .tc := ⟨.hbm, 104, rfl⟩
abbrev main_call8_cst_1 : Ref sig .tc := ⟨.hbm, 105, rfl⟩
abbrev main_call8_v7 : Ref sig .tc := ⟨.hbm, 106, rfl⟩
abbrev main_call8_v8 : Ref sig .tc := ⟨.hbm, 107, rfl⟩
abbrev main_call8_v9 : Ref sig .tc := ⟨.hbm, 108, rfl⟩
abbrev main_call8_v10 : Ref sig .tc := ⟨.hbm, 109, rfl⟩
abbrev main_v64 : Ref sig .tc := ⟨.hbm, 110, rfl⟩
abbrev main_cst_9 : Ref sig .tc := ⟨.hbm, 111, rfl⟩
abbrev main_v65 : Ref sig .tc := ⟨.hbm, 112, rfl⟩
abbrev main_v66 : Ref sig .tc := ⟨.hbm, 113, rfl⟩
abbrev main_cst_10 : Ref sig .tc := ⟨.hbm, 114, rfl⟩
abbrev main_call9_v0 : Ref sig .tc := ⟨.hbm, 115, rfl⟩
abbrev main_call9_v1 : Ref sig .tc := ⟨.hbm, 116, rfl⟩
abbrev main_v67 : Ref sig .tc := ⟨.hbm, 117, rfl⟩
abbrev main_cst_11 : Ref sig .tc := ⟨.hbm, 118, rfl⟩
abbrev main_v68 : Ref sig .tc := ⟨.hbm, 119, rfl⟩
abbrev main_v69 : Ref sig .tc := ⟨.hbm, 120, rfl⟩
abbrev main_cst_12 : Ref sig .tc := ⟨.hbm, 121, rfl⟩
abbrev main_v70 : Ref sig .tc := ⟨.hbm, 122, rfl⟩
abbrev main_cst_13 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_cst_14 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_c_15 : Ref sig .tc := ⟨.hbm, 131, rfl⟩
abbrev main_v77 : Ref sig .tc := ⟨.hbm, 132, rfl⟩
abbrev main_v78 : Ref sig .tc := ⟨.hbm, 133, rfl⟩
abbrev main_cst_16 : Ref sig .tc := ⟨.hbm, 134, rfl⟩
abbrev main_call10_v0 : Ref sig .tc := ⟨.hbm, 135, rfl⟩
abbrev main_call10_v1 : Ref sig .tc := ⟨.hbm, 136, rfl⟩
abbrev main_v79 : Ref sig .tc := ⟨.hbm, 137, rfl⟩
abbrev main_cst_17 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_c_18 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_cst_19 : Ref sig .tc := ⟨.hbm, 148, rfl⟩
abbrev main_v88 : Ref sig .tc := ⟨.hbm, 149, rfl⟩
abbrev main_v89 : Ref sig .tc := ⟨.hbm, 150, rfl⟩
abbrev main_cst_20 : Ref sig .tc := ⟨.hbm, 151, rfl⟩
abbrev main_v90 : Ref sig .tc := ⟨.hbm, 152, rfl⟩
abbrev main_v91 : Ref sig .tc := ⟨.hbm, 153, rfl⟩

abbrev nD : Nat := 1
abbrev τ : Topo := Topo.v7x

variable {F : FTy → Type} [FloatOps F]

class Facts₀ : Prop where
  transposes_S2x2x64x1024_S2x2x1024x64_0_1_3_2 : S2x2x64x1024.Transposes [0, 1, 3, 2] S2x2x1024x64
  shapeCasts_S2x2x1024x64_S4096x64 : S2x2x1024x64.ShapeCasts S4096x64
  reducesTo_S4096x64_S4096_d1 : S4096x64.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  transposes_S4096x64_S64x4096_1_0 : S4096x64.Transposes [1, 0] S64x4096
  bcast_S_S4096x4096 : S_.BroadcastsInDim S4096x4096 (![] : Fin 0 → Fin S4096x4096.rank)
  shapeCasts_S2x2x1024_S4096 : S2x2x1024.ShapeCasts S4096
  bcast_S2_S2x2048_0 : S2.BroadcastsInDim S2x2048 (![0] : Fin 1 → Fin S2x2048.rank)
  shapeCasts_S2x2048_S4096 : S2x2048.ShapeCasts S4096
  bcast_S2_S2x1024_0 : S2.BroadcastsInDim S2x1024 (![0] : Fin 1 → Fin S2x1024.rank)
  shapeCasts_S2x1024_S2048 : S2x1024.ShapeCasts S2048
  shapeCasts_S2048_S1x2048 : S2048.ShapeCasts S1x2048
  bcast_S1x2048_S2x2048_0_1 : S1x2048.BroadcastsInDim S2x2048 (![0, 1] : Fin 2 → Fin S2x2048.rank)
  shapeCasts_S1024_S1x1024 : S1024.ShapeCasts S1x1024
  bcast_S1x1024_S4x1024_0_1 : S1x1024.BroadcastsInDim S4x1024 (![0, 1] : Fin 2 → Fin S4x1024.rank)
  shapeCasts_S4x1024_S4096 : S4x1024.ShapeCasts S4096
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  bcast_S_S4096 : S_.BroadcastsInDim S4096 (![] : Fin 0 → Fin S4096.rank)
  natLt_1_32 : 1 < 32
  reducesTo_S4096_S_d0 : S4096.ReducesTo [0] S_
  dot_S4096x64_S64x4096_S4096x4096_1_0_0_1_n_n_wf : DotDims.WF S4096x64 S64x4096 S4096x4096 [1] [0] [0] [1] [] []

variable [Facts₀]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf

class Facts : Prop extends Facts₀ where

variable [Facts]
-- ==== Proof.RefStages.lean ====
/-
  The reference program's run, stated over its named stages.
  Every weakly fair execution of the reference terminates; its result buffer then holds the last stage of the chain of
  stages (transposes and reshapes of the embeddings, the row norms, the 4096 x 4096 similarities over the temperature,
  the integer masks, the masked log-softmax, the weighted row sums and counts, the loss), each stage a function of the
  three arguments, and the arguments are unchanged. The run is followed stretch by stretch: after each stretch of
  operations the buffers later stretches read hold their stages.
-/
import proofs.«173573_j6279242187472_1_alg».proof.Proof.RefRead
import Idealize.ShloMosaic.Lib.StableHlo.Run
import Idealize.ShloMosaic.Lib.Pipeline.Frame

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Contents moved to a buffer's own type and back are the contents. -/
theorem ofBuf_toBuf {T : BufTy} (x : TRef sig T) (v : T.Contents (Elt F)) : x.ofBuf (x.toBuf v) = v := by
  obtain ⟨r, h, a, b⟩ := x
  subst h
  rfl

local notation:max "↟" r:max => Proc.devRef Proc.tc r

/-! ## The stretches

The 151 operations are cut where few buffers are live: after the logits (main_v15), after the label code (main_v54),
after the masked logits (main_v63), after the log-softmax (main_v64), after the weighted row sums (main_v68, main_v70),
after the mean over rows with a positive (main_v82). -/

abbrev opsA : List (HloOp τ sig (Elt F)) := (ops (F := F)).take 31
abbrev opsB1 : List (HloOp τ sig (Elt F)) := ((ops (F := F)).drop 31).take 47
abbrev opsB2 : List (HloOp τ sig (Elt F)) := ((ops (F := F)).drop 78).take 15
abbrev opsC : List (HloOp τ sig (Elt F)) := ((ops (F := F)).drop 93).take 15
abbrev opsD : List (HloOp τ sig (Elt F)) := ((ops (F := F)).drop 108).take 12
abbrev opsE1 : List (HloOp τ sig (Elt F)) := ((ops (F := F)).drop 120).take 19
abbrev opsE2 : List (HloOp τ sig (Elt F)) := (ops (F := F)).drop 139

theorem ops_split : (ops (F := F)) = opsA ++ opsB1 ++ opsB2 ++ opsC ++ opsD ++ opsE1 ++ opsE2 := by
  rfl

/-! ### Transposes, norms, similarities over the temperature -/

theorem A_v15 (V : Valuation τ sig (Elt F)) :
    after (opsA (F := F)) V (↟main_v15) = val_main_v15 (F := F) (V (↟main_arg0)) (V (↟main_arg1)) := by
  simp only [opsA, ops, List.drop_succ_cons, List.drop_zero, List.take_succ_cons, List.take_zero]
  after_results_simp
  rfl

theorem A_arg2 (V : Valuation τ sig (Elt F)) : after (opsA (F := F)) V (↟main_arg2) = V (↟main_arg2) := by
  simp only [opsA, ops, List.drop_succ_cons, List.drop_zero, List.take_succ_cons, List.take_zero]
  after_results_simp

/-! ### Labels, image and view codes, the code of a pair -/

theorem B1_v16 (V : Valuation τ sig (Elt F)) :
    after (opsB1 (F := F)) V (↟main_v16) = val_main_v16 (F := F) (V (↟main_arg2)) := by
  simp only [opsB1, ops, List.drop_succ_cons, List.drop_zero, List.take_succ_cons, List.take_zero]
  after_results_simp
  rfl

theorem B1_v54 (V : Valuation τ sig (Elt F)) :
    after (opsB1 (F := F)) V (↟main_v54) = val_main_v54 (F := F) (V (↟main_arg2)) := by
  simp only [opsB1, ops, List.drop_succ_cons, List.drop_zero, List.take_succ_cons, List.take_zero]
  after_results_simp
  rfl

theorem B1_v15 (V : Valuation τ sig (Elt F)) : after (opsB1 (F := F)) V (↟main_v15) = V (↟main_v15) := by
  simp only [opsB1, ops, List.drop_succ_cons, List.drop_zero, List.take_succ_cons, List.take_zero]
  after_results_simp

/-! ### The two masks and the masked logits -/

theorem B2_v57 (V : Valuation τ sig (Elt F)) (x2 : (⟨S2x2x1024, .i32⟩ : BufTy).Contents (Elt F))
    (h54 : V (↟main_v54) = val_main_v54 (F := F) x2) :
    after (opsB2 (F := F)) V (↟main_v57) = val_main_v57 (F := F) x2 := by
  simp only [opsB2, ops, List.drop_succ_cons, List.drop_zero, List.take_succ_cons, List.take_zero]
  after_results_simp
  rw [h54]
  rfl

theorem B2_v63 (V : Valuation τ sig (Elt F)) (x0 x1 : (⟨S2x2x64x1024, .f32⟩ : BufTy).Contents (Elt F))
    (x2 : (⟨S2x2x1024, .i32⟩ : BufTy).Contents (Elt F))
    (h15 : V (↟main_v15) = val_main_v15 (F := F) x0 x1) (h54 : V (↟main_v54) = val_main_v54 (F := F) x2) :
    after (opsB2 (F := F)) V (↟main_v63) = val_main_v63 (F := F) x0 x1 x2 := by
  simp only [opsB2, ops, List.drop_succ_cons, List.drop_zero, List.take_succ_cons, List.take_zero]
  after_results_simp
  rw [h15, h54]
  rfl

theorem B2_v16 (V : Valuation τ sig (Elt F)) : after (opsB2 (F := F)) V (↟main_v16) = V (↟main_v16) := by
  simp only [opsB2, ops, List.drop_succ_cons, List.drop_zero, List.take_succ_cons, List.take_zero]
  after_results_simp

/-! ### The log-softmax of the masked logits -/

theorem C_v64 (V : Valuation τ sig (Elt F)) (x0 x1 : (⟨S2x2x64x1024, .f32⟩ : BufTy).Contents (Elt F))
    (x2 : (⟨S2x2x1024, .i32⟩ : BufTy).Contents (Elt F))
    (h63 : V (↟main_v63) = val_main_v63 (F := F) x0 x1 x2) :
    after (opsC (F := F)) V (↟main_v64) = val_main_v64 (F := F) x0 x1 x2 := by
  simp only [opsC, ops, List.drop_succ_cons, List.drop_zero, List.take_succ_cons, List.take_zero]
  after_results_simp
  rw [h63]
  simp only [ofBuf_toBuf]
  unfold val_main_v64 val_main_call8_v10 val_main_call8_v9 val_main_call8_v8 val_main_call8_v7 val_main_call8_cst_1 val_main_call8_v6 val_main_call8_v5 val_main_call8_v4 val_main_call8_v3 val_main_call8_v2 val_main_call8_v1 val_main_call8_cst_0 val_main_call8_v0 val_main_call8_cst
  rfl

theorem C_v16 (V : Valuation τ sig (Elt F)) : after (opsC (F := F)) V (↟main_v16) = V (↟main_v16) := by
  simp only [opsC, ops, List.drop_succ_cons, List.drop_zero, List.take_succ_cons, List.take_zero]
  after_results_simp

theorem C_v57 (V : Valuation τ sig (Elt F)) : after (opsC (F := F)) V (↟main_v57) = V (↟main_v57) := by
  simp only [opsC, ops, List.drop_succ_cons, List.drop_zero, List.take_succ_cons, List.take_zero]
  after_results_simp

/-! ### The weighted row sums and the row counts -/

theorem D_v68 (V : Valuation τ sig (Elt F)) (x2 : (⟨S2x2x1024, .i32⟩ : BufTy).Contents (Elt F))
    (h57 : V (↟main_v57) = val_main_v57 (F := F) x2) :
    after (opsD (F := F)) V (↟main_v68) = val_main_v68 (F := F) x2 := by
  simp only [opsD, ops, List.drop_succ_cons, List.drop_zero, List.take_succ_cons, List.take_zero]
  after_results_simp
  rw [h57]
  rfl

theorem D_v70 (V : Valuation τ sig (Elt F)) (x0 x1 : (⟨S2x2x64x1024, .f32⟩ : BufTy).Contents (Elt F))
    (x2 : (⟨S2x2x1024, .i32⟩ : BufTy).Contents (Elt F))
    (h57 : V (↟main_v57) = val_main_v57 (F := F) x2) (h64 : V (↟main_v64) = val_main_v64 (F := F) x0 x1 x2) :
    after (opsD (F := F)) V (↟main_v70) = val_main_v70 (F := F) x0 x1 x2 := by
  simp only [opsD, ops, List.drop_succ_cons, List.drop_zero, List.take_succ_cons, List.take_zero]
  after_results_simp
  rw [h57, h64]
  rfl

theorem D_v16 (V : Valuation τ sig (Elt F)) : after (opsD (F := F)) V (↟main_v16) = V (↟main_v16) := by
  simp only [opsD, ops, List.drop_succ_cons, List.drop_zero, List.take_succ_cons, List.take_zero]
  after_results_simp

/-! ### The rows with a positive and the mean over them -/

theorem E1_v75 (V : Valuation τ sig (Elt F)) (x2 : (⟨S2x2x1024, .i32⟩ : BufTy).Contents (Elt F))
    (h68 : V (↟main_v68) = val_main_v68 (F := F) x2) :
    after (opsE1 (F := F)) V (↟main_v75) = val_main_v75 (F := F) x2 := by
  simp only [opsE1, ops, List.drop_succ_cons, List.drop_zero, List.take_succ_cons, List.take_zero]
  after_results_simp
  rw [h68]
  rfl

theorem E1_v82 (V : Valuation τ sig (Elt F)) (x0 x1 : (⟨S2x2x64x1024, .f32⟩ : BufTy).Contents (Elt F))
    (x2 : (⟨S2x2x1024, .i32⟩ : BufTy).Contents (Elt F))
    (h68 : V (↟main_v68) = val_main_v68 (F := F) x2) (h70 : V (↟main_v70) = val_main_v70 (F := F) x0 x1 x2) :
    after (opsE1 (F := F)) V (↟main_v82) = val_main_v82 (F := F) x0 x1 x2 := by
  simp only [opsE1, ops, List.drop_succ_cons, List.drop_zero, List.take_succ_cons, List.take_zero]
  after_results_simp
  rw [h68, h70]
  rfl

theorem E1_v16 (V : Valuation τ sig (Elt F)) : after (opsE1 (F := F)) V (↟main_v16) = V (↟main_v16) := by
  simp only [opsE1, ops, List.drop_succ_cons, List.drop_zero, List.take_succ_cons, List.take_zero]
  after_results_simp

/-! ### The foreground count and the loss -/

theorem E2_v91 (V : Valuation τ sig (Elt F)) (x0 x1 : (⟨S2x2x64x1024, .f32⟩ : BufTy).Contents (Elt F))
    (x2 : (⟨S2x2x1024, .i32⟩ : BufTy).Contents (Elt F))
    (h16 : V (↟main_v16) = val_main_v16 (F := F) x2) (h75 : V (↟main_v75) = val_main_v75 (F := F) x2)
    (h82 : V (↟main_v82) = val_main_v82 (F := F) x0 x1 x2) :
    after (opsE2 (F := F)) V (↟main_v91) = val_main_v91 (F := F) x0 x1 x2 := by
  simp only [opsE2, ops, List.drop_succ_cons, List.drop_zero, List.take_succ_cons, List.take_zero]
  after_results_simp
  rw [h16, h75, h82]
  rfl

/-! ## The stretches in a row -/

/-- After all 151 operations the result buffer holds the last stage, a function of the three arguments. -/
theorem after_ops_v91 (V : Valuation τ sig (Elt F)) :
    after (ops (F := F)) V (↟main_v91)
      = val_main_v91 (F := F) (V (↟main_arg0)) (V (↟main_arg1)) (V (↟main_arg2)) := by
  rw [ops_split]
  simp only [StableHlo.after_append]
  have a15 := A_v15 V
  have a2 := A_arg2 V
  generalize after (opsA (F := F)) V = W1 at a15 a2 ⊢
  have b15 := (B1_v15 W1).trans a15
  have b16 := (B1_v16 W1).trans (congrArg (val_main_v16 (F := F)) a2)
  have b54 := (B1_v54 W1).trans (congrArg (val_main_v54 (F := F)) a2)
  generalize after (opsB1 (F := F)) W1 = W2 at b15 b16 b54 ⊢
  have c16 := (B2_v16 W2).trans b16
  have c57 := B2_v57 W2 _ b54
  have c63 := B2_v63 W2 _ _ _ b15 b54
  generalize after (opsB2 (F := F)) W2 = W3 at c16 c57 c63 ⊢
  have d16 := (C_v16 W3).trans c16
  have d57 := (C_v57 W3).trans c57
  have d64 := C_v64 W3 _ _ _ c63
  generalize after (opsC (F := F)) W3 = W4 at d16 d57 d64 ⊢
  have e16 := (D_v16 W4).trans d16
  have e68 := D_v68 W4 _ d57
  have e70 := D_v70 W4 _ _ _ d57 d64
  generalize after (opsD (F := F)) W4 = W5 at e16 e68 e70 ⊢
  have f16 := (E1_v16 W5).trans e16
  have f75 := E1_v75 W5 _ e68
  have f82 := E1_v82 W5 _ _ _ e68 e70
  generalize after (opsE1 (F := F)) W5 = W6 at f16 f75 f82 ⊢
  exact E2_v91 W6 _ _ _ f16 f75 f82

/-! ## The arguments: no operation writes one -/

theorem after_ops_arg0 (V : Valuation τ sig (Elt F)) : after (ops (F := F)) V (↟main_arg0) = V (↟main_arg0) := by
  simp only [ops]
  after_results_simp

theorem after_ops_arg1 (V : Valuation τ sig (Elt F)) : after (ops (F := F)) V (↟main_arg1) = V (↟main_arg1) := by
  simp only [ops]
  after_results_simp

theorem after_ops_arg2 (V : Valuation τ sig (Elt F)) : after (ops (F := F)) V (↟main_arg2) = V (↟main_arg2) := by
  simp only [ops]
  after_results_simp

/-- Every operation determines its results. -/
theorem ops_fresh : (ops : List (HloOp τ sig (Elt F))).Forall fun op => op.fresh = ∅ := by
  simp only [ops, List.Forall]
  repeat' apply And.intro
  all_goals rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91)
          = val_main_v91 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v91).trans (after_ops_v91 _),
      (h c main_arg0).trans (after_ops_arg0 _),
      (h c main_arg1).trans (after_ops_arg1 _),
      (h c main_arg2).trans (after_ops_arg2 _)⟩)
    (run_seq scopedRefs_eq scopedSems_eq defs main (fun _ => ops) main_eq (fun _ => ops_sub) m ρ
      (fun _ => List.forall_iff_forall_mem.mp ops_fresh))

end Cert.ReferenceIdeal.Stages

end
-- ==== Proof.Spec.lean ====
/-
  The mathematics both programs compute, stated once over the extended reals.

  Embeddings x : [2, 2, 64, 1024] (image, view, channel, pixel) are read as 4096 rows of 64 channels, row
  n = image * 2048 + view * 1024 + pixel. A row is divided by max (its Euclidean norm) 1e-12; the similarity of a
  student row and a teacher row is the dot product of the two normalised rows. For a query row n the logits against the
  other rows are the similarities scaled by the inverse temperature; the row's own position is masked to -∞, and only
  rows of the same image take part. The quantity of interest per row is

      A n = Σ_j w n j * (log-softmax of the masked logits at j),   B n = Σ_j w n j,

  w n j = 1 when j is another position of n's image carrying n's label, else 0. The loss is a fixed expression
  (`tail`) in A, B and the labels.

  Two shapes of the same row quantity are stated. The blocked one (`kRowA`, `kRowB`) ranges over the 2048 positions of
  the query's own image, masks the query's own position, and multiplies by the inverse temperature. The full one
  (`rRowA`, `rRowB`) ranges over all 4096 positions, masks every position that is not another position of the same
  image, divides by the temperature, and replaces a -∞ log-probability by 0 before weighting it. Their equality is the
  content of the certificate (Proof/Bridge.lean).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-! ## Shapes and constants -/

abbrev SEmb : Shape := ⟨4, ![2, 2, 64, 1024]⟩
abbrev SLab : Shape := ⟨3, ![2, 2, 1024]⟩
abbrev SRows : Shape := ⟨1, ![4096]⟩

/-- 1e-12 as f32, the floor under a row's norm. -/
def eps12 : EReal := Ideal.ofBits .f32 0x2B8CBCCC#32
/-- 1e-8 as f32. -/
def eps8 : EReal := Ideal.ofBits .f32 0x322BCC77#32
/-- The temperature 0.1 as f32: the dyadic 13421773 / 2^27. -/
def tempD : EReal := Ideal.ofBits .f32 0x3DCCCCCD#32
/-- The inverse temperature: the exact reciprocal of `tempD`. -/
def invT : EReal := ((134217728 / 13421773 : ℝ) : EReal)

/-! ## One row against a family of rows -/

/-- The norm of a row, floored at 1e-12. -/
def nrmV (v : Fin 64 → EReal) : EReal := max (Ideal.sqrt (∑ c : Fin 64, v c * v c)) eps12
/-- The dot product of two rows, each divided by its floored norm. -/
def cosV (q k : Fin 64 → EReal) : EReal := ∑ c : Fin 64, Ideal.div (q c) (nrmV q) * Ideal.div (k c) (nrmV k)
/-- The maximum of finitely many extended reals, from -∞. -/
def rowMax {ι : Type} [Fintype ι] (ℓ : ι → EReal) : EReal := (Finset.univ : Finset ι).fold max ⊥ ℓ
/-- The log-softmax of ℓ at j, shifted by M: (ℓ j - M) - log Σ exp (ℓ - M). -/
def logProb {ι : Type} [Fintype ι] (ℓ : ι → EReal) (M : EReal) (j : ι) : EReal :=
  (ℓ j - M) - Ideal.log (∑ j' : ι, Ideal.exp (ℓ j' - M))

/-! ### The blocked shape -/

/-- Logits of a query row against the rows `K`: -∞ at the query's own position, else similarity times `invT`. -/
def kLogits {ι : Type} (q : Fin 64 → EReal) (K : ι → Fin 64 → EReal) (self : ι → Prop) [DecidablePred self] (j : ι) : EReal :=
  if self j then ⊥ else cosV q (K j) * invT
/-- Weight 1 on a position carrying the query's label other than the query's own. -/
def kWeight {ι : Type} (self same : ι → Prop) [DecidablePred self] [DecidablePred same] (j : ι) : EReal :=
  if same j ∧ ¬ self j then 1 else 0
def kRowA {ι : Type} [Fintype ι] (q : Fin 64 → EReal) (K : ι → Fin 64 → EReal) (self same : ι → Prop)
    [DecidablePred self] [DecidablePred same] : EReal :=
  ∑ j : ι, kWeight self same j * logProb (kLogits q K self) (rowMax (kLogits q K self)) j
def kRowB {ι : Type} [Fintype ι] (self same : ι → Prop) [DecidablePred self] [DecidablePred same] : EReal :=
  ∑ j : ι, kWeight self same j

/-! ### The full shape -/

/-- Logits of a query row against the rows `K`: similarity divided by `tempD` where `keep`, else -∞. -/
def rLogits {ι : Type} (q : Fin 64 → EReal) (K : ι → Fin 64 → EReal) (keep : ι → Prop) [DecidablePred keep] (j : ι) : EReal :=
  if keep j then Ideal.div (cosV q (K j)) tempD else ⊥
def rWeight {ι : Type} (pos : ι → Prop) [DecidablePred pos] (j : ι) : EReal := if pos j then 1 else 0
/-- A -∞ read as 0. -/
def unInf (x : EReal) : EReal := if x = ⊥ then 0 else x
def rRowA {ι : Type} [Fintype ι] (q : Fin 64 → EReal) (K : ι → Fin 64 → EReal) (keep pos : ι → Prop)
    [DecidablePred keep] [DecidablePred pos] : EReal :=
  ∑ j : ι, rWeight pos j * unInf (logProb (rLogits q K keep) (max ⊥ (rowMax (rLogits q K keep))) j)
def rRowB {ι : Type} [Fintype ι] (pos : ι → Prop) [DecidablePred pos] : EReal := ∑ j : ι, rWeight pos j

/-! ## The arrays -/

def img (n : Fin 4096) : Fin 2 := ⟨n.val / 2048, by omega⟩
def view (n : Fin 4096) : Fin 2 := ⟨n.val / 1024 % 2, by omega⟩
def pix (n : Fin 4096) : Fin 1024 := ⟨n.val % 1024, by omega⟩
/-- Position j of n's image, as a flat row. -/
def inImg (n : Fin 4096) (j : Fin 2048) : Fin 4096 := ⟨n.val / 2048 * 2048 + j.val, by omega⟩

/-- Row n of the embeddings: its 64 channels. -/
def row (x : SEmb.Idx → EReal) (n : Fin 4096) : Fin 64 → EReal := fun c => x (ix4 (img n) (view n) c (pix n))
/-- The label of row n. -/
def lab (l : SLab.Idx → BitVec 32) (n : Fin 4096) : BitVec 32 := l (ix3 (img n) (view n) (pix n))

/-- Blocked: over the 2048 positions of n's image. -/
def AK (x0 x1 : SEmb.Idx → EReal) (l : SLab.Idx → BitVec 32) (n : Fin 4096) : EReal :=
  kRowA (row x0 n) (fun j : Fin 2048 => row x1 (inImg n j)) (fun j => j.val = n.val % 2048) (fun j => lab l n = lab l (inImg n j))
def BK (l : SLab.Idx → BitVec 32) (n : Fin 4096) : EReal :=
  kRowB (ι := Fin 2048) (fun j => j.val = n.val % 2048) (fun j => lab l n = lab l (inImg n j))
/-- Full: over all 4096 positions. -/
def AR (x0 x1 : SEmb.Idx → EReal) (l : SLab.Idx → BitVec 32) (n : Fin 4096) : EReal :=
  rRowA (row x0 n) (fun n' : Fin 4096 => row x1 n') (fun n' => n.val / 2048 = n'.val / 2048 ∧ n.val ≠ n'.val)
    (fun n' => n.val / 2048 = n'.val / 2048 ∧ lab l n = lab l n' ∧ n.val ≠ n'.val)
def BR (l : SLab.Idx → BitVec 32) (n : Fin 4096) : EReal :=
  rRowB (ι := Fin 4096) (fun n' => n.val / 2048 = n'.val / 2048 ∧ lab l n = lab l n' ∧ n.val ≠ n'.val)

/-- A function of the flat row as an array over the rank-1 index. -/
def asRows (f : Fin 4096 → EReal) : SRows.Idx → EReal := fun i => f ⟨(i 0).val, (i 0).isLt⟩
/-- The labels as a flat array. -/
def labRows (l : SLab.Idx → BitVec 32) : SRows.Idx → BitVec 32 := fun i => lab l ⟨(i 0).val, (i 0).isLt⟩

/-! ## The loss from the per-row quantities -/

/-- Row i has a positive: B i > 1e-8, as a bit. -/
def validBit (B : SRows.Idx → EReal) (i : SRows.Idx) : BitVec 1 := Ideal.cmp .ogt (B i) eps8
/-- The number of rows with a positive, counted in the reals. -/
def nValid (B : SRows.Idx → EReal) : EReal := ∑ i : SRows.Idx, (((validBit B i).toNat : ℝ) : EReal)
/-- The number of rows with a positive and a label other than 0. -/
def nFg (B : SRows.Idx → EReal) (lf : SRows.Idx → BitVec 32) : EReal :=
  ∑ i : SRows.Idx, (((IntOp.cmpi .ne (lf i) 0#32).toNat : ℝ) : EReal) * (((validBit B i).toNat : ℝ) : EReal)
/-- - (Σ over rows with a positive of A / (B + 1e-8)) / nValid, times nFg, over nFg + 1e-8. -/
def tail (A B : SRows.Idx → EReal) (lf : SRows.Idx → BitVec 32) : EReal :=
  Ideal.div
    (Ideal.div (-(∑ i : SRows.Idx, Scalar.select (validBit B i) (Ideal.div (A i) (B i + eps8)) 0)) (nValid B) * nFg B lf)
    (nFg B lf + eps8)

end Cert.Spec

end
-- ==== Proof.KPayEntries.lean ====
/-
  The body's intermediate arrays, entry by entry.
  Entry (r, j) of the scaled similarities is the dot product of query row r and key row j, each divided by its floored
  norm, times the inverse temperature. Entry (r, j) of the self mask says that key j is the query's own position,
  qt * 256 + r. The key labels are a row, the query labels a column broadcast along the keys; the weight at (r, j) is 1
  when the two labels agree and the self mask is clear, else 0.
-/
import proofs.«173573_j6279242187472_1_alg».proof.Proof.Gen.KernelIdeal.Skeleton
import proofs.«173573_j6279242187472_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.TcCoe Idealize.ShloMosaic.ValueIdx Cert.KernelIdeal Cert.KernelIdeal.Gen
open scoped BigOperators

/-- Row r of a block of queries. -/
def qrow (x0 : Vec Ideal S1x256x64 .f32) (r : Fin 256) : Fin 64 → EReal := fun c => x0 (ix3 (0 : Fin 1) r c)
/-- Row j of a block of keys. -/
def krow (x1 : Vec Ideal S1x2048x64 .f32) (j : Fin 2048) : Fin 64 → EReal := fun c => x1 (ix3 (0 : Fin 1) j c)

/-! ## Layout operations and reductions read at one entry -/

/-- A column [a, 1] broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the lanes of an [a, b] array, at row p, is the sum over the row's b entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 h hφ hacc (ix1 p) = ∑ c : Fin b, src (ix2 p c) := by
  refine (Ideal.multiReduction_add_single src _ h hφ hacc (ix1 p)).trans ?_
  refine Finset.sum_congr rfl fun c _ => congrArg src ?_
  funext ax
  match ax with
  | ⟨0, _⟩ => rfl
  | ⟨1, _⟩ => rfl

/-- A row of an [n, 64] array divided by its floored norm, entry by entry. -/
theorem normRow_apply {n : ℕ} (x : FVec Ideal ⟨2, ![n, 64]⟩ .f32)
    (hred : (⟨2, ![n, 64]⟩ : Shape).Reduces [1] ⟨1, ![n]⟩) (hφ : FKind.Formats .f32)
    (hacc : (0x00000000#32 : BitVec 32) = FKind.add.neutral .f32 hφ)
    (hsc : (⟨1, ![n]⟩ : Shape).ShapeCasts ⟨2, ![n, 1]⟩) (hbc : (⟨2, ![n, 1]⟩ : Shape).Broadcasts ⟨2, ![n, 64]⟩)
    (p : Fin n) (c : Fin 64) :
    divf x (broadcastTo ⟨2, ![n, 64]⟩
        (maximumf (sqrt (shapeCast ⟨2, ![n, 1]⟩ (multiReduction (F := Ideal) .add [1] ⟨1, ![n]⟩ (mulf x x) 0x00000000#32 hred hφ hacc) hsc))
          (broadcast ⟨2, ![n, 1]⟩ (Scalar.ofBits (F := Ideal) .f32 0x2B8CBCCC#32))) hbc) (ix2 p c)
      = Ideal.div (x (ix2 p c)) (Cert.Spec.nrmV fun c' => x (ix2 p c')) := by
  rw [divf_apply, broadcastTo_a1_ab_apply, maximumf_apply]
  show Ideal.div _ (max (Ideal.sqrt (shapeCast ⟨2, ![n, 1]⟩ _ hsc (ix2 p (0 : Fin 1)))) _) = _
  rw [shapeCast_a_a1_apply, laneSum_apply]
  rfl

/-- The left operand's index at output index i and contracted index q: its row is i's row. -/
theorem lhs_axis0 (i : S256x2048.Idx) (q : dot_S256x64_S64x2048_S256x2048_1_0_0_1_n_n.contr.Idx) :
    (dot_S256x64_S64x2048_S256x2048_1_0_0_1_n_n.lhsIdx i q 0).val = (i 0).val := by
  unfold DotDims.lhsIdx
  rw [dif_neg (show ¬(0 : Fin S256x64.rank) ∈ dot_S256x64_S64x2048_S256x2048_1_0_0_1_n_n.lhsBatch by decide), dif_pos (show (0 : Fin S256x64.rank) ∈ dot_S256x64_S64x2048_S256x2048_1_0_0_1_n_n.lhsNonContracting by decide)]
  rfl
/-- Its column is the contracted coordinate. -/
theorem lhs_axis1 (i : S256x2048.Idx) (q : dot_S256x64_S64x2048_S256x2048_1_0_0_1_n_n.contr.Idx) :
    (dot_S256x64_S64x2048_S256x2048_1_0_0_1_n_n.lhsIdx i q 1).val = (q ⟨0, by decide⟩).val :=
  dot_S256x64_S64x2048_S256x2048_1_0_0_1_n_n.lhsIdx_val_of_single rfl i q
/-- The right operand's index: its row is the contracted coordinate. -/
theorem rhs_axis0 (i : S256x2048.Idx) (q : dot_S256x64_S64x2048_S256x2048_1_0_0_1_n_n.contr.Idx) :
    (dot_S256x64_S64x2048_S256x2048_1_0_0_1_n_n.rhsIdx i q 0).val = (q ⟨0, by decide⟩).val :=
  dot_S256x64_S64x2048_S256x2048_1_0_0_1_n_n.rhsIdx_val_of_single rfl i q
/-- Its column is i's column. -/
theorem rhs_axis1 (i : S256x2048.Idx) (q : dot_S256x64_S64x2048_S256x2048_1_0_0_1_n_n.contr.Idx) :
    (dot_S256x64_S64x2048_S256x2048_1_0_0_1_n_n.rhsIdx i q 1).val = (i 1).val := by
  unfold DotDims.rhsIdx
  rw [dif_neg (show ¬(1 : Fin S64x2048.rank) ∈ dot_S256x64_S64x2048_S256x2048_1_0_0_1_n_n.rhsBatch by decide), dif_pos (show (1 : Fin S64x2048.rank) ∈ dot_S256x64_S64x2048_S256x2048_1_0_0_1_n_n.rhsNonContracting by decide)]
  rfl

/-- The matrix product into a zero accumulator, at (r, j): the sum over the 64 contracted coordinates. -/
theorem matmul_ix2_apply (A : FVec Ideal S256x64 .bf16) (B : FVec Ideal S64x2048 .bf16) (r : Fin 256) (j : Fin 2048) :
    matmul dot_S256x64_S64x2048_S256x2048_1_0_0_1_n_n none A B (constant (F := Ideal) S256x2048 .f32 0x00000000#32) (ix2 r j)
      = ∑ k : Fin 64, A (ix2 r k) * B (ix2 k j) := by
  simp only [matmul]
  rw [Ideal.matmul_constant_zero_apply, ← Equiv.sum_comp (ValueIdx.contrEquiv1 dot_S256x64_S64x2048_S256x2048_1_0_0_1_n_n 64 rfl rfl).symm]
  refine Finset.sum_congr rfl fun k _ => ?_
  have hk := ValueIdx.contrEquiv1_symm_val dot_S256x64_S64x2048_S256x2048_1_0_0_1_n_n 64 rfl rfl k
  have el : dot_S256x64_S64x2048_S256x2048_1_0_0_1_n_n.lhsIdx (ix2 r j) ((ValueIdx.contrEquiv1 dot_S256x64_S64x2048_S256x2048_1_0_0_1_n_n 64 rfl rfl).symm k) = ix2 r k := funext fun a => Fin.ext (by
    match a with
    | ⟨0, _⟩ => exact lhs_axis0 _ _
    | ⟨1, _⟩ => exact (lhs_axis1 _ _).trans hk)
  have er : dot_S256x64_S64x2048_S256x2048_1_0_0_1_n_n.rhsIdx (ix2 r j) ((ValueIdx.contrEquiv1 dot_S256x64_S64x2048_S256x2048_1_0_0_1_n_n 64 rfl rfl).symm k) = ix2 k j := funext fun a => Fin.ext (by
    match a with
    | ⟨0, _⟩ => exact (rhs_axis0 _ _).trans hk
    | ⟨1, _⟩ => exact rhs_axis1 _ _)
  rw [el, er]

/-- The named inverse temperature denotes the exact reciprocal of the temperature. -/
theorem inv_temperature_eq :
    Named.named (F := Ideal) Cert.KernelIdeal.κ "inv_temperature" (φ := .f32) 0x41200000#32 = Cert.Spec.invT :=
  IdealRules.named_const.ideal_named_scalar _ _ _ _ rfl

/-! ## Words: comparisons of labels and of positions -/

/-- Comparing a word with itself gives the set bit. -/
theorem cmpi_eq_self {w : ℕ} (a : BitVec w) : IntOp.cmpi .eq a a = 1#1 := by
  show BitVec.ofBool (a == a) = 1#1
  rw [beq_self_eq_true]; rfl

/-- Comparing two different words gives the clear bit. -/
theorem cmpi_eq_of_ne {w : ℕ} {a b : BitVec w} (h : a ≠ b) : IntOp.cmpi .eq a b = 0#1 := by
  show BitVec.ofBool (a == b) = 0#1
  rw [beq_eq_false_iff_ne.mpr h]; rfl

/-- The weight bit as a number: 1 when the two words agree and the mask bit is clear, else 0. -/
theorem weight_word (a b : BitVec 32) (c : BitVec 1) :
    ((((IntOp.andi (IntOp.cmpi .eq a b) (IntOp.xori c 1#1)).setWidth 32).toInt : ℝ) : EReal)
      = if a = b ∧ ¬ c = 1#1 then (1 : EReal) else 0 := by
  rcases BitVec.eq_zero_or_eq_one c with hc | hc
  · by_cases hab : a = b
    · subst hab; subst hc
      have : IntOp.cmpi .eq a a = 1#1 := cmpi_eq_self a
      rw [this, if_pos ⟨rfl, by decide⟩]
      have : ((IntOp.andi 1#1 (IntOp.xori 0#1 1#1)).setWidth 32).toInt = 1 := by decide
      rw [this]; simp
    · subst hc
      have : IntOp.cmpi .eq a b = 0#1 := cmpi_eq_of_ne hab
      rw [this, if_neg (fun h => hab h.1)]
      have : ((IntOp.andi 0#1 (IntOp.xori 0#1 1#1)).setWidth 32).toInt = 0 := by decide
      rw [this]; simp
  · subst hc
    rw [if_neg (fun h => h.2 rfl)]
    rcases BitVec.eq_zero_or_eq_one (IntOp.cmpi .eq a b) with h0 | h1
    · rw [h0]
      have : ((IntOp.andi 0#1 (IntOp.xori 1#1 1#1)).setWidth 32).toInt = 0 := by decide
      rw [this]; simp
    · rw [h1]
      have : ((IntOp.andi 1#1 (IntOp.xori 1#1 1#1)).setWidth 32).toInt = 0 := by decide
      rw [this]; simp

/-- Word equality of small numbers: a + b * 256 against c, all far below 2^32. -/
theorem selfmask_word (r q j : ℕ) (hr : r < 256) (hq : q < 8) (hj : j < 2048) :
    IntOp.cmpi .eq (IntOp.addi (BitVec.ofNat 32 r) (Scalar.muli (BitVec.ofNat 32 q) 256#32)) (BitVec.ofNat 32 j)
      = if j = q * 256 + r then 1#1 else 0#1 := by
  have hx : (IntOp.addi (BitVec.ofNat 32 r) (Scalar.muli (BitVec.ofNat 32 q) 256#32)).toNat = r + q * 256 := by
    show (BitVec.ofNat 32 r + BitVec.ofNat 32 q * 256#32).toNat = _
    rw [BitVec.toNat_add, BitVec.toNat_mul, BitVec.toNat_ofNat, BitVec.toNat_ofNat, BitVec.toNat_ofNat]
    omega
  have hy : (BitVec.ofNat 32 j).toNat = j := by
    rw [BitVec.toNat_ofNat]; omega
  by_cases h : j = q * 256 + r
  · rw [if_pos h]
    have : IntOp.addi (BitVec.ofNat 32 r) (Scalar.muli (BitVec.ofNat 32 q) 256#32) = BitVec.ofNat 32 j :=
      BitVec.eq_of_toNat_eq (by rw [hx, hy]; omega)
    rw [this]; exact cmpi_eq_self _
  · rw [if_neg h]
    have : IntOp.addi (BitVec.ofNat 32 r) (Scalar.muli (BitVec.ofNat 32 q) 256#32) ≠ BitVec.ofNat 32 j := by
      intro he
      have := congrArg BitVec.toNat he
      rw [hx, hy] at this; omega
    exact cmpi_eq_of_ne this

/-! ## The entries -/

/-- The scaled similarities at (r, j). -/
theorem pay4_apply (v1 : Vec Ideal S1x256x64 .f32) (v3 : Vec Ideal S1x2048x64 .f32) (r : Fin 256) (j : Fin 2048) :
    k0_pay4 (F := Ideal) v1 v3 (ix2 r j) = Cert.Spec.cosV (qrow v1 r) (krow v3 j) * Cert.Spec.invT := by
  unfold k0_pay4
  refine (mulf_apply _ _ (ix2 r j)).trans ?_
  rw [broadcast_apply, inv_temperature_eq]
  congr 1
  refine (matmul_ix2_apply _ _ r j).trans ?_
  unfold Cert.Spec.cosV
  refine Finset.sum_congr rfl fun k _ => ?_
  congr 1
  · refine (truncf_apply (ψ := .bf16) _ bitsLt_bf16_f32 (ix2 r k)).trans ?_
    refine (normRow_apply _ _ _ _ _ _ r k).trans ?_
    have hrow : (fun c' => shapeCast S256x64 v1 shapeCasts_S1x256x64_S256x64 (ix2 r c')) = qrow v1 r :=
      funext fun c' => shapeCast_1ab_ab_apply v1 _ r c'
    rw [hrow, shapeCast_1ab_ab_apply]
    rfl
  · refine (transpose_ix2_apply _ _ k j).trans ?_
    refine (truncf_apply (ψ := .bf16) _ bitsLt_bf16_f32 (ix2 j k)).trans ?_
    refine (normRow_apply _ _ _ _ _ _ j k).trans ?_
    have hrow : (fun c' => shapeCast S2048x64 v3 shapeCasts_S1x2048x64_S2048x64 (ix2 j c')) = krow v3 j :=
      funext fun c' => shapeCast_1ab_ab_apply v3 _ j c'
    rw [hrow, shapeCast_1ab_ab_apply]
    rfl

/-- The self mask at (r, j), at query tile (i 1). -/
theorem pay5_apply (i : grid0.Coords) (r : Fin 256) (j : Fin 2048) :
    k0_pay5 i (ix2 r j) = if j.val = (i 1).val * 256 + r.val then 1#1 else 0#1 := by
  unfold k0_pay5
  have h1 : (i 1).val < 8 := (i 1).isLt
  have e31 : broadcastTo S256x2048 (addi (iota .tc S256x1 32 [0] iota_S256x1_d0_w32) (broadcast S256x1 (Scalar.muli (BitVec.ofNat 32 (i 1).val) 256#32))) broadcasts_S256x1_S256x2048 (ix2 r j)
      = IntOp.addi (BitVec.ofNat 32 r.val) (Scalar.muli (BitVec.ofNat 32 (i 1).val) 256#32) := by
    refine (broadcastTo_a1_ab_apply _ _ r j).trans ?_
    show IntOp.addi (iota .tc S256x1 32 [0] iota_S256x1_d0_w32 (ix2 r (0 : Fin 1))) _ = _
    rw [iota_single_apply]
    rfl
  have e32 : broadcastTo S256x2048 (iota .tc S1x2048 32 [1] iota_S1x2048_d1_w32) broadcasts_S1x2048_S256x2048 (ix2 r j)
      = BitVec.ofNat 32 j.val := by
    refine (broadcastTo_1b_ab_apply _ _ r j).trans ?_
    rw [iota_single_apply]
  show IntOp.cmpi .eq _ _ = _
  rw [e31, e32]
  exact selfmask_word r.val (i 1).val j.val r.isLt h1 j.isLt

/-- The key labels as a row. -/
theorem pay6_apply (v36 : Vec Ideal S1x1x2048 .i32) (j : Fin 2048) :
    k0_pay6 (F := Ideal) v36 (ix2 (0 : Fin 1) j) = v36 (ix3 (0 : Fin 1) (0 : Fin 1) j) := by
  unfold k0_pay6
  exact shapeCast_1ab_ab_apply v36 _ (0 : Fin 1) j

/-- The query labels broadcast along the keys. -/
theorem pay7_apply (v34 : Vec Ideal S1x256x1 .i32) (r : Fin 256) (j : Fin 2048) :
    k0_pay7 (F := Ideal) v34 (ix2 r j) = v34 (ix3 (0 : Fin 1) r (0 : Fin 1)) := by
  unfold k0_pay7
  refine (broadcastTo_a1_ab_apply _ _ r j).trans ?_
  exact shapeCast_1ab_ab_apply v34 _ r (0 : Fin 1)

/-- The weight at (r, j): labels agree and the self mask is clear. -/
theorem pay1_apply (v33 : IVec S256x2048 1) (v37 : IVec S1x2048 32) (v38 : IVec S256x2048 32) (r : Fin 256) (j : Fin 2048) :
    k0_pay1 (F := Ideal) v33 v37 v38 (ix2 r j)
      = if v38 (ix2 r j) = v37 (ix2 (0 : Fin 1) j) ∧ ¬ v33 (ix2 r j) = 1#1 then (1 : EReal) else 0 := by
  unfold k0_pay1
  have hb : broadcastTo S256x2048 v37 broadcasts_S1x2048_S256x2048 (ix2 r j) = v37 (ix2 (0 : Fin 1) j) :=
    broadcastTo_1b_ab_apply v37 _ r j
  rw [← hb]
  exact weight_word _ _ _

end Cert.KernelIdeal.Pay

end
-- ==== Proof.KPayload.lean ====
/-
  What one grid point's body leaves in its two output blocks, read at a row.
  The block of queries is [1, 256, 64], the block of keys [1, 2048, 64] (one whole image), the query labels [1, 256, 1],
  the key labels [1, 1, 2048]. At query-tile qt the query in block row r sits at position qt * 256 + r of its image.
  Row r of the first output is the weighted log-softmax sum of that query against the 2048 keys, with the query's own
  position masked to -∞ and weight 1 on the other keys carrying its label; row r of the second output is the number of
  those keys.
-/
import proofs.«173573_j6279242187472_1_alg».proof.Proof.KernelIdealFrame
import proofs.«173573_j6279242187472_1_alg».proof.Proof.KPayEntries
import proofs.«173573_j6279242187472_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.TcCoe Idealize.ShloMosaic.ValueIdx Cert.KernelIdeal Cert.KernelIdeal.Gen
open scoped BigOperators

/-! ## The two reductions along the keys, read at a row -/

/-- The index over row `r` with key coordinate `k` inserted is `(r, k)`. -/
theorem lift_row (h : S256x2048.Reduces [1] S256) (r : Fin 256) (k : Fin 2048) :
    h.lift (ix1 r) k = ix2 r k := by
  funext c
  match c with
  | ⟨0, _⟩ => exact Fin.ext rfl
  | ⟨1, _⟩ => exact Fin.ext rfl

/-- A sum along the keys at row `r` is the sum over the 2048 keys. -/
theorem rowSum_apply (src : FVec Ideal S256x2048 .f32) (h : S256x2048.Reduces [1] S256) (hφ : FKind.Formats .f32)
    (hacc : (0x00000000#32 : BitVec 32) = FKind.add.neutral .f32 hφ) (r : Fin 256) :
    multiReduction (F := Ideal) .add [1] S256 src 0x00000000#32 h hφ hacc (ix1 r) = ∑ j : Fin 2048, src (ix2 r j) :=
  (Ideal.multiReduction_add_single src 0x00000000#32 h hφ hacc (ix1 r)).trans
    (Finset.sum_congr rfl fun k _ => congrArg src (lift_row h r k))

/-- The accumulator of a maximum is -∞. -/
theorem ofBits_negInf : Ideal.ofBits .f32 0xFF800000#32 = ⊥ := by simp [Ideal.ofBits, Ideal.ieee]

/-- A maximum along the keys at row `r` is the maximum over the 2048 keys, from -∞. -/
theorem rowMax_apply (src : FVec Ideal S256x2048 .f32) (h : S256x2048.Reduces [1] S256) (hφ : FKind.Formats .f32)
    (hacc : (0xFF800000#32 : BitVec 32) = FKind.maximumf.neutral .f32 hφ) (r : Fin 256) :
    multiReduction (F := Ideal) .maximumf [1] S256 src 0xFF800000#32 h hφ hacc (ix1 r)
      = Cert.Spec.rowMax fun j : Fin 2048 => src (ix2 r j) := by
  refine (Ideal.multiReduction_maximumf_single src 0xFF800000#32 h hφ hacc (ix1 r)).trans ?_
  unfold Cert.Spec.rowMax
  rw [show FloatOps.ofBits (F := Ideal) .f32 0xFF800000#32 = (⊥ : EReal) from ofBits_negInf]
  exact congrArg (Finset.univ.fold max ⊥) (funext fun k => congrArg src (lift_row h r k))

/-! ## The body's arrays along a row -/

/-- The fill the body puts on the query's own position is -∞. -/
theorem neg_big_eq :
    Named.named (F := Ideal) Cert.KernelIdeal.κ "neg_big" (φ := .f32) 0xFF333332#32 = (⊥ : EReal) :=
  IdealRules.named_const.ideal_named_scalar _ _ _ _ rfl

/-- Row `r` of the masked logits: -∞ where the self mask is set, else the logit. -/
def mrow (v26 : FVec Ideal S256x2048 .f32) (v33 : IVec S256x2048 1) (r : Fin 256) : Fin 2048 → EReal :=
  fun j => Scalar.select (v33 (ix2 r j)) ⊥ (v26 (ix2 r j))

/-- The masked logits, as the body builds them. -/
def mArr (v26 : FVec Ideal S256x2048 .f32) (v33 : IVec S256x2048 1) : FVec Ideal S256x2048 .f32 :=
  select v33 (broadcast S256x2048 (Named.named (F := Ideal) κ "neg_big" (φ := .f32) 0xFF333332#32)) v26

theorem mArr_apply (v26 : FVec Ideal S256x2048 .f32) (v33 : IVec S256x2048 1) (r : Fin 256) (j : Fin 2048) :
    mArr v26 v33 (ix2 r j) = mrow v26 v33 r j :=
  congrArg (fun c => Scalar.select (v33 (ix2 r j)) c (v26 (ix2 r j))) neg_big_eq

/-- Each row's maximum, broadcast back along the keys. -/
def mMax (v26 : FVec Ideal S256x2048 .f32) (v33 : IVec S256x2048 1) : FVec Ideal S256x2048 .f32 :=
  broadcastTo S256x2048
    (shapeCast S256x1
      (multiReduction (F := Ideal) .maximumf [1] S256 (mArr v26 v33) 0xFF800000#32 reduces_S256x2048_S256 (.inl rfl) rfl)
      shapeCasts_S256_S256x1)
    broadcasts_S256x1_S256x2048

theorem mMax_apply (v26 : FVec Ideal S256x2048 .f32) (v33 : IVec S256x2048 1) (r : Fin 256) (j : Fin 2048) :
    mMax v26 v33 (ix2 r j) = Cert.Spec.rowMax (mrow v26 v33 r) := by
  unfold mMax
  refine (broadcastTo_a1_ab_apply _ _ r j).trans ?_
  refine (shapeCast_a_a1_apply _ _ r (0 : Fin 1)).trans ?_
  refine (rowMax_apply _ _ _ _ r).trans ?_
  exact congrArg Cert.Spec.rowMax (funext fun j' => mArr_apply v26 v33 r j')

/-- The logits less their row's maximum. -/
def mShift (v26 : FVec Ideal S256x2048 .f32) (v33 : IVec S256x2048 1) : FVec Ideal S256x2048 .f32 :=
  subf (mArr v26 v33) (mMax v26 v33)

theorem mShift_apply (v26 : FVec Ideal S256x2048 .f32) (v33 : IVec S256x2048 1) (r : Fin 256) (j : Fin 2048) :
    mShift v26 v33 (ix2 r j) = mrow v26 v33 r j - Cert.Spec.rowMax (mrow v26 v33 r) := by
  show mArr v26 v33 (ix2 r j) - mMax v26 v33 (ix2 r j) = _
  rw [mArr_apply, mMax_apply]

/-- The logarithm of each row's sum of exponentials, broadcast back along the keys. -/
def mLse (v26 : FVec Ideal S256x2048 .f32) (v33 : IVec S256x2048 1) : FVec Ideal S256x2048 .f32 :=
  broadcastTo S256x2048
    (log (shapeCast S256x1
      (multiReduction (F := Ideal) .add [1] S256 (exp (mShift v26 v33)) 0x00000000#32 reduces_S256x2048_S256 (.inl rfl) rfl)
      shapeCasts_S256_S256x1))
    broadcasts_S256x1_S256x2048

theorem mLse_apply (v26 : FVec Ideal S256x2048 .f32) (v33 : IVec S256x2048 1) (r : Fin 256) (j : Fin 2048) :
    mLse v26 v33 (ix2 r j)
      = Ideal.log (∑ j' : Fin 2048, Ideal.exp (mrow v26 v33 r j' - Cert.Spec.rowMax (mrow v26 v33 r))) := by
  unfold mLse
  refine (broadcastTo_a1_ab_apply _ _ r j).trans ?_
  refine congrArg Ideal.log ?_
  refine (shapeCast_a_a1_apply _ _ r (0 : Fin 1)).trans ?_
  refine (rowSum_apply _ _ _ _ r).trans ?_
  exact Finset.sum_congr rfl fun j' _ => congrArg Ideal.exp (mShift_apply v26 v33 r j')

/-- The first stored value is the row sums of weight times log-probability, as a [1, 256, 1] block. -/
theorem pay2_eq (v26 : FVec Ideal S256x2048 .f32) (v33 : IVec S256x2048 1) (v37 : IVec S1x2048 32)
    (v38 : IVec S256x2048 32) :
    k0_pay2 (F := Ideal) v26 v33 v37 v38
      = shapeCast S1x256x1
          (shapeCast S256x1
            (multiReduction (F := Ideal) .add [1] S256
              (mulf (k0_pay1 (F := Ideal) v33 v37 v38) (subf (mShift v26 v33) (mLse v26 v33)))
              0x00000000#32 reduces_S256x2048_S256 (.inl rfl) rfl)
            shapeCasts_S256_S256x1)
          shapeCasts_S256x1_S1x256x1 := rfl

/-- The first stored value at row `r`, over any logits, self mask and labels. -/
theorem pay2_apply (v26 : FVec Ideal S256x2048 .f32) (v33 : IVec S256x2048 1) (v37 : IVec S1x2048 32)
    (v38 : IVec S256x2048 32) (r : Fin 256) :
    k0_pay2 (F := Ideal) v26 v33 v37 v38 (ix3 (0 : Fin 1) r (0 : Fin 1))
      = ∑ j : Fin 2048, k0_pay1 (F := Ideal) v33 v37 v38 (ix2 r j)
          * Cert.Spec.logProb (mrow v26 v33 r) (Cert.Spec.rowMax (mrow v26 v33 r)) j := by
  rw [pay2_eq]
  refine (shapeCast_ab_1ab_apply _ _ (0 : Fin 1) r (0 : Fin 1)).trans ?_
  refine (shapeCast_a_a1_apply _ _ r (0 : Fin 1)).trans ?_
  refine (rowSum_apply _ _ _ _ r).trans ?_
  refine Finset.sum_congr rfl fun j _ => ?_
  show k0_pay1 (F := Ideal) v33 v37 v38 (ix2 r j) * (mShift v26 v33 (ix2 r j) - mLse v26 v33 (ix2 r j)) = _
  rw [mShift_apply, mLse_apply]
  rfl

/-- The second stored value at row `r`: the row sum of the weights. -/
theorem pay3_apply (v33 : IVec S256x2048 1) (v37 : IVec S1x2048 32) (v38 : IVec S256x2048 32) (r : Fin 256) :
    k0_pay3 (F := Ideal) v33 v37 v38 (ix3 (0 : Fin 1) r (0 : Fin 1))
      = ∑ j : Fin 2048, k0_pay1 (F := Ideal) v33 v37 v38 (ix2 r j) := by
  unfold k0_pay3
  refine (shapeCast_ab_1ab_apply _ _ (0 : Fin 1) r (0 : Fin 1)).trans ?_
  refine (shapeCast_a_a1_apply _ _ r (0 : Fin 1)).trans ?_
  exact rowSum_apply _ _ _ _ r

/-! ## The body's arrays in the specification's words -/

/-- The self mask's bit at (r, j) is set exactly at the query's own position. -/
theorem self_bit (i : grid0.Coords) (r : Fin 256) (j : Fin 2048) :
    k0_pay5 i (ix2 r j) = 1#1 ↔ j.val = (i 1).val * 256 + r.val := by
  rw [pay5_apply]
  by_cases h : j.val = (i 1).val * 256 + r.val
  · rw [if_pos h]; exact ⟨fun _ => h, fun _ => rfl⟩
  · rw [if_neg h]; exact ⟨fun e => absurd e (by decide), fun e => absurd e h⟩

/-- Row `r` of the masked logits is the specification's logits of query row `r` against the keys. -/
theorem logits_row (i : grid0.Coords) (x0 : Vec Ideal S1x256x64 .f32) (x1 : Vec Ideal S1x2048x64 .f32) (r : Fin 256) :
    mrow (k0_pay4 (F := Ideal) x0 x1) (k0_pay5 i) r
      = Cert.Spec.kLogits (qrow x0 r) (krow x1) (fun j : Fin 2048 => j.val = (i 1).val * 256 + r.val) := by
  funext j
  unfold mrow Cert.Spec.kLogits
  rw [pay5_apply, pay4_apply]
  by_cases h : j.val = (i 1).val * 256 + r.val
  · rw [if_pos h, if_pos h]; exact select_one _ _
  · rw [if_neg h, if_neg h]; exact select_zero _ _

/-- The weight at (r, j) is the specification's: the labels agree and j is not the query's own position. -/
theorem weight_row (i : grid0.Coords) (x2 : Vec Ideal S1x256x1 .i32) (x3 : Vec Ideal S1x1x2048 .i32)
    (r : Fin 256) (j : Fin 2048) :
    k0_pay1 (F := Ideal) (k0_pay5 i) (k0_pay6 (F := Ideal) x3) (k0_pay7 (F := Ideal) x2) (ix2 r j)
      = Cert.Spec.kWeight (fun j : Fin 2048 => j.val = (i 1).val * 256 + r.val)
          (fun j : Fin 2048 => x2 (ix3 (0 : Fin 1) r (0 : Fin 1)) = x3 (ix3 (0 : Fin 1) (0 : Fin 1) j)) j := by
  rw [pay1_apply, pay7_apply, pay6_apply]
  unfold Cert.Spec.kWeight
  by_cases hs : j.val = (i 1).val * 256 + r.val
  · have hb : k0_pay5 i (ix2 r j) = 1#1 := (self_bit i r j).mpr hs
    rw [if_neg (fun h => h.2 hb), if_neg (fun h => h.2 hs)]
  · have hb : ¬ k0_pay5 i (ix2 r j) = 1#1 := fun h => hs ((self_bit i r j).mp h)
    by_cases hl : x2 (ix3 (0 : Fin 1) r (0 : Fin 1)) = x3 (ix3 (0 : Fin 1) (0 : Fin 1) j)
    · rw [if_pos ⟨hl, hb⟩, if_pos ⟨hl, hs⟩]
    · rw [if_neg (fun h => hl h.1), if_neg (fun h => hl h.1)]

/-! ## The two output blocks -/

/-- A block's whole rectangle starts at zero on every axis. -/
theorem zero_offsets : (![0, 0, 0] : Fin 3 → Nat) = fun _ => 0 := funext fun a => by fin_cases a <;> rfl

/-- The first output block at row r. -/
theorem out4_apply (i : grid0.Coords) (x0 : Vec Ideal S1x256x64 .f32) (x1 : Vec Ideal S1x2048x64 .f32)
    (x2 : Vec Ideal S1x256x1 .i32) (x3 : Vec Ideal S1x1x2048 .i32) (r : Fin 256) :
    GenP.out0_4 (F := Ideal) i x0 x1 x2 x3 (ix3 (0 : Fin 1) r (0 : Fin 1))
      = Cert.Spec.kRowA (qrow x0 r) (krow x1) (fun j : Fin 2048 => j.val = (i 1).val * 256 + r.val)
          (fun j : Fin 2048 => x2 (ix3 (0 : Fin 1) r (0 : Fin 1)) = x3 (ix3 (0 : Fin 1) (0 : Fin 1) j)) := by
  unfold GenP.out0_4
  rw [View.canon_unit_zero zero_offsets]
  simp only [View.ld_unit_zero (S := S1x256x64) zero_offsets, View.ld_unit_zero (S := S1x2048x64) zero_offsets,
    View.ld_unit_zero (S := S1x256x1) zero_offsets, View.ld_unit_zero (S := S1x1x2048) zero_offsets]
  rw [pay2_apply]
  unfold Cert.Spec.kRowA
  rw [logits_row]
  exact Finset.sum_congr rfl fun j _ => congrArg (· * _) (weight_row i x2 x3 r j)

/-- The second output block at row r. -/
theorem out5_apply (i : grid0.Coords) (x0 : Vec Ideal S1x256x64 .f32) (x1 : Vec Ideal S1x2048x64 .f32)
    (x2 : Vec Ideal S1x256x1 .i32) (x3 : Vec Ideal S1x1x2048 .i32) (r : Fin 256) :
    GenP.out0_5 (F := Ideal) i x0 x1 x2 x3 (ix3 (0 : Fin 1) r (0 : Fin 1))
      = Cert.Spec.kRowB (ι := Fin 2048) (fun j : Fin 2048 => j.val = (i 1).val * 256 + r.val)
          (fun j : Fin 2048 => x2 (ix3 (0 : Fin 1) r (0 : Fin 1)) = x3 (ix3 (0 : Fin 1) (0 : Fin 1) j)) := by
  unfold GenP.out0_5
  rw [View.canon_unit_zero zero_offsets]
  simp only [View.ld_unit_zero (S := S1x256x1) zero_offsets, View.ld_unit_zero (S := S1x1x2048) zero_offsets]
  rw [pay3_apply]
  unfold Cert.Spec.kRowB
  exact Finset.sum_congr rfl fun j _ => weight_row i x2 x3 r j

end Cert.KernelIdeal.Pay

end
-- ==== Proof.KArrays.lean ====
/-
  From the blocks to the two result arrays of the kernel region.
  Grid point t = (image b, query tile qt) writes rows qt * 256 … qt * 256 + 255 of image b in both results; the sixteen
  points tile the [2, 2048, 1] arrays. The arrays the region reads are the host's re-layout of the arguments: the
  embeddings transposed to (image, view, pixel, channel) and flattened to [2, 2048, 64], the labels flattened to
  [2, 2048] and viewed as a column and as a row. So entry (b, r, 0) of the first result is the blocked row quantity
  of flat row b * 2048 + r, and of the second its count.
-/
import proofs.«173573_j6279242187472_1_alg».proof.Proof.KPayload
import Idealize.ShloMosaic.Lib.StableHlo.Run
import Idealize.ShloMosaic.Lib.ValueIdx
import Idealize.ShloMosaic.Lib.Pipeline.Value

set_option maxRecDepth 16384

noncomputable section

namespace Cert.KernelIdeal.Arr

open Idealize.ShloMosaic Idealize.ShloMosaic.TcCoe Idealize.ShloMosaic.ValueIdx Idealize.SL.Sem Cert.KernelIdeal Cert.KernelIdeal.Gen
open Idealize.ShloMosaic.Pipeline (Dat Cfg Window)
open scoped BigOperators

variable (m : (ℓ : Loc nD τ sig) → Buf (Elt Ideal) ℓ)

/-- Flat row of entry (b, r, 0). -/
def flat (y : S2x2048x1.Idx) : Fin 4096 := ⟨(y 0).val * 2048 + (y 1).val, by
  have h0 : (y 0).val < 2 := (y 0).isLt; have h1 : (y 1).val < 2048 := (y 1).isLt; omega⟩

/-- The first result of the region on core c: the blocked row quantity of each flat row. -/
def outA (c : Dev nD) : Vec Ideal S2x2048x1 .f32 := fun y =>
  Cert.Spec.AK (m ((c : Thread nD τ).loc main_arg0)) (m ((c : Thread nD τ).loc main_arg1)) (m ((c : Thread nD τ).loc main_arg2)) (flat y)
/-- The second result: the count. -/
def outB (c : Dev nD) : Vec Ideal S2x2048x1 .f32 := fun y =>
  Cert.Spec.BK (m ((c : Thread nD τ).loc main_arg2)) (flat y)

/-! ## The arrays the region reads, as the host prepared them -/

/-- The queries' array: the first argument transposed to (image, view, pixel, channel), then flattened. -/
theorem queries_eq (c : Dev nD) : (GenP.V m c main_v1 : S2x2048x64.Idx → EReal)
    = shapeCast S2x2048x64 (transpose S2x2x1024x64 [0, 1, 3, 2] (m ((c : Thread nD τ).loc main_arg0)) transposes_S2x2x64x1024_S2x2x1024x64_0_1_3_2) shapeCasts_S2x2x1024x64_S2x2048x64 := by
  dsimp only [GenP.V, GenP.V0]
  simp only [hostOps0, List.flatten_cons, List.flatten_nil, List.append_nil]
  after_results
  rfl

/-- The keys' array: the second argument, likewise. -/
theorem keys_eq (c : Dev nD) : (GenP.V m c main_v3 : S2x2048x64.Idx → EReal)
    = shapeCast S2x2048x64 (transpose S2x2x1024x64 [0, 1, 3, 2] (m ((c : Thread nD τ).loc main_arg1)) transposes_S2x2x64x1024_S2x2x1024x64_0_1_3_2) shapeCasts_S2x2x1024x64_S2x2048x64 := by
  dsimp only [GenP.V, GenP.V0]
  simp only [hostOps0, List.flatten_cons, List.flatten_nil, List.append_nil]
  after_results
  rfl

/-- The query labels: the labels flattened per image, viewed as a column. -/
theorem qlabels_eq (c : Dev nD) : (GenP.V m c main_v5 : S2x2048x1.Idx → BitVec 32)
    = broadcastInDim S2x2048x1 ![0, 1] bcast_S2x2048_S2x2048x1_0_1 (shapeCast S2x2048 (m ((c : Thread nD τ).loc main_arg2)) shapeCasts_S2x2x1024_S2x2048) := by
  dsimp only [GenP.V, GenP.V0]
  simp only [hostOps0, List.flatten_cons, List.flatten_nil, List.append_nil]
  after_results
  rfl

/-- The key labels: the same flat labels viewed as a row. -/
theorem klabels_eq (c : Dev nD) : (GenP.V m c main_v6 : S2x1x2048.Idx → BitVec 32)
    = broadcastInDim S2x1x2048 ![0, 2] bcast_S2x2048_S2x1x2048_0_2 (shapeCast S2x2048 (m ((c : Thread nD τ).loc main_arg2)) shapeCasts_S2x2x1024_S2x2048) := by
  dsimp only [GenP.V, GenP.V0]
  simp only [hostOps0, List.flatten_cons, List.flatten_nil, List.append_nil]
  after_results
  rfl

/-- Flat row n = b * 2048 + p splits as image b, view p / 1024, pixel p % 1024. -/
theorem split_row (b : Fin 2) (p : Fin 2048) (n : Fin 4096) (hn : n.val = b.val * 2048 + p.val) :
    (Cert.Spec.img n).val = b.val ∧ (Cert.Spec.view n).val = p.val / 1024 ∧ (Cert.Spec.pix n).val = p.val % 1024 := by
  have hb : b.val < 2 := b.isLt
  have hp : p.val < 2048 := p.isLt
  refine ⟨?_, ?_, ?_⟩
  · show n.val / 2048 = b.val; omega
  · show n.val / 1024 % 2 = p.val / 1024; omega
  · show n.val % 1024 = p.val % 1024; omega

/-- A transposed and flattened argument at (b, p, ch) is channel ch of flat row b * 2048 + p. -/
theorem rows_apply (x : S2x2x64x1024.Idx → EReal) (b : Fin 2) (p : Fin 2048) (ch : Fin 64) (n : Fin 4096)
    (hn : n.val = b.val * 2048 + p.val) :
    shapeCast S2x2048x64 (transpose S2x2x1024x64 [0, 1, 3, 2] x transposes_S2x2x64x1024_S2x2x1024x64_0_1_3_2) shapeCasts_S2x2x1024x64_S2x2048x64 (ix3 b p ch)
      = Cert.Spec.row x n ch := by
  obtain ⟨e0, e1, e2⟩ := split_row b p n hn
  have hp : p.val < 2048 := p.isLt
  refine (shapeCast_apply _ _ (ix3 b p ch) (ix4 (Cert.Spec.img n) (Cert.Spec.view n) (Cert.Spec.pix n) ch) ?_).trans ?_
  · rw [Shape.rowMajor_val_four, Shape.rowMajor_val_three]
    show (((Cert.Spec.img n).val * 2 + (Cert.Spec.view n).val) * 1024 + (Cert.Spec.pix n).val) * 64 + ch.val
      = (b.val * 2048 + p.val) * 64 + ch.val
    rw [e0, e1, e2]; omega
  · refine transpose_apply _ _ _ _ (ix4 (Cert.Spec.img n) (Cert.Spec.view n) ch (Cert.Spec.pix n)) fun a => ?_
    match a with
    | ⟨0, _⟩ => rfl
    | ⟨1, _⟩ => rfl
    | ⟨2, _⟩ => rfl
    | ⟨3, _⟩ => rfl

/-- The flattened labels at (b, p) are the label of flat row b * 2048 + p. -/
theorem flatlab_apply (l : S2x2x1024.Idx → BitVec 32) (b : Fin 2) (p : Fin 2048) (n : Fin 4096)
    (hn : n.val = b.val * 2048 + p.val) :
    shapeCast S2x2048 l shapeCasts_S2x2x1024_S2x2048 (ix2 b p) = Cert.Spec.lab l n := by
  obtain ⟨e0, e1, e2⟩ := split_row b p n hn
  have hp : p.val < 2048 := p.isLt
  refine shapeCast_apply _ _ (ix2 b p) (ix3 (Cert.Spec.img n) (Cert.Spec.view n) (Cert.Spec.pix n)) ?_
  rw [Shape.rowMajor_val_three, Shape.rowMajor_val_two]
  show ((Cert.Spec.img n).val * 2 + (Cert.Spec.view n).val) * 1024 + (Cert.Spec.pix n).val = b.val * 2048 + p.val
  rw [e0, e1, e2]; omega

theorem queries_apply (c : Dev nD) (b : Fin 2) (p : Fin 2048) (ch : Fin 64) (n : Fin 4096) (hn : n.val = b.val * 2048 + p.val) :
    (GenP.V m c main_v1 : S2x2048x64.Idx → EReal) (ix3 b p ch) = Cert.Spec.row (m ((c : Thread nD τ).loc main_arg0)) n ch := by
  rw [queries_eq]; exact rows_apply _ b p ch n hn

theorem keys_apply (c : Dev nD) (b : Fin 2) (p : Fin 2048) (ch : Fin 64) (n : Fin 4096) (hn : n.val = b.val * 2048 + p.val) :
    (GenP.V m c main_v3 : S2x2048x64.Idx → EReal) (ix3 b p ch) = Cert.Spec.row (m ((c : Thread nD τ).loc main_arg1)) n ch := by
  rw [keys_eq]; exact rows_apply _ b p ch n hn

theorem qlabels_apply (c : Dev nD) (b : Fin 2) (p : Fin 2048) (n : Fin 4096) (hn : n.val = b.val * 2048 + p.val) :
    (GenP.V m c main_v5 : S2x2048x1.Idx → BitVec 32) (ix3 b p (0 : Fin 1)) = Cert.Spec.lab (m ((c : Thread nD τ).loc main_arg2)) n := by
  rw [qlabels_eq]
  refine (broadcastInDim_apply _ _ _ (ix3 b p (0 : Fin 1)) (ix2 b p) fun a => ?_).trans (flatlab_apply _ b p n hn)
  match a with
  | ⟨0, _⟩ => rfl
  | ⟨1, _⟩ => rfl

theorem klabels_apply (c : Dev nD) (b : Fin 2) (p : Fin 2048) (n : Fin 4096) (hn : n.val = b.val * 2048 + p.val) :
    (GenP.V m c main_v6 : S2x1x2048.Idx → BitVec 32) (ix3 b (0 : Fin 1) p) = Cert.Spec.lab (m ((c : Thread nD τ).loc main_arg2)) n := by
  rw [klabels_eq]
  refine (broadcastInDim_apply _ _ _ (ix3 b (0 : Fin 1) p) (ix2 b p) fun a => ?_).trans (flatlab_apply _ b p n hn)
  match a with
  | ⟨0, _⟩ => rfl
  | ⟨1, _⟩ => rfl

/-! ## The row quantities depend on the two predicates only up to equivalence -/

theorem kRowA_congr {ι : Type} [Fintype ι] (q : Fin 64 → EReal) (K : ι → Fin 64 → EReal) (self self' same same' : ι → Prop)
    [i1 : DecidablePred self] [i2 : DecidablePred self'] [i3 : DecidablePred same] [i4 : DecidablePred same']
    (h1 : ∀ j, self j ↔ self' j) (h2 : ∀ j, same j ↔ same' j) :
    Cert.Spec.kRowA q K self same = Cert.Spec.kRowA q K self' same' := by
  obtain rfl : self = self' := funext fun j => propext (h1 j)
  obtain rfl : same = same' := funext fun j => propext (h2 j)
  obtain rfl : i1 = i2 := Subsingleton.elim _ _
  obtain rfl : i3 = i4 := Subsingleton.elim _ _
  rfl

theorem kRowB_congr {ι : Type} [Fintype ι] (self self' same same' : ι → Prop)
    [i1 : DecidablePred self] [i2 : DecidablePred self'] [i3 : DecidablePred same] [i4 : DecidablePred same']
    (h1 : ∀ j, self j ↔ self' j) (h2 : ∀ j, same j ↔ same' j) :
    Cert.Spec.kRowB self same = Cert.Spec.kRowB self' same' := by
  obtain rfl : self = self' := funext fun j => propext (h1 j)
  obtain rfl : same = same' := funext fun j => propext (h2 j)
  obtain rfl : i1 = i2 := Subsingleton.elim _ _
  obtain rfl : i3 = i4 := Subsingleton.elim _ _
  rfl

/-! ## One grid point's two result rows from its four blocks -/

/-- Row r of the first result block is the blocked row quantity of flat row n, once the four input blocks are known to
    hold row n of the queries, the rows of n's image, n's label and the labels of n's image, and r sits at n's position. -/
theorem rowA_of_blocks (i : grid0.Coords) (x0 : Vec Ideal S1x256x64 .f32) (x1 : Vec Ideal S1x2048x64 .f32)
    (x2 : Vec Ideal S1x256x1 .i32) (x3 : Vec Ideal S1x1x2048 .i32) (r : Fin 256)
    (X0 X1 : Cert.Spec.SEmb.Idx → EReal) (L : Cert.Spec.SLab.Idx → BitVec 32) (n : Fin 4096)
    (hq : ∀ ch, x0 (ix3 (0 : Fin 1) r ch) = Cert.Spec.row X0 n ch)
    (hk : ∀ j ch, x1 (ix3 (0 : Fin 1) j ch) = Cert.Spec.row X1 (Cert.Spec.inImg n j) ch)
    (hs : n.val % 2048 = (i 1).val * 256 + r.val)
    (hl : x2 (ix3 (0 : Fin 1) r (0 : Fin 1)) = Cert.Spec.lab L n)
    (hkl : ∀ j, x3 (ix3 (0 : Fin 1) (0 : Fin 1) j) = Cert.Spec.lab L (Cert.Spec.inImg n j)) :
    GenP.out0_4 (F := Ideal) i x0 x1 x2 x3 (ix3 (0 : Fin 1) r (0 : Fin 1)) = Cert.Spec.AK X0 X1 L n := by
  refine (Pay.out4_apply i x0 x1 x2 x3 r).trans ?_
  unfold Cert.Spec.AK
  have e1 : Pay.qrow x0 r = Cert.Spec.row X0 n := funext hq
  have e2 : Pay.krow x1 = fun j : Fin 2048 => Cert.Spec.row X1 (Cert.Spec.inImg n j) := funext fun j => funext (hk j)
  rw [e1, e2]
  exact kRowA_congr _ _ _ _ _ _ (fun j => by rw [hs]) (fun j => by rw [hl, hkl j])

/-- Row r of the second result block is the count of flat row n. -/
theorem rowB_of_blocks (i : grid0.Coords) (x0 : Vec Ideal S1x256x64 .f32) (x1 : Vec Ideal S1x2048x64 .f32)
    (x2 : Vec Ideal S1x256x1 .i32) (x3 : Vec Ideal S1x1x2048 .i32) (r : Fin 256)
    (L : Cert.Spec.SLab.Idx → BitVec 32) (n : Fin 4096)
    (hs : n.val % 2048 = (i 1).val * 256 + r.val)
    (hl : x2 (ix3 (0 : Fin 1) r (0 : Fin 1)) = Cert.Spec.lab L n)
    (hkl : ∀ j, x3 (ix3 (0 : Fin 1) (0 : Fin 1) j) = Cert.Spec.lab L (Cert.Spec.inImg n j)) :
    GenP.out0_5 (F := Ideal) i x0 x1 x2 x3 (ix3 (0 : Fin 1) r (0 : Fin 1)) = Cert.Spec.BK L n := by
  refine (Pay.out5_apply i x0 x1 x2 x3 r).trans ?_
  unfold Cert.Spec.BK
  exact kRowB_congr _ _ _ _ (fun j => by rw [hs]) (fun j => by rw [hl, hkl j])

/-! ## The windows' blocks at a grid point

Point t = (image b, query tile qt). The queries', the query labels' and both results' blocks sit at block index
(b, qt, 0); the keys' and the key labels' at (b, 0, 0). -/

theorem block_indices : ∀ t : Fin cfg0.N,
    win0_0.index t (0 : Fin 3) = (grid0.coords t 0).val ∧ win0_0.index t (1 : Fin 3) = (grid0.coords t 1).val ∧ win0_0.index t (2 : Fin 3) = 0
    ∧ win0_1.index t (0 : Fin 3) = (grid0.coords t 0).val ∧ win0_1.index t (1 : Fin 3) = 0 ∧ win0_1.index t (2 : Fin 3) = 0
    ∧ win0_2.index t (0 : Fin 3) = (grid0.coords t 0).val ∧ win0_2.index t (1 : Fin 3) = (grid0.coords t 1).val ∧ win0_2.index t (2 : Fin 3) = 0
    ∧ win0_3.index t (0 : Fin 3) = (grid0.coords t 0).val ∧ win0_3.index t (1 : Fin 3) = 0 ∧ win0_3.index t (2 : Fin 3) = 0
    ∧ win0_4.index t (0 : Fin 3) = (grid0.coords t 0).val ∧ win0_4.index t (1 : Fin 3) = (grid0.coords t 1).val ∧ win0_4.index t (2 : Fin 3) = 0
    ∧ win0_5.index t (0 : Fin 3) = (grid0.coords t 0).val ∧ win0_5.index t (1 : Fin 3) = (grid0.coords t 1).val ∧ win0_5.index t (2 : Fin 3) = 0 :=
  (by decide +kernel : ∀ t : Fin grid0.N, _)

/-- Every (image, query tile) is some point's. -/
theorem point_of_tile : ∀ (b : Fin 2) (qt : Fin 8), ∃ t : Fin cfg0.N,
    win0_4.index t = ![b.val, qt.val, 0] ∧ win0_5.index t = ![b.val, qt.val, 0] :=
  (by decide +kernel : ∀ (b : Fin 2) (qt : Fin 8), ∃ t : Fin grid0.N, win0_4.index t = ![b.val, qt.val, 0] ∧ win0_5.index t = ![b.val, qt.val, 0])

/-- Row r, channel ch of the queries' block at t is channel ch of flat row b * 2048 + qt * 256 + r of the first argument. -/
theorem qblock_apply (c : Dev nD) (t : Fin cfg0.N) (r : Fin 256) (ch : Fin 64) (n : Fin 4096)
    (hn : n.val = (grid0.coords t 0).val * 2048 + (grid0.coords t 1).val * 256 + r.val) :
    (GenP.iblk m c 0 t : Vec Ideal S1x256x64 .f32) (ix3 (0 : Fin 1) r ch) = Cert.Spec.row (m ((c : Thread nD τ).loc main_arg0)) n ch := by
  obtain ⟨e00, e01, e02, -⟩ := block_indices t
  have hb : (grid0.coords t 0).val < 2 := (grid0.coords t 0).isLt
  have hq : (grid0.coords t 1).val < 8 := (grid0.coords t 1).isLt
  have hr : r.val < 256 := r.isLt
  refine Eq.trans ?_ (queries_apply m c ⟨(grid0.coords t 0).val, hb⟩ ⟨(grid0.coords t 1).val * 256 + r.val, by omega⟩ ch n (by show n.val = (grid0.coords t 0).val * 2048 + ((grid0.coords t 1).val * 256 + r.val); omega))
  unfold GenP.iblk
  rw [View.read_apply]
  show GenP.V m c main_v1 _ = GenP.V m c main_v1 _
  congr 1
  funext a
  apply Fin.ext
  match a with
  | ⟨0, _⟩ => show win0_0.index t (0 : Fin 3) * 1 + 1 * 0 = (grid0.coords t 0).val; omega
  | ⟨1, _⟩ => show win0_0.index t (1 : Fin 3) * 256 + 1 * r.val = (grid0.coords t 1).val * 256 + r.val; omega
  | ⟨2, _⟩ => show win0_0.index t (2 : Fin 3) * 64 + 1 * ch.val = ch.val; omega

/-- Row j, channel ch of the keys' block at t is channel ch of flat row b * 2048 + j of the second argument. -/
theorem kblock_apply (c : Dev nD) (t : Fin cfg0.N) (j : Fin 2048) (ch : Fin 64) (n : Fin 4096)
    (hn : n.val = (grid0.coords t 0).val * 2048 + j.val) :
    (GenP.iblk m c 1 t : Vec Ideal S1x2048x64 .f32) (ix3 (0 : Fin 1) j ch) = Cert.Spec.row (m ((c : Thread nD τ).loc main_arg1)) n ch := by
  obtain ⟨-, -, -, e10, e11, e12, -⟩ := block_indices t
  have hb : (grid0.coords t 0).val < 2 := (grid0.coords t 0).isLt
  have hj : j.val < 2048 := j.isLt
  refine Eq.trans ?_ (keys_apply m c ⟨(grid0.coords t 0).val, hb⟩ j ch n hn)
  unfold GenP.iblk
  rw [View.read_apply]
  show GenP.V m c main_v3 _ = GenP.V m c main_v3 _
  congr 1
  funext a
  apply Fin.ext
  match a with
  | ⟨0, _⟩ => show win0_1.index t (0 : Fin 3) * 1 + 1 * 0 = (grid0.coords t 0).val; omega
  | ⟨1, _⟩ => show win0_1.index t (1 : Fin 3) * 2048 + 1 * j.val = j.val; omega
  | ⟨2, _⟩ => show win0_1.index t (2 : Fin 3) * 64 + 1 * ch.val = ch.val; omega

/-- Row r of the query labels' block at t is the label of flat row b * 2048 + qt * 256 + r. -/
theorem qlblock_apply (c : Dev nD) (t : Fin cfg0.N) (r : Fin 256) (n : Fin 4096)
    (hn : n.val = (grid0.coords t 0).val * 2048 + (grid0.coords t 1).val * 256 + r.val) :
    (GenP.iblk m c 2 t : Vec Ideal S1x256x1 .i32) (ix3 (0 : Fin 1) r (0 : Fin 1)) = Cert.Spec.lab (m ((c : Thread nD τ).loc main_arg2)) n := by
  obtain ⟨-, -, -, -, -, -, e20, e21, e22, -⟩ := block_indices t
  have hb : (grid0.coords t 0).val < 2 := (grid0.coords t 0).isLt
  have hq : (grid0.coords t 1).val < 8 := (grid0.coords t 1).isLt
  have hr : r.val < 256 := r.isLt
  refine Eq.trans ?_ (qlabels_apply m c ⟨(grid0.coords t 0).val, hb⟩ ⟨(grid0.coords t 1).val * 256 + r.val, by omega⟩ n (by show n.val = (grid0.coords t 0).val * 2048 + ((grid0.coords t 1).val * 256 + r.val); omega))
  unfold GenP.iblk
  rw [View.read_apply]
  show GenP.V m c main_v5 _ = GenP.V m c main_v5 _
  congr 1
  funext a
  apply Fin.ext
  match a with
  | ⟨0, _⟩ => show win0_2.index t (0 : Fin 3) * 1 + 1 * 0 = (grid0.coords t 0).val; omega
  | ⟨1, _⟩ => show win0_2.index t (1 : Fin 3) * 256 + 1 * r.val = (grid0.coords t 1).val * 256 + r.val; omega
  | ⟨2, _⟩ => show win0_2.index t (2 : Fin 3) * 1 + 1 * 0 = 0; omega

/-- Entry j of the key labels' block at t is the label of flat row b * 2048 + j. -/
theorem klblock_apply (c : Dev nD) (t : Fin cfg0.N) (j : Fin 2048) (n : Fin 4096)
    (hn : n.val = (grid0.coords t 0).val * 2048 + j.val) :
    (GenP.iblk m c 3 t : Vec Ideal S1x1x2048 .i32) (ix3 (0 : Fin 1) (0 : Fin 1) j) = Cert.Spec.lab (m ((c : Thread nD τ).loc main_arg2)) n := by
  obtain ⟨-, -, -, -, -, -, -, -, -, e30, e31, e32, -⟩ := block_indices t
  have hb : (grid0.coords t 0).val < 2 := (grid0.coords t 0).isLt
  have hj : j.val < 2048 := j.isLt
  refine Eq.trans ?_ (klabels_apply m c ⟨(grid0.coords t 0).val, hb⟩ j n hn)
  unfold GenP.iblk
  rw [View.read_apply]
  show GenP.V m c main_v6 _ = GenP.V m c main_v6 _
  congr 1
  funext a
  apply Fin.ext
  match a with
  | ⟨0, _⟩ => show win0_3.index t (0 : Fin 3) * 1 + 1 * 0 = (grid0.coords t 0).val; omega
  | ⟨1, _⟩ => show win0_3.index t (1 : Fin 3) * 1 + 1 * 0 = 0; omega
  | ⟨2, _⟩ => show win0_3.index t (2 : Fin 3) * 2048 + 1 * j.val = j.val; omega

/-! ## What a point writes back, and the arrays after the run -/

/-- A row index of a [1, 256, 1] block is (0, r, 0). -/
theorem block_row (y : S1x256x1.Idx) : y = ix3 (0 : Fin 1) (y 1) (0 : Fin 1) := by
  funext a
  match a with
  | ⟨0, _⟩ => exact Subsingleton.elim (α := Fin 1) _ _
  | ⟨1, _⟩ => rfl
  | ⟨2, _⟩ => exact Subsingleton.elim (α := Fin 1) _ _

/-- Point t's first result block at row y is the blocked row quantity of flat row b * 2048 + qt * 256 + y. -/
theorem pointA (c : Dev nD) (t : Fin cfg0.N) (y : S1x256x1.Idx) (n : Fin 4096)
    (hn : n.val = (grid0.coords t 0).val * 2048 + (grid0.coords t 1).val * 256 + (y 1).val) :
    GenP.out0_4 (F := Ideal) (grid0.coords t) (GenP.iblk m c 0 t) (GenP.iblk m c 1 t) (GenP.iblk m c 2 t) (GenP.iblk m c 3 t) y
      = Cert.Spec.AK (m ((c : Thread nD τ).loc main_arg0)) (m ((c : Thread nD τ).loc main_arg1)) (m ((c : Thread nD τ).loc main_arg2)) n := by
  have hb : (grid0.coords t 0).val < 2 := (grid0.coords t 0).isLt
  have hq : (grid0.coords t 1).val < 8 := (grid0.coords t 1).isLt
  have hr : (y 1).val < 256 := (y 1).isLt
  have hin : ∀ j : Fin 2048, (Cert.Spec.inImg n j).val = (grid0.coords t 0).val * 2048 + j.val := fun j => by
    have hj : j.val < 2048 := j.isLt
    show n.val / 2048 * 2048 + j.val = _
    omega
  rw [block_row y]
  exact rowA_of_blocks (grid0.coords t) (GenP.iblk m c 0 t) (GenP.iblk m c 1 t) (GenP.iblk m c 2 t) (GenP.iblk m c 3 t) (y 1) _ _ _ n
    (fun ch => qblock_apply m c t (y 1) ch n hn)
    (fun j ch => kblock_apply m c t j ch (Cert.Spec.inImg n j) (hin j))
    (by omega)
    (qlblock_apply m c t (y 1) n hn)
    (fun j => klblock_apply m c t j (Cert.Spec.inImg n j) (hin j))

/-- Point t's second result block at row y is the count of that flat row. -/
theorem pointB (c : Dev nD) (t : Fin cfg0.N) (y : S1x256x1.Idx) (n : Fin 4096)
    (hn : n.val = (grid0.coords t 0).val * 2048 + (grid0.coords t 1).val * 256 + (y 1).val) :
    GenP.out0_5 (F := Ideal) (grid0.coords t) (GenP.iblk m c 0 t) (GenP.iblk m c 1 t) (GenP.iblk m c 2 t) (GenP.iblk m c 3 t) y
      = Cert.Spec.BK (m ((c : Thread nD τ).loc main_arg2)) n := by
  have hb : (grid0.coords t 0).val < 2 := (grid0.coords t 0).isLt
  have hq : (grid0.coords t 1).val < 8 := (grid0.coords t 1).isLt
  have hr : (y 1).val < 256 := (y 1).isLt
  have hin : ∀ j : Fin 2048, (Cert.Spec.inImg n j).val = (grid0.coords t 0).val * 2048 + j.val := fun j => by
    have hj : j.val < 2048 := j.isLt
    show n.val / 2048 * 2048 + j.val = _
    omega
  rw [block_row y]
  exact rowB_of_blocks (grid0.coords t) (GenP.iblk m c 0 t) (GenP.iblk m c 1 t) (GenP.iblk m c 2 t) (GenP.iblk m c 3 t) (y 1) _ n
    (by omega)
    (qlblock_apply m c t (y 1) n hn)
    (fun j => klblock_apply m c t j (Cert.Spec.inImg n j) (hin j))

/-- What point t writes back to the first result is block t of `outA`. -/
theorem flushedA_eq (c : Dev nD) (t : Fin cfg0.N) :
    (GenP.dats m 0 c).flushed 4 t = ((cfg0.win 4).blk t).view.read (Elt Ideal) (outA m c) := by
  show (cfg0.win 4).cut (grid0.coords t) ((GenP.dats m 0 c).after 4 t) = _
  rw [GenP.after0_4]
  obtain ⟨-, -, -, -, -, -, -, -, -, -, -, -, e40, e41, e42, -⟩ := block_indices t
  funext y
  have h0 : (y 0).val < 1 := (y 0).isLt
  have h1 : (y 1).val < 256 := (y 1).isLt
  have hb : (grid0.coords t 0).val < 2 := (grid0.coords t 0).isLt
  have hq : (grid0.coords t 1).val < 8 := (grid0.coords t 1).isLt
  rw [View.read_apply]
  show GenP.out0_4 (F := Ideal) (grid0.coords t) (GenP.iblk m c 0 t) (GenP.iblk m c 1 t) (GenP.iblk m c 2 t) (GenP.iblk m c 3 t) y
    = Cert.Spec.AK _ _ _ (flat (((cfg0.win 4).blk t).view.emb y))
  refine pointA m c t y _ ?_
  show (win0_4.index t (0 : Fin 3) * 1 + 1 * (y 0).val) * 2048 + (win0_4.index t (1 : Fin 3) * 256 + 1 * (y 1).val)
    = (grid0.coords t 0).val * 2048 + (grid0.coords t 1).val * 256 + (y 1).val
  omega

/-- What point t writes back to the second result is block t of `outB`. -/
theorem flushedB_eq (c : Dev nD) (t : Fin cfg0.N) :
    (GenP.dats m 0 c).flushed 5 t = ((cfg0.win 5).blk t).view.read (Elt Ideal) (outB m c) := by
  show (cfg0.win 5).cut (grid0.coords t) ((GenP.dats m 0 c).after 5 t) = _
  rw [GenP.after0_5]
  obtain ⟨-, -, -, -, -, -, -, -, -, -, -, -, -, -, -, e50, e51, e52⟩ := block_indices t
  funext y
  have h0 : (y 0).val < 1 := (y 0).isLt
  have h1 : (y 1).val < 256 := (y 1).isLt
  have hb : (grid0.coords t 0).val < 2 := (grid0.coords t 0).isLt
  have hq : (grid0.coords t 1).val < 8 := (grid0.coords t 1).isLt
  rw [View.read_apply]
  show GenP.out0_5 (F := Ideal) (grid0.coords t) (GenP.iblk m c 0 t) (GenP.iblk m c 1 t) (GenP.iblk m c 2 t) (GenP.iblk m c 3 t) y
    = Cert.Spec.BK _ (flat (((cfg0.win 5).blk t).view.emb y))
  refine pointB m c t y _ ?_
  show (win0_5.index t (0 : Fin 3) * 1 + 1 * (y 0).val) * 2048 + (win0_5.index t (1 : Fin 3) * 256 + 1 * (y 1).val)
    = (grid0.coords t 0).val * 2048 + (grid0.coords t 1).val * 256 + (y 1).val
  omega

/-- An entry of the first result is in point t's block iff each coordinate is in the block's range on its axis. -/
theorem mem_blkA (t : Fin cfg0.N) (i : S2x2048x1.Idx) :
    i ∈ ((cfg0.win 4).blk t).view.set ↔ ∀ a : Fin 3, win0_4.index t a * S1x256x1.size a ≤ (i a).val ∧ (i a).val < win0_4.index t a * S1x256x1.size a + S1x256x1.size a := by
  show i ∈ ((View.whole main_v7_0).slice (win0_4.rect t)).set ↔ _
  rw [View.set_slice_whole, Rect.mem_set_unit]
  exact Iff.rfl

theorem mem_blkB (t : Fin cfg0.N) (i : S2x2048x1.Idx) :
    i ∈ ((cfg0.win 5).blk t).view.set ↔ ∀ a : Fin 3, win0_5.index t a * S1x256x1.size a ≤ (i a).val ∧ (i a).val < win0_5.index t a * S1x256x1.size a + S1x256x1.size a := by
  show i ∈ ((View.whole main_v7_1).slice (win0_5.rect t)).set ↔ _
  rw [View.set_slice_whole, Rect.mem_set_unit]
  exact Iff.rfl

/-- Row r of image b is written by the point of query tile r / 256 of image b. -/
theorem coverA (i : S2x2048x1.Idx) : ∃ t : Fin cfg0.N, (cfg0.win 4).flush t = true ∧ i ∈ ((cfg0.win 4).blk t).view.set := by
  have hi0 : (i 0).val < 2 := (i 0).isLt
  have hi1 : (i 1).val < 2048 := (i 1).isLt
  have hi2 : (i 2).val < 1 := (i 2).isLt
  obtain ⟨t, ht, -⟩ := point_of_tile ⟨(i 0).val, hi0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_blkA]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 1 ≤ (i 2).val ∧ (i 2).val < win0_4.index t (2 : Fin 3) * 1 + 1; omega

theorem coverB (i : S2x2048x1.Idx) : ∃ t : Fin cfg0.N, (cfg0.win 5).flush t = true ∧ i ∈ ((cfg0.win 5).blk t).view.set := by
  have hi0 : (i 0).val < 2 := (i 0).isLt
  have hi1 : (i 1).val < 2048 := (i 1).isLt
  have hi2 : (i 2).val < 1 := (i 2).isLt
  obtain ⟨t, -, ht⟩ := point_of_tile ⟨(i 0).val, hi0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_blkB]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 1 ≤ (i 2).val ∧ (i 2).val < win0_5.index t (2 : Fin 3) * 1 + 1; omega

theorem final4 (c : Dev nD) : (GenP.dats m 0 c).arrAt 4 cfg0.N = outA m c :=
  (GenP.dats m 0 c).arrAt_eq_of_cover 4 (outA m c) (fun t _ => flushedA_eq m c t) coverA

theorem final5 (c : Dev nD) : (GenP.dats m 0 c).arrAt 5 cfg0.N = outB m c :=
  (GenP.dats m 0 c).arrAt_eq_of_cover 5 (outB m c) (fun t _ => flushedB_eq m c t) coverB

end Cert.KernelIdeal.Arr

end
-- ==== Proof.KTail.lean ====
/-
  The kernel program's run with its result named.
  After the region the host flattens the two results to 4096 rows and computes the loss from them and the flat labels:
  the per-row means A / (B + 1e-8) over the rows with a positive, their negated sum over the number of such rows, scaled
  by the number of such rows with a label other than 0.

  The operations after the region read three buffers only: the region's two result arrays and the labels. They are
  first named as one function of those three (`hostTail`), which the result buffer holds whatever the other buffers
  hold (`tail_read`); that function is then read index by index against the specification's loss (`hostTail_apply`):
  a reshape of [2, 2048, 1] to [4096] reads entry (i / 2048, i % 2048, 0) at row i, which is the flat row i itself, and
  the labels' reshape reads (image, view, pixel) of row i; each host sum into the scalar shape is the sum over all rows.
-/
import proofs.«173573_j6279242187472_1_alg».proof.Proof.KArrays
import Idealize.ShloMosaic.Lib.StableHlo.Run
import Idealize.ShloMosaic.Lib.IdealHost
import Idealize.ShloMosaic.Lib.ValueIdx
import Idealize.ShloMosaic.Lib.Pipeline.Value
import Idealize.ShloMosaic.PureOps.Ideal.Laws

set_option maxRecDepth 16384

noncomputable section

namespace Cert.KernelIdeal.Run

open Idealize.ShloMosaic Idealize.ShloMosaic.TcCoe Idealize.ShloMosaic.ValueIdx Idealize.SL.Sem Cert.KernelIdeal Cert.KernelIdeal.Gen
open scoped BigOperators

/-! ## The host operations after the region, as one function of what they read -/

/-- The operations after the region, in order. -/
def tailOps : List (HloOp τ sig (Elt Ideal)) := List.flatten [hostOps1, hostOps1_1, hostOps1_2]

section Tail

variable (a b : FVec Ideal S2x2048x1 .f32) (l : IVec S2x2x1024 32)

/-- The first result flattened to 4096 rows. -/
def rowsA : FVec Ideal S4096 .f32 := shapeCast S4096 a shapeCasts_S2x2048x1_S4096
/-- The second result flattened. -/
def rowsB : FVec Ideal S4096 .f32 := shapeCast S4096 b shapeCasts_S2x2048x1_S4096
/-- The labels flattened. -/
def rowsL : IVec S4096 32 := shapeCast S4096 l shapeCasts_S2x2x1024_S4096
/-- 1e-8 in every row. -/
def epsRows : FVec Ideal S4096 .f32 := broadcastInDim S4096 ![] bcast_S_S4096 (constant (F := Ideal) S_ .f32 0x322BCC77#32)
/-- 0 in every row. -/
def zeroRows : FVec Ideal S4096 .f32 := broadcastInDim S4096 ![] bcast_S_S4096 (constant (F := Ideal) S_ .f32 0x00000000#32)
/-- The rows with a positive. -/
def validRows : IVec S4096 1 := cmpf .ogt (rowsB b) epsRows
/-- A / (B + 1e-8) row by row. -/
def meanRows : FVec Ideal S4096 .f32 := Host.divf (rowsA a) (addf (rowsB b) epsRows)
/-- The sum of the means over the rows with a positive. -/
def sumMeans : FVec Ideal S_ .f32 :=
  Host.reduceAdd (select (validRows b) (meanRows a b) zeroRows) (constant (F := Ideal) S_ .f32 0x00000000#32) reducesTo_S4096_S_d0 h_S_
/-- The number of rows with a positive. -/
def countValid : FVec Ideal S_ .f32 :=
  Host.reduceAdd (uitofp .f32 (validRows b)) (constant (F := Ideal) S_ .f32 0x00000000#32) reducesTo_S4096_S_d0 h_S_
/-- The number of rows with a positive and a label other than 0. -/
def countFg : FVec Ideal S_ .f32 :=
  Host.reduceAdd
    (mulf (uitofp .f32 (cmpi .ne (rowsL l) (broadcastInDim S4096 ![] bcast_S_S4096 (constantI S_ 32 0#32)))) (uitofp .f32 (validRows b)))
    (constant (F := Ideal) S_ .f32 0x00000000#32) reducesTo_S4096_S_d0 h_S_
/-- The loss as the host computes it from the two results and the labels. -/
def hostTail : FVec Ideal S_ .f32 :=
  Host.divf (mulf (Host.divf (Host.negf (sumMeans a b)) (countValid b)) (countFg b l))
    (addf (countFg b l) (constant (F := Ideal) S_ .f32 0x322BCC77#32))

end Tail

/-- The result buffer after the operations, from any contents: the two results and the labels are all they read. -/
theorem tail_read (W : Valuation τ sig (Elt Ideal)) (a b : FVec Ideal S2x2048x1 .f32) (l : IVec S2x2x1024 32)
    (ha : W (Proc.devRef .tc main_v7_0) = a) (hb : W (Proc.devRef .tc main_v7_1) = b) (hl : W (Proc.devRef .tc main_arg2) = l) :
    StableHlo.after tailOps W (Proc.devRef .tc main_v30) = hostTail a b l := by
  subst ha hb hl
  unfold tailOps
  simp only [hostOps1, hostOps1_1, hostOps1_2, List.flatten_cons, List.flatten_nil, List.append_nil, List.cons_append, List.nil_append]
  open StableHlo in after_results_simp
  rfl

/-! ## The function read against the specification's loss -/

/-- Flat row i of a [2, 2048, 1] array: entry (i / 2048, i % 2048, 0). -/
def unflat (i : S4096.Idx) : S2x2048x1.Idx :=
  ix3 (⟨(i 0).val / 2048, by have h : (i 0).val < 4096 := (i 0).isLt; omega⟩ : Fin 2)
    (⟨(i 0).val % 2048, by omega⟩ : Fin 2048) (⟨0, by omega⟩ : Fin 1)
/-- Flat row i of the labels: entry (image, view, pixel) of row i. -/
def unflatL (i : S4096.Idx) : S2x2x1024.Idx :=
  ix3 (Cert.Spec.img ⟨(i 0).val, (i 0).isLt⟩) (Cert.Spec.view ⟨(i 0).val, (i 0).isLt⟩) (Cert.Spec.pix ⟨(i 0).val, (i 0).isLt⟩)

/-- The flattening of a [2, 2048, 1] array read at row i. -/
theorem reshape_apply {α : Type} (x : S2x2048x1.Idx → α) (h : S2x2048x1.ShapeCasts S4096) (i : S4096.Idx) :
    shapeCast S4096 x h i = x (unflat i) :=
  shapeCast_apply x h i (unflat i) (by
    rewrite [Shape.rowMajor_val_three, Shape.rowMajor_val_one]
    have h0 : (i 0).val < 4096 := (i 0).isLt
    show ((i 0).val / 2048 * 2048 + (i 0).val % 2048) * 1 + 0 = (i 0).val
    omega)

/-- The flattening of the labels read at row i. -/
theorem reshapeL_apply {α : Type} (x : S2x2x1024.Idx → α) (h : S2x2x1024.ShapeCasts S4096) (i : S4096.Idx) :
    shapeCast S4096 x h i = x (unflatL i) :=
  shapeCast_apply x h i (unflatL i) (by
    rewrite [Shape.rowMajor_val_three, Shape.rowMajor_val_one]
    have h0 : (i 0).val < 4096 := (i 0).isLt
    show ((i 0).val / 2048 * 2 + (i 0).val / 1024 % 2) * 1024 + (i 0).val % 1024 = (i 0).val
    omega)

section Read

variable (a b : FVec Ideal S2x2048x1 .f32) (l : IVec S2x2x1024 32)

theorem rowsA_apply (i : S4096.Idx) : rowsA a i = a (unflat i) := reshape_apply a _ i
theorem rowsB_apply (i : S4096.Idx) : rowsB b i = b (unflat i) := reshape_apply b _ i
theorem rowsL_apply (i : S4096.Idx) : rowsL l i = l (unflatL i) := reshapeL_apply l _ i
theorem epsRows_apply (i : S4096.Idx) : epsRows i = Cert.Spec.eps8 :=
  broadcastInDim_scalar_apply bcast_S_S4096 _ i
theorem zeroRows_apply (i : S4096.Idx) : zeroRows i = 0 :=
  (broadcastInDim_scalar_apply bcast_S_S4096 _ i).trans Ideal.ofBits_zero_f32

/-- Row i has a positive, in the specification's words. -/
theorem validRows_apply (i : S4096.Idx) : validRows b i = Cert.Spec.validBit (fun i => b (unflat i)) i := by
  show Ideal.cmp .ogt (rowsB b i) (epsRows i) = Ideal.cmp .ogt (b (unflat i)) Cert.Spec.eps8
  rw [rowsB_apply, epsRows_apply]

/-- A host sum into the scalar shape from the zero constant is the sum over every row. -/
theorem reduce_rows (x : FVec Ideal S4096 .f32) (j : S_.Idx) :
    Host.reduceAdd x (constant (F := Ideal) S_ .f32 0x00000000#32) reducesTo_S4096_S_d0 h_S_ j = ∑ i : S4096.Idx, x i := by
  rw [hostReduceAdd_apply, Ideal.hostReduceAdd_total reducesTo_S4096_S_d0 (fun b => b.elim0)]
  rw [constant_apply, Ideal.ofBits_zero_f32, zero_add]

theorem sumMeans_apply (j : S_.Idx) :
    sumMeans a b j = ∑ i : S4096.Idx, Scalar.select (Cert.Spec.validBit (fun i => b (unflat i)) i)
      (Ideal.div (a (unflat i)) (b (unflat i) + Cert.Spec.eps8)) 0 := by
  unfold sumMeans
  rw [reduce_rows]
  refine Finset.sum_congr rfl fun i _ => ?_
  show Scalar.select (validRows b i) (Ideal.div (rowsA a i) (rowsB b i + epsRows i)) (zeroRows i) = _
  rw [validRows_apply, rowsA_apply, rowsB_apply, epsRows_apply, zeroRows_apply]

theorem countValid_apply (j : S_.Idx) : countValid b j = Cert.Spec.nValid (fun i => b (unflat i)) := by
  unfold countValid Cert.Spec.nValid
  rw [reduce_rows]
  refine Finset.sum_congr rfl fun i _ => ?_
  show (((validRows b i).toNat : ℝ) : EReal) = _
  rw [validRows_apply]

theorem countFg_apply (j : S_.Idx) :
    countFg b l j = Cert.Spec.nFg (fun i => b (unflat i)) (fun i => l (unflatL i)) := by
  unfold countFg Cert.Spec.nFg
  rw [reduce_rows]
  refine Finset.sum_congr rfl fun i _ => ?_
  show (((IntOp.cmpi .ne (rowsL l i) 0#32).toNat : ℝ) : EReal) * (((validRows b i).toNat : ℝ) : EReal) = _
  rw [validRows_apply, rowsL_apply]

theorem hostNegf_apply (x : FVec Ideal S_ .f32) (j : S_.Idx) : Host.negf x j = -(x j) := rfl
theorem eps_apply (j : S_.Idx) : constant (F := Ideal) S_ .f32 0x322BCC77#32 j = Cert.Spec.eps8 := rfl

/-- The host's loss is the specification's, on the flattened arrays. -/
theorem hostTail_apply (j : S_.Idx) :
    hostTail a b l j = Cert.Spec.tail (fun i => a (unflat i)) (fun i => b (unflat i)) (fun i => l (unflatL i)) := by
  unfold hostTail Cert.Spec.tail
  rw [hostDivf_apply, addf_apply, mulf_apply, hostDivf_apply, hostNegf_apply, eps_apply,
    sumMeans_apply, countValid_apply, countFg_apply]

end Read

variable (m : (ℓ : Loc nD τ sig) → Buf (Elt Ideal) ℓ) (ρ : Dev nD → PrngReg)

/-- The loss as the kernel program computes it, on core c. -/
def result (c : Dev nD) : Buf (Elt Ideal) ((c.tc : Thread nD τ).loc main_v30) := fun _ =>
  Cert.Spec.tail
    (Cert.Spec.asRows (Cert.Spec.AK (m ((c.tc : Thread nD τ).loc main_arg0)) (m ((c.tc : Thread nD τ).loc main_arg1)) (m ((c.tc : Thread nD τ).loc main_arg2))))
    (Cert.Spec.asRows (Cert.Spec.BK (m ((c.tc : Thread nD τ).loc main_arg2))))
    (Cert.Spec.labRows (m ((c.tc : Thread nD τ).loc main_arg2)))

/-! ## The region's two results and the labels, flattened, are the specification's arrays -/

/-- Entry (i / 2048, i % 2048, 0) sits at flat row i. -/
theorem flat_unflat (i : S4096.Idx) : Arr.flat (unflat i) = ⟨(i 0).val, (i 0).isLt⟩ :=
  Fin.ext (by
    have h0 : (i 0).val < 4096 := (i 0).isLt
    show (i 0).val / 2048 * 2048 + (i 0).val % 2048 = (i 0).val
    omega)

theorem outA_unflat (c : Dev nD) :
    (fun i => Arr.outA m c (unflat i))
      = Cert.Spec.asRows (Cert.Spec.AK (m ((c.tc : Thread nD τ).loc main_arg0)) (m ((c.tc : Thread nD τ).loc main_arg1)) (m ((c.tc : Thread nD τ).loc main_arg2))) :=
  funext fun i => congrArg (Cert.Spec.AK (m ((c.tc : Thread nD τ).loc main_arg0)) (m ((c.tc : Thread nD τ).loc main_arg1)) (m ((c.tc : Thread nD τ).loc main_arg2))) (flat_unflat i)

theorem outB_unflat (c : Dev nD) :
    (fun i => Arr.outB m c (unflat i)) = Cert.Spec.asRows (Cert.Spec.BK (m ((c.tc : Thread nD τ).loc main_arg2))) :=
  funext fun i => congrArg (Cert.Spec.BK (m ((c.tc : Thread nD τ).loc main_arg2))) (flat_unflat i)

/-- What the host operations after the region leave in the result buffer, from the region's two result arrays. -/
theorem tail_eq (c : Dev nD) :
    Pipeline.afterTail₀ cfgs (GenP.dats m) 0 (GenP.V0 m) [hostOps1, hostOps1_1, hostOps1_2] c main_v30 = result m c := by
  unfold Pipeline.afterTail₀
  refine (tail_read _ (Arr.outA m c) (Arr.outB m c) (m ((c.tc : Thread nD τ).loc main_arg2)) ?_ ?_ ?_).trans ?_
  · exact (Pipeline.withArrays_arr spec0 launch0.win.arr_inj c _ _ 4).trans (Arr.final4 m c)
  · exact (Pipeline.withArrays_arr spec0 launch0.win.arr_inj c _ _ 5).trans (Arr.final5 m c)
  · exact (Pipeline.withArrays_of_ne _ c (GenP.V0 m c) _ main_arg2 (by exact (by decide : ∀ w, Pipeline.arrRef spec0 w ≠ main_arg2))).trans
      (GenP.V_main_arg2 m c)
  · funext j
    unfold result
    rw [hostTail_apply, outA_unflat, outB_unflat]
    rfl

/-- Every weakly fair execution terminates with the result at `result` and the arguments unchanged. -/
theorem run : θ_run defs (onTc (τ := τ) (main (F := Ideal))) ⟨m, fun _ => 0, ρ⟩ (fun r => ∀ c : Dev nD,
      r.2.mem ((c.tc : Thread nD τ).loc main_v30) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v30 (Pipeline.mem_restRefs_of main_v30 (by decide) (by decide))).trans (tail_eq m c),
      ((h c).2 main_arg0 (Pipeline.mem_restRefs_of main_arg0 (by decide) (by decide))).trans (GenP.W_main_arg0 m (GenP.dats m) c),
      ((h c).2 main_arg1 (Pipeline.mem_restRefs_of main_arg1 (by decide) (by decide))).trans (GenP.W_main_arg1 m (GenP.dats m) c),
      ((h c).2 main_arg2 (Pipeline.mem_restRefs_of main_arg2 (by decide) (by decide))).trans (GenP.W_main_arg2 m (GenP.dats m) c)⟩)
    (GenP.run_main m ρ)

end Cert.KernelIdeal.Run

end
-- ==== Proof.RefMasks.lean ====
/-
  The reference's masks, entry by entry.
  Position n of the 4096 flat rows has image n / 2048, view n / 1024 mod 2 and pixel n mod 1024; the reference builds these
  three tables from iotas, compares them pairwise over the 4096 x 4096 grid, and from "same image", "same view", "same
  pixel" and "same label" builds a mask of values 1 / 0 / -1. Same image, view and pixel together mean n = n'. Read at
  (n, n'): the denominator keeps n' exactly when it is another position of n's image, and the numerator weight is 1 exactly
  when, besides, it carries n's label.
-/
import proofs.«173573_j6279242187472_1_alg».proof.Proof.RefRead
import proofs.«173573_j6279242187472_1_alg».proof.Proof.Spec
import Idealize.ShloMosaic.Lib.ValueIdx
import Idealize.ShloMosaic.Lib.StableHlo.Predicate

noncomputable section

namespace Cert.ReferenceIdeal.Masks

open Cert.ReferenceIdeal Cert.ReferenceIdeal.Gen Cert.ReferenceIdeal.ReadP Idealize.ShloMosaic Idealize.ShloMosaic.TcCoe Idealize.ShloMosaic.ValueIdx
open scoped BigOperators

/-! ## Words and bits -/

/-- An equality test of two words is the bit of their equality. -/
theorem cmpi_eq_ite {w : Nat} (a b : BitVec w) : IntOp.cmpi .eq a b = if a = b then 1#1 else 0#1 := by
  by_cases h : a = b
  · rw [if_pos h]; exact StableHlo.Predicate.cmpi_eq_iff.mpr h
  · rw [if_neg h]; exact eq_zero_of_ne_one (fun h1 => h (StableHlo.Predicate.cmpi_eq_iff.mp h1))

/-- Two naturals below 2^32 are equal exactly when their 32-bit words are. -/
theorem ofNat32_inj {a b : ℕ} (ha : a < 4294967296) (hb : b < 4294967296) :
    BitVec.ofNat 32 a = BitVec.ofNat 32 b ↔ a = b := by
  constructor
  · intro h
    have h' := congrArg BitVec.toNat h
    simp only [BitVec.toNat_ofNat] at h'
    omega
  · intro h; rw [h]

/-- The bit of an equality test of two small naturals read as words. -/
theorem cmpi_eq_ofNat {a b : ℕ} (ha : a < 4294967296) (hb : b < 4294967296) :
    IntOp.cmpi .eq (BitVec.ofNat 32 a) (BitVec.ofNat 32 b) = if a = b then 1#1 else 0#1 := by
  rw [cmpi_eq_ite]
  by_cases h : a = b
  · rw [if_pos h, if_pos (by rw [h])]
  · rw [if_neg h, if_neg (fun h' => h ((ofNat32_inj ha hb).mp h'))]

/-- The mask word 1 / 0 / -1 as a function of the four comparison bits: same image, same view, same pixel, same label. -/
def maskW (si sv sp sc : BitVec 1) : BitVec 32 :=
  Scalar.select (IntOp.andi (IntOp.andi si sv) sp) 4294967295#32
    (Scalar.select si (Scalar.select sc 1#32 0#32) 4294967295#32)

/-- "The mask word is 1" as a function of the four bits. -/
theorem maskW_eq_one (si sv sp sc : BitVec 1) :
    IntOp.cmpi .eq (maskW si sv sp sc) 1#32
      = if si = 1#1 ∧ sc = 1#1 ∧ ¬ (sv = 1#1 ∧ sp = 1#1) then 1#1 else 0#1 := by
  rcases BitVec.eq_zero_or_eq_one si with rfl | rfl <;> rcases BitVec.eq_zero_or_eq_one sv with rfl | rfl <;>
    rcases BitVec.eq_zero_or_eq_one sp with rfl | rfl <;> rcases BitVec.eq_zero_or_eq_one sc with rfl | rfl <;> decide

/-- "The mask word is at least 0" as a function of the four bits. -/
theorem maskW_sge_zero (si sv sp sc : BitVec 1) :
    IntOp.cmpi .sge (maskW si sv sp sc) 0#32
      = if si = 1#1 ∧ ¬ (sv = 1#1 ∧ sp = 1#1) then 1#1 else 0#1 := by
  rcases BitVec.eq_zero_or_eq_one si with rfl | rfl <;> rcases BitVec.eq_zero_or_eq_one sv with rfl | rfl <;>
    rcases BitVec.eq_zero_or_eq_one sp with rfl | rfl <;> rcases BitVec.eq_zero_or_eq_one sc with rfl | rfl <;> decide

/-- A bit converted to a real: 1 or 0. -/
theorem uitofp_bit (p : Prop) [Decidable p] :
    FloatOps.uitofp (F := Ideal) .f32 (if p then 1#1 else 0#1) = if p then (1 : EReal) else 0 := by
  by_cases h : p
  · rw [if_pos h, if_pos h]; show (((1#1 : BitVec 1).toNat : ℝ) : EReal) = 1; simp
  · rw [if_neg h, if_neg h]; show (((0#1 : BitVec 1).toNat : ℝ) : EReal) = 0; simp

/-- A bit converted to a real is positive exactly when the bit is set. -/
theorem ogt_zero_bit (p : Prop) [Decidable p] :
    FloatOps.cmpf (F := Ideal) (φ := .f32) .ogt (if p then (1 : EReal) else 0) (FloatOps.ofBits (F := Ideal) .f32 0x00000000#32)
      = if p then 1#1 else 0#1 := by
  show Ideal.cmp .ogt (if p then (1 : EReal) else 0) (Ideal.ofBits .f32 0x00000000#32) = _
  rw [Ideal.ofBits_zero_f32]
  by_cases h : p
  · rw [if_pos h, if_pos h]; simp [Ideal.cmp]
  · rw [if_neg h, if_neg h]; simp [Ideal.cmp]

/-! ## The three position tables -/

/-- The image of flat position n. -/
theorem imgId_apply (n : Fin 4096) : val_main_v19 (F := Ideal) (ix1 n) = BitVec.ofNat 32 (n.val / 2048) := by
  rw [val_main_v19_apply, val_main_v18_apply, val_main_v17_apply]

/-- The view of flat position n. -/
theorem viewId_apply (n : Fin 4096) : val_main_v25 (F := Ideal) (ix1 n) = BitVec.ofNat 32 (n.val / 1024 % 2) := by
  rw [val_main_v25_apply, val_main_v24_apply, val_main_v23_apply, val_main_v22_apply, val_main_v21_apply, val_main_v20_apply]
  congr 1
  show (0 * 2048 + n.val % 2048) / 1024 = n.val / 1024 % 2
  omega

/-- The pixel of flat position n. -/
theorem pixId_apply (n : Fin 4096) : val_main_v29 (F := Ideal) (ix1 n) = BitVec.ofNat 32 (n.val % 1024) := by
  rw [val_main_v29_apply, val_main_v28_apply, val_main_v27_apply, val_main_v26_apply]
  congr 1
  show 0 * 1024 + n.val % 1024 = n.val % 1024
  omega

/-! ## The four comparisons at (n, n') -/

/-- A set-or-clear bit is set exactly when its condition holds. -/
theorem bit_ite_eq_one (p : Prop) [Decidable p] : (if p then 1#1 else 0#1) = 1#1 ↔ p := by
  by_cases h : p
  · rw [if_pos h]; exact ⟨fun _ => h, fun _ => rfl⟩
  · rw [if_neg h]; exact ⟨fun h' => absurd h' (by decide), fun h' => absurd h' h⟩

/-- Same image. -/
theorem sameImg_apply (n n' : Fin 4096) :
    val_main_v34 (F := Ideal) (ix2 n n') = if n.val / 2048 = n'.val / 2048 then 1#1 else 0#1 := by
  have hc : idx_main_v30 (idx_main_v32 (ix2 n n')) = ix1 n := by funext a; match a with | ⟨0, _⟩ => rfl
  have hr : idx_main_v31 (idx_main_v33 (ix2 n n')) = ix1 n' := by funext a; match a with | ⟨0, _⟩ => rfl
  rw [val_main_v34_apply, val_main_v32_apply, val_main_v30_apply, val_main_v33_apply, val_main_v31_apply, hc, hr,
    imgId_apply, imgId_apply]
  have h1 := n.isLt
  have h2 := n'.isLt
  exact cmpi_eq_ofNat (by omega) (by omega)

/-- Same view. -/
theorem sameView_apply (n n' : Fin 4096) :
    val_main_v39 (F := Ideal) (ix2 n n') = if n.val / 1024 % 2 = n'.val / 1024 % 2 then 1#1 else 0#1 := by
  have hc : idx_main_v35 (idx_main_v37 (ix2 n n')) = ix1 n := by funext a; match a with | ⟨0, _⟩ => rfl
  have hr : idx_main_v36 (idx_main_v38 (ix2 n n')) = ix1 n' := by funext a; match a with | ⟨0, _⟩ => rfl
  rw [val_main_v39_apply, val_main_v37_apply, val_main_v35_apply, val_main_v38_apply, val_main_v36_apply, hc, hr,
    viewId_apply, viewId_apply]
  exact cmpi_eq_ofNat (by omega) (by omega)

/-- Same pixel. -/
theorem samePix_apply (n n' : Fin 4096) :
    val_main_v44 (F := Ideal) (ix2 n n') = if n.val % 1024 = n'.val % 1024 then 1#1 else 0#1 := by
  have hc : idx_main_v40 (idx_main_v42 (ix2 n n')) = ix1 n := by funext a; match a with | ⟨0, _⟩ => rfl
  have hr : idx_main_v41 (idx_main_v43 (ix2 n n')) = ix1 n' := by funext a; match a with | ⟨0, _⟩ => rfl
  rw [val_main_v44_apply, val_main_v42_apply, val_main_v40_apply, val_main_v43_apply, val_main_v41_apply, hc, hr,
    pixId_apply, pixId_apply]
  exact cmpi_eq_ofNat (by omega) (by omega)

/-- The flat labels. -/
theorem labels_apply (x2 : (⟨S2x2x1024, .i32⟩ : BufTy).Contents (Elt Ideal)) (n : Fin 4096) :
    val_main_v16 (F := Ideal) x2 (ix1 n) = Cert.Spec.lab x2 n := by
  rw [val_main_v16_apply]
  unfold Cert.Spec.lab
  congr 1
  funext a
  match a with
  | ⟨0, _⟩ => rfl
  | ⟨1, _⟩ => rfl
  | ⟨2, _⟩ => rfl

/-- Same label. -/
theorem sameLab_apply (x2 : (⟨S2x2x1024, .i32⟩ : BufTy).Contents (Elt Ideal)) (n n' : Fin 4096) :
    val_main_v49 (F := Ideal) x2 (ix2 n n') = if Cert.Spec.lab x2 n = Cert.Spec.lab x2 n' then 1#1 else 0#1 := by
  have hc : idx_main_v45 (idx_main_v47 (ix2 n n')) = ix1 n := by funext a; match a with | ⟨0, _⟩ => rfl
  have hr : idx_main_v46 (idx_main_v48 (ix2 n n')) = ix1 n' := by funext a; match a with | ⟨0, _⟩ => rfl
  rw [val_main_v49_apply, val_main_v47_apply, val_main_v45_apply, val_main_v48_apply, val_main_v46_apply, hc, hr,
    labels_apply, labels_apply]
  exact cmpi_eq_ite _ _

/-- The mask word at an entry is the function of the four comparison bits there. -/
theorem mask_apply (x2 : (⟨S2x2x1024, .i32⟩ : BufTy).Contents (Elt Ideal)) (i : S4096x4096.Idx) :
    val_main_v54 (F := Ideal) x2 i
      = maskW (val_main_v34 (F := Ideal) i) (val_main_v39 (F := Ideal) i) (val_main_v44 (F := Ideal) i) (val_main_v49 (F := Ideal) x2 i) := by
  simp only [maskW, val_main_v54_apply, val_main_v53_apply, val_main_v52_apply, val_main_call6_v0_apply, val_main_c_4_apply,
    val_main_v51_apply, val_main_v50_apply, val_main_call4_v0_apply, val_main_c_apply, val_main_call4_v1_apply,
    val_main_c_2_apply, val_main_call5_v0_apply, val_main_c_3_apply]

/-- Same image, view and pixel together is being the same position. -/
theorem self_iff (n n' : Fin 4096) (q : Prop) :
    (n.val / 2048 = n'.val / 2048 ∧ q ∧ ¬ (n.val / 1024 % 2 = n'.val / 1024 % 2 ∧ n.val % 1024 = n'.val % 1024))
      ↔ (n.val / 2048 = n'.val / 2048 ∧ q ∧ n.val ≠ n'.val) := by
  constructor
  · rintro ⟨h1, h2, h3⟩; exact ⟨h1, h2, by omega⟩
  · rintro ⟨h1, h2, h3⟩; exact ⟨h1, h2, by omega⟩

/-- The denominator's keep bit at (n, n'): another position of the same image. -/
theorem keep_apply (x2 : (⟨S2x2x1024, .i32⟩ : BufTy).Contents (Elt Ideal)) (n n' : Fin 4096) :
    val_main_v62 (F := Ideal) x2 (ix2 n n') = if n.val / 2048 = n'.val / 2048 ∧ n.val ≠ n'.val then 1#1 else 0#1 := by
  rw [val_main_v62_apply, val_main_v60_apply, val_main_v59_apply, val_main_v61_apply, val_main_cst_7_apply, val_main_v58_apply,
    val_main_c_6_apply, mask_apply, maskW_sge_zero, uitofp_bit, ogt_zero_bit, sameImg_apply, sameView_apply, samePix_apply]
  simp only [bit_ite_eq_one]
  refine if_congr ?_ rfl rfl
  have h := self_iff n n' True
  simp only [true_and] at h
  exact h

/-- The numerator weight at (n, n'): another position of the same image with the same label. -/
theorem pos_apply (x2 : (⟨S2x2x1024, .i32⟩ : BufTy).Contents (Elt Ideal)) (n n' : Fin 4096) :
    val_main_v57 (F := Ideal) x2 (ix2 n n')
      = Cert.Spec.rWeight (fun n' : Fin 4096 => n.val / 2048 = n'.val / 2048 ∧ Cert.Spec.lab x2 n = Cert.Spec.lab x2 n' ∧ n.val ≠ n'.val) n' := by
  rw [val_main_v57_apply, val_main_v56_apply, val_main_v55_apply, val_main_c_5_apply, mask_apply, maskW_eq_one, uitofp_bit,
    sameImg_apply, sameView_apply, samePix_apply, sameLab_apply]
  simp only [bit_ite_eq_one]
  unfold Cert.Spec.rWeight
  exact if_congr (self_iff n n' _) rfl rfl

end Cert.ReferenceIdeal.Masks

end
-- ==== Proof.RefLogits.lean ====
/-
  The reference's logits, entry by entry.
  Both embeddings are transposed to (image, view, pixel, channel) and flattened to 4096 rows of 64 channels; each row is
  divided by max (its norm) 1e-12; the 4096 x 4096 product of the student rows with the transposed teacher rows is divided
  by the temperature. Read at (n, n'): the dot product of the two normalised rows, over the temperature.
-/
import proofs.«173573_j6279242187472_1_alg».proof.Proof.RefRead
import proofs.«173573_j6279242187472_1_alg».proof.Proof.Spec
import Idealize.ShloMosaic.Lib.ValueIdx
import Idealize.ShloMosaic.PureOps.Ideal.Laws

noncomputable section

namespace Cert.ReferenceIdeal.Logits

open Cert.ReferenceIdeal Cert.ReferenceIdeal.Gen Cert.ReferenceIdeal.ReadP Idealize.ShloMosaic Idealize.ShloMosaic.TcCoe Idealize.ShloMosaic.ValueIdx
open scoped BigOperators

/-! ## The flattened rows

Flat position n * 64 + c of the (image, view, pixel, channel) arrangement has image n / 2048, view n / 1024 % 2,
pixel n % 1024 and channel c; the transpose swaps the last two back. -/

/-- Entry (n, c) of the flattened student array is channel c of row n. -/
theorem rowEntry0 (x0 : (⟨S2x2x64x1024, .f32⟩ : BufTy).Contents (Elt Ideal)) (n : Fin 4096) (c : Fin 64) :
    val_main_v1 (F := Ideal) x0 (ix2 n c) = Cert.Spec.row x0 n c := by
  rw [val_main_v1_apply, val_main_v0_apply]
  unfold Cert.Spec.row
  refine congrArg x0 (funext fun a => Fin.ext ?_)
  have hn : n.val < 4096 := n.isLt
  have hc : c.val < 64 := c.isLt
  match a with
  | ⟨0, _⟩ => show (n.val * 64 + c.val) / 131072 = n.val / 2048; omega
  | ⟨1, _⟩ => show (n.val * 64 + c.val) / 65536 % 2 = n.val / 1024 % 2; omega
  | ⟨2, _⟩ => show (n.val * 64 + c.val) % 64 = c.val; omega
  | ⟨3, _⟩ => show (n.val * 64 + c.val) / 64 % 1024 = n.val % 1024; omega

/-- Entry (n, c) of the flattened teacher array is channel c of row n. -/
theorem rowEntry1 (x1 : (⟨S2x2x64x1024, .f32⟩ : BufTy).Contents (Elt Ideal)) (n : Fin 4096) (c : Fin 64) :
    val_main_v3 (F := Ideal) x1 (ix2 n c) = Cert.Spec.row x1 n c := by
  rw [val_main_v3_apply, val_main_v2_apply]
  unfold Cert.Spec.row
  refine congrArg x1 (funext fun a => Fin.ext ?_)
  have hn : n.val < 4096 := n.isLt
  have hc : c.val < 64 := c.isLt
  match a with
  | ⟨0, _⟩ => show (n.val * 64 + c.val) / 131072 = n.val / 2048; omega
  | ⟨1, _⟩ => show (n.val * 64 + c.val) / 65536 % 2 = n.val / 1024 % 2; omega
  | ⟨2, _⟩ => show (n.val * 64 + c.val) % 64 = c.val; omega
  | ⟨3, _⟩ => show (n.val * 64 + c.val) / 64 % 1024 = n.val % 1024; omega

/-! ## The floored norm of a row -/

/-- The sum of squares of student row n over its 64 channels (the sum starts from the zero word, which is 0). -/
theorem sumSq0 (x0 : (⟨S2x2x64x1024, .f32⟩ : BufTy).Contents (Elt Ideal)) (n : Fin 4096) :
    val_main_call0_v1 (F := Ideal) x0 (ix1 n) = ∑ c : Fin 64, Cert.Spec.row x0 n c * Cert.Spec.row x0 n c := by
  rw [val_main_call0_v1_apply, val_main_call0_cst_apply, Ideal.ofBits_def, Ideal.ofBits_zero_f32, zero_add]
  refine Finset.sum_congr rfl fun c _ => ?_
  have e : idx_main_call0_v1 (ix1 n) c = ix2 n c :=
    funext fun a => Fin.ext (by match a with | ⟨0, _⟩ => rfl | ⟨1, _⟩ => rfl)
  rw [e, val_main_call0_v0_apply, Ideal.mulf_def, rowEntry0]

/-- The sum of squares of teacher row n over its 64 channels. -/
theorem sumSq1 (x1 : (⟨S2x2x64x1024, .f32⟩ : BufTy).Contents (Elt Ideal)) (n : Fin 4096) :
    val_main_call2_v1 (F := Ideal) x1 (ix1 n) = ∑ c : Fin 64, Cert.Spec.row x1 n c * Cert.Spec.row x1 n c := by
  rw [val_main_call2_v1_apply, val_main_call2_cst_apply, Ideal.ofBits_def, Ideal.ofBits_zero_f32, zero_add]
  refine Finset.sum_congr rfl fun c _ => ?_
  have e : idx_main_call2_v1 (ix1 n) c = ix2 n c :=
    funext fun a => Fin.ext (by match a with | ⟨0, _⟩ => rfl | ⟨1, _⟩ => rfl)
  rw [e, val_main_call2_v0_apply, Ideal.mulf_def, rowEntry1]

/-- The column of floored norms at row n, student side: max 1e-12 (sqrt of the sum of squares), the maximum taken in
    the other order than the specification writes it. -/
theorem normEntry0 (x0 : (⟨S2x2x64x1024, .f32⟩ : BufTy).Contents (Elt Ideal)) (n : Fin 4096) :
    val_main_v5 (F := Ideal) x0 (ix2 n (0 : Fin 1)) = Cert.Spec.nrmV (Cert.Spec.row x0 n) := by
  have e : idx_main_call0_v2 (ix2 n (0 : Fin 1)) = ix1 n :=
    funext fun a => Fin.ext (by match a with | ⟨0, _⟩ => rfl)
  rw [val_main_v5_apply, val_main_call1_v1_apply, val_main_call1_v0_apply, val_main_cst_apply, val_main_v4_apply,
    val_main_call0_v2_apply, e, sumSq0, Ideal.maximumf_def, Ideal.hostUnary_sqrt_def, Ideal.ofBits_def, max_comm]
  rfl

/-- The column of floored norms at row n, teacher side. -/
theorem normEntry1 (x1 : (⟨S2x2x64x1024, .f32⟩ : BufTy).Contents (Elt Ideal)) (n : Fin 4096) :
    val_main_v9 (F := Ideal) x1 (ix2 n (0 : Fin 1)) = Cert.Spec.nrmV (Cert.Spec.row x1 n) := by
  have e : idx_main_call2_v2 (ix2 n (0 : Fin 1)) = ix1 n :=
    funext fun a => Fin.ext (by match a with | ⟨0, _⟩ => rfl)
  rw [val_main_v9_apply, val_main_call3_v1_apply, val_main_call3_v0_apply, val_main_cst_0_apply, val_main_v8_apply,
    val_main_call2_v2_apply, e, sumSq1, Ideal.maximumf_def, Ideal.hostUnary_sqrt_def, Ideal.ofBits_def, max_comm]
  rfl

/-! ## The normalised rows -/

/-- Entry (n, c) of the normalised student rows: the channel over the row's floored norm. -/
theorem unitEntry0 (x0 : (⟨S2x2x64x1024, .f32⟩ : BufTy).Contents (Elt Ideal)) (n : Fin 4096) (c : Fin 64) :
    val_main_v7 (F := Ideal) x0 (ix2 n c)
      = Ideal.div (Cert.Spec.row x0 n c) (Cert.Spec.nrmV (Cert.Spec.row x0 n)) := by
  have e : idx_main_v6 (ix2 n c) = ix2 n (0 : Fin 1) :=
    funext fun a => Fin.ext (by match a with | ⟨0, _⟩ => rfl | ⟨1, _⟩ => rfl)
  rw [val_main_v7_apply, val_main_v6_apply, e, normEntry0, rowEntry0, Ideal.hostDivf_def]

/-- Entry (n, c) of the normalised teacher rows. -/
theorem unitEntry1 (x1 : (⟨S2x2x64x1024, .f32⟩ : BufTy).Contents (Elt Ideal)) (n : Fin 4096) (c : Fin 64) :
    val_main_v11 (F := Ideal) x1 (ix2 n c)
      = Ideal.div (Cert.Spec.row x1 n c) (Cert.Spec.nrmV (Cert.Spec.row x1 n)) := by
  have e : idx_main_v10 (ix2 n c) = ix2 n (0 : Fin 1) :=
    funext fun a => Fin.ext (by match a with | ⟨0, _⟩ => rfl | ⟨1, _⟩ => rfl)
  rw [val_main_v11_apply, val_main_v10_apply, e, normEntry1, rowEntry1, Ideal.hostDivf_def]

/-! ## The logits -/

/-- Entry (n, n') of the product of the normalised student rows with the transposed normalised teacher rows, over the
    temperature: the contraction over the 64 channels pairs channel k of student row n with channel k of teacher row n'. -/
theorem logits_apply (x0 x1 : (⟨S2x2x64x1024, .f32⟩ : BufTy).Contents (Elt Ideal)) (n n' : Fin 4096) :
    val_main_v15 (F := Ideal) x0 x1 (ix2 n n')
      = Ideal.div (Cert.Spec.cosV (Cert.Spec.row x0 n) (Cert.Spec.row x1 n')) Cert.Spec.tempD := by
  rw [val_main_v15_apply, val_main_v14_apply, val_main_cst_1_apply, val_main_v13_apply, Ideal.hostDivf_def,
    Ideal.ofBits_def]
  unfold Cert.Spec.cosV Cert.Spec.tempD
  refine congrArg (Ideal.div · _) (Finset.sum_congr rfl fun k _ => ?_)
  have el : lidx_main_v13 (ix2 n n') k = ix2 n k :=
    funext fun a => Fin.ext (by match a with | ⟨0, _⟩ => rfl | ⟨1, _⟩ => rfl)
  have er : idx_main_v12 (ridx_main_v13 (ix2 n n') k) = ix2 n' k :=
    funext fun a => Fin.ext (by match a with | ⟨0, _⟩ => rfl | ⟨1, _⟩ => rfl)
  rw [el, val_main_v12_apply, er, unitEntry0, unitEntry1]

end Cert.ReferenceIdeal.Logits

end
-- ==== Proof.RefSoftmax.lean ====
/-
  The reference's per-row quantities.
  The logits are masked to -∞ off the denominator's keep set, a log-softmax is taken along each row (maximum from -∞,
  shifted exponentials summed, the logarithm of the sum subtracted), a -∞ log-probability is replaced by 0, and the
  result is weighted by the numerator mask and summed along the row; the numerator mask summed along the row is the count.
-/
import proofs.«173573_j6279242187472_1_alg».proof.Proof.RefMasks
import proofs.«173573_j6279242187472_1_alg».proof.Proof.RefLogits
import Idealize.ShloMosaic.PureOps.Reduce
import Idealize.ShloMosaic.PureOps.Ideal.Laws
import Idealize.ShloMosaic.Lib.ValueIdx

noncomputable section

namespace Cert.ReferenceIdeal.Rows

open Cert.ReferenceIdeal Cert.ReferenceIdeal.Gen Cert.ReferenceIdeal.ReadP Idealize.ShloMosaic Idealize.ShloMosaic.TcCoe Idealize.ShloMosaic.ValueIdx
open scoped BigOperators

/-- The word 0xFF800000 denotes -∞. -/
theorem negInf : Ideal.ofBits .f32 0xFF800000#32 = (⊥ : EReal) := by simp [Ideal.ofBits, Ideal.ieee]

/-- Row n's masked logits, in the specification's words: the similarity over the temperature at another position of
    n's image, -∞ elsewhere. -/
abbrev rl (x0 x1 : (⟨S2x2x64x1024, .f32⟩ : BufTy).Contents (Elt Ideal)) (n : Fin 4096) : Fin 4096 → EReal :=
  Cert.Spec.rLogits (Cert.Spec.row x0 n) (fun n' : Fin 4096 => Cert.Spec.row x1 n')
    (fun n' : Fin 4096 => n.val / 2048 = n'.val / 2048 ∧ n.val ≠ n'.val)

/-- Row n's shift: the maximum of -∞ and the row's maximum. -/
abbrev rM (x0 x1 : (⟨S2x2x64x1024, .f32⟩ : BufTy).Contents (Elt Ideal)) (n : Fin 4096) : EReal :=
  max ⊥ (Cert.Spec.rowMax (rl x0 x1 n))

/-- The masked logits at (n, n'). -/
theorem masked (x0 x1 : (⟨S2x2x64x1024, .f32⟩ : BufTy).Contents (Elt Ideal)) (x2 : (⟨S2x2x1024, .i32⟩ : BufTy).Contents (Elt Ideal)) (n n' : Fin 4096) :
    val_main_v63 (F := Ideal) x0 x1 x2 (ix2 n n') = rl x0 x1 n n' := by
  rw [val_main_v63_apply, Masks.keep_apply, Logits.logits_apply, val_main_call7_v1_apply, val_main_call7_v0_apply,
    val_main_cst_8_apply]
  show _ = Cert.Spec.rLogits _ _ _ n'
  unfold Cert.Spec.rLogits
  by_cases h : n.val / 2048 = n'.val / 2048 ∧ n.val ≠ n'.val
  · rw [if_pos h, if_pos h, select_one]
  · rw [if_neg h, if_neg h, select_zero]; exact negInf

/-- The reduction of the 4096 x 4096 grid along its second axis. -/
theorem hRed : S4096x4096.Reduces [1] S4096 := by decide

/-- Row n with column k put back is (n, k). -/
theorem lift_row (n : Fin 4096) (k : Fin (S4096x4096.size 1)) :
    hRed.lift (ix1 n) k = ix2 n (⟨k.val, k.isLt⟩ : Fin 4096) := by
  funext c; apply Fin.ext
  fin_cases c <;> rfl

/-- The row maximum from -∞. -/
theorem rmax0 (x0 x1 : (⟨S2x2x64x1024, .f32⟩ : BufTy).Contents (Elt Ideal)) (x2 : (⟨S2x2x1024, .i32⟩ : BufTy).Contents (Elt Ideal)) (n : Fin 4096) :
    val_main_call8_v0 (F := Ideal) x0 x1 x2 (ix1 n) = Cert.Spec.rowMax (rl x0 x1 n) := by
  unfold val_main_call8_v0
  rw [Host.reduce_eq_fold_single FloatOps.maximumf _ _ reducesTo_S4096x4096_S4096_d1 hRed h_S_]
  have hf : (val_main_v63 (F := Ideal) x0 x1 x2 ∘ hRed.lift (ix1 n)) = fun k : Fin 4096 => rl x0 x1 n k :=
    funext fun k => (congrArg (val_main_v63 (F := Ideal) x0 x1 x2) (lift_row n k)).trans (masked x0 x1 x2 n _)
  have hi : val_main_call8_cst (F := Ideal) (Shape.Idx.first h_S_) = (⊥ : EReal) := negInf
  rw [hi]
  exact congrArg (fun f => Finset.fold max (⊥ : EReal) f (Finset.univ : Finset (Fin 4096))) hf

/-- The shift: the maximum of the splat of -∞ and the row maximum. -/
theorem rmax (x0 x1 : (⟨S2x2x64x1024, .f32⟩ : BufTy).Contents (Elt Ideal)) (x2 : (⟨S2x2x1024, .i32⟩ : BufTy).Contents (Elt Ideal)) (n : Fin 4096) :
    val_main_call8_v2 (F := Ideal) x0 x1 x2 (ix1 n) = rM x0 x1 n := by
  rw [val_main_call8_v2_apply, val_main_call8_v1_apply, val_main_call8_cst_0_apply, rmax0]
  show max (Ideal.ofBits .f32 0xFF800000#32) _ = _
  rw [negInf]

/-- The shift, broadcast along the row. -/
theorem shiftB (x0 x1 : (⟨S2x2x64x1024, .f32⟩ : BufTy).Contents (Elt Ideal)) (x2 : (⟨S2x2x1024, .i32⟩ : BufTy).Contents (Elt Ideal)) (n n' : Fin 4096) :
    val_main_call8_v4 (F := Ideal) x0 x1 x2 (ix2 n n') = rM x0 x1 n := by
  rw [val_main_call8_v4_apply, val_main_call8_v3_apply]
  have hi : idx_main_call8_v3 (idx_main_call8_v4 (ix2 n n')) = ix1 n := by
    funext a; match a with | ⟨0, _⟩ => rfl
  rw [hi, rmax]

/-- The shifted logits at (n, n'). -/
theorem shifted (x0 x1 : (⟨S2x2x64x1024, .f32⟩ : BufTy).Contents (Elt Ideal)) (x2 : (⟨S2x2x1024, .i32⟩ : BufTy).Contents (Elt Ideal)) (n n' : Fin 4096) :
    val_main_call8_v5 (F := Ideal) x0 x1 x2 (ix2 n n') = rl x0 x1 n n' - rM x0 x1 n := by
  rw [val_main_call8_v5_apply, masked, shiftB]; rfl

/-- Their exponentials. -/
theorem expd (x0 x1 : (⟨S2x2x64x1024, .f32⟩ : BufTy).Contents (Elt Ideal)) (x2 : (⟨S2x2x1024, .i32⟩ : BufTy).Contents (Elt Ideal)) (n n' : Fin 4096) :
    val_main_call8_v6 (F := Ideal) x0 x1 x2 (ix2 n n') = Ideal.exp (rl x0 x1 n n' - rM x0 x1 n) := by
  rw [val_main_call8_v6_apply, shifted]; rfl

/-- The exponentials summed along row n. -/
theorem sumexp (x0 x1 : (⟨S2x2x64x1024, .f32⟩ : BufTy).Contents (Elt Ideal)) (x2 : (⟨S2x2x1024, .i32⟩ : BufTy).Contents (Elt Ideal)) (n : Fin 4096) :
    val_main_call8_v7 (F := Ideal) x0 x1 x2 (ix1 n) = ∑ k : Fin 4096, Ideal.exp (rl x0 x1 n k - rM x0 x1 n) := by
  rw [val_main_call8_v7_apply, val_main_call8_cst_1_apply]
  show Ideal.ofBits .f32 0x00000000#32 + _ = _
  rw [Ideal.ofBits_zero_f32, zero_add]
  refine Finset.sum_congr rfl fun k _ => ?_
  have hi : idx_main_call8_v7 (ix1 n) k = ix2 n k := by
    funext a; match a with | ⟨0, _⟩ => rfl | ⟨1, _⟩ => rfl
  rw [hi, expd]

/-- The logarithm of the sum, broadcast along the row. -/
theorem logsum (x0 x1 : (⟨S2x2x64x1024, .f32⟩ : BufTy).Contents (Elt Ideal)) (x2 : (⟨S2x2x1024, .i32⟩ : BufTy).Contents (Elt Ideal)) (n n' : Fin 4096) :
    val_main_call8_v10 (F := Ideal) x0 x1 x2 (ix2 n n') = Ideal.log (∑ k : Fin 4096, Ideal.exp (rl x0 x1 n k - rM x0 x1 n)) := by
  rw [val_main_call8_v10_apply, val_main_call8_v9_apply, val_main_call8_v8_apply]
  have hi : idx_main_call8_v8 (idx_main_call8_v10 (ix2 n n')) = ix1 n := by
    funext a; match a with | ⟨0, _⟩ => rfl
  rw [hi, sumexp]; rfl

/-- The log-probabilities at (n, n'). -/
theorem logp (x0 x1 : (⟨S2x2x64x1024, .f32⟩ : BufTy).Contents (Elt Ideal)) (x2 : (⟨S2x2x1024, .i32⟩ : BufTy).Contents (Elt Ideal)) (n n' : Fin 4096) :
    val_main_v64 (F := Ideal) x0 x1 x2 (ix2 n n') = Cert.Spec.logProb (rl x0 x1 n) (rM x0 x1 n) n' := by
  rw [val_main_v64_apply, shifted, logsum]; rfl

/-- A -∞ log-probability read as 0. -/
theorem guarded (x0 x1 : (⟨S2x2x64x1024, .f32⟩ : BufTy).Contents (Elt Ideal)) (x2 : (⟨S2x2x1024, .i32⟩ : BufTy).Contents (Elt Ideal)) (n n' : Fin 4096) :
    val_main_v67 (F := Ideal) x0 x1 x2 (ix2 n n') = Cert.Spec.unInf (Cert.Spec.logProb (rl x0 x1 n) (rM x0 x1 n) n') := by
  rw [val_main_v67_apply, val_main_v66_apply, val_main_v65_apply, val_main_cst_9_apply, val_main_call9_v1_apply,
    val_main_call9_v0_apply, val_main_cst_10_apply, logp]
  generalize Cert.Spec.logProb (rl x0 x1 n) (rM x0 x1 n) n' = L
  show Scalar.select (Ideal.cmp .oeq L (Ideal.ofBits .f32 0xFF800000#32)) (Ideal.ofBits .f32 0x00000000#32) L = _
  rw [negInf, Ideal.ofBits_zero_f32]
  unfold Cert.Spec.unInf Ideal.cmp
  by_cases h : L = ⊥
  · rw [if_pos h]; simp only [h, decide_true, BitVec.ofBool_true]; exact select_one _ _
  · rw [if_neg h]; simp only [h, decide_false, BitVec.ofBool_false]; exact select_zero _ _

theorem A_apply (x0 x1 : (⟨S2x2x64x1024, .f32⟩ : BufTy).Contents (Elt Ideal)) (x2 : (⟨S2x2x1024, .i32⟩ : BufTy).Contents (Elt Ideal)) (n : Fin 4096) :
    val_main_v70 (F := Ideal) x0 x1 x2 (ix1 n) = Cert.Spec.AR x0 x1 x2 n := by
  rw [val_main_v70_apply, val_main_cst_12_apply]
  show Ideal.ofBits .f32 0x00000000#32 + _ = _
  rw [Ideal.ofBits_zero_f32, zero_add]
  unfold Cert.Spec.AR Cert.Spec.rRowA
  refine Finset.sum_congr rfl fun k _ => ?_
  have hi : idx_main_v70 (ix1 n) k = ix2 n k := by
    funext a; match a with | ⟨0, _⟩ => rfl | ⟨1, _⟩ => rfl
  rw [hi, val_main_v69_apply, Masks.pos_apply, guarded]; rfl

theorem B_apply (x2 : (⟨S2x2x1024, .i32⟩ : BufTy).Contents (Elt Ideal)) (n : Fin 4096) :
    val_main_v68 (F := Ideal) x2 (ix1 n) = Cert.Spec.BR x2 n := by
  rw [val_main_v68_apply, val_main_cst_11_apply]
  show Ideal.ofBits .f32 0x00000000#32 + _ = _
  rw [Ideal.ofBits_zero_f32, zero_add]
  unfold Cert.Spec.BR Cert.Spec.rRowB
  refine Finset.sum_congr rfl fun k _ => ?_
  have hi : idx_main_v68 (ix1 n) k = ix2 n k := by
    funext a; match a with | ⟨0, _⟩ => rfl | ⟨1, _⟩ => rfl
  rw [hi, Masks.pos_apply]

end Cert.ReferenceIdeal.Rows

end
-- ==== Proof.LibBitCount.lean ====
/-
  COUNTING BITS IN 32-BIT WORDS. Adding up fewer than 2^31 one-bit words, each widened to 32 bits, never wraps: the sum's
  unsigned and signed values are both the number of set bits. Stated for a fold of word addition over any finite set, and
  carried to the extended reals, where it says that a count taken in 32-bit integers and then converted is the sum of the
  bits taken as reals.
-/
import Idealize.ShloMosaic.PureOps.Reduce
import Mathlib.Data.EReal.Basic
import Mathlib.Algebra.BigOperators.Group.Finset.Basic
import Mathlib.Data.Finset.Fold
import Mathlib.Data.Finset.Card
import Mathlib.Algebra.BigOperators.Ring.Finset

noncomputable section

namespace Cert.LibBitCount

open Idealize.ShloMosaic
open scoped BigOperators

/-- The embedding of the reals in the extended reals commutes with finite sums. -/
theorem coe_sum {ι : Type} (s : Finset ι) (g : ι → ℝ) :
    ∑ i ∈ s, (g i : EReal) = ((∑ i ∈ s, g i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The 32-bit sum of fewer than 2^31 widened bits has unsigned value the number of set bits, and that number is at most
    the number of words added: each step adds a word of value 0 or 1 to a value below 2^31, so no step wraps. -/
theorem toNat_fold_addi_le {ι : Type} [DecidableEq ι] (s : Finset ι) (b : ι → BitVec 1) (hs : s.card < 2 ^ 31) :
    (s.fold IntOp.addi 0#32 (fun i => (b i).setWidth 32)).toNat = ∑ i ∈ s, (b i).toNat ∧
      ∑ i ∈ s, (b i).toNat ≤ s.card := by
  induction s using Finset.induction_on with
  | empty => exact ⟨rfl, le_rfl⟩
  | insert a s ha ih =>
    rw [Finset.card_insert_of_notMem ha] at hs
    obtain ⟨h1, h2⟩ := ih (by omega)
    have hb : (b a).toNat < 2 := by
      have := (b a).isLt
      omega
    have hw : ((b a).setWidth 32).toNat = (b a).toNat := BitVec.toNat_setWidth_of_le (by norm_num)
    rw [Finset.fold_insert ha, Finset.sum_insert ha, Finset.card_insert_of_notMem ha]
    refine ⟨?_, by omega⟩
    rw [IntOp.addi, BitVec.toNat_add, hw, h1]
    exact Nat.mod_eq_of_lt (by omega)

/-- The unsigned value of the 32-bit sum of fewer than 2^31 widened bits is the number of set bits. -/
theorem toNat_fold_addi {ι : Type} [DecidableEq ι] (s : Finset ι) (b : ι → BitVec 1) (hs : s.card < 2 ^ 31) :
    (s.fold IntOp.addi 0#32 (fun i => (b i).setWidth 32)).toNat = ∑ i ∈ s, (b i).toNat :=
  (toNat_fold_addi_le s b hs).1

/-- Its signed value, as an extended real, is the sum of the bits as extended reals. -/
theorem coe_toInt_fold_addi {ι : Type} [DecidableEq ι] (s : Finset ι) (b : ι → BitVec 1) (hs : s.card < 2 ^ 31) :
    ((((s.fold IntOp.addi 0#32 (fun i => (b i).setWidth 32)).toInt : ℝ)) : EReal)
      = ∑ i ∈ s, ((((b i).toNat : ℝ)) : EReal) := by
  obtain ⟨h1, h2⟩ := toNat_fold_addi_le s b hs
  have hlt : 2 * (s.fold IntOp.addi 0#32 (fun i => (b i).setWidth 32)).toNat < 2 ^ 32 := by
    rw [h1]
    omega
  rw [BitVec.toInt_eq_toNat_of_lt hlt, Int.cast_natCast, h1, Nat.cast_sum, ← coe_sum]

end Cert.LibBitCount

end
-- ==== Proof.RefTail.lean ====
/-
  The reference's loss from its per-row quantities.
  The same expression as the kernel program's host tail, except that the number of rows with a positive is counted in
  32-bit integers and converted; at most 4096 ones are added, so the integer count is the real count.
-/
import proofs.«173573_j6279242187472_1_alg».proof.Proof.RefSoftmax
import proofs.«173573_j6279242187472_1_alg».proof.Proof.LibBitCount
import Idealize.ShloMosaic.PureOps.Reduce

noncomputable section

namespace Cert.ReferenceIdeal.Tail

open Cert.ReferenceIdeal Cert.ReferenceIdeal.Gen Cert.ReferenceIdeal.ReadP Idealize.ShloMosaic Idealize.ShloMosaic.TcCoe Idealize.ShloMosaic.ValueIdx
open scoped BigOperators

/-! ## The stages between the per-row quantities and the loss, one by one -/

/-- The comparison of a row's count with 1e-8 is the specification's bit "the row has a positive". -/
theorem valid_apply (x2 : (⟨S2x2x1024, .i32⟩ : BufTy).Contents (Elt Ideal)) (j : S4096.Idx) :
    val_main_v75 (F := Ideal) x2 j = Cert.Spec.validBit (val_main_v68 (F := Ideal) x2) j := by
  rw [val_main_v75_apply, val_main_v74_apply, val_main_cst_14_apply]
  generalize val_main_v68 (F := Ideal) x2 = B
  rfl

/-- The integer count of the rows with a positive, read at the scalar index, is a fold of word addition over all rows. -/
theorem count_fold (x2 : (⟨S2x2x1024, .i32⟩ : BufTy).Contents (Elt Ideal)) (i : S_.Idx) :
    val_main_v77 (F := Ideal) x2 i
      = (Finset.univ : Finset S4096.Idx).fold IntOp.addi 0#32 (fun j => (val_main_v75 (F := Ideal) x2 j).setWidth 32) := by
  unfold val_main_v77 val_main_v76 val_main_c_15
  generalize val_main_v75 (F := Ideal) x2 = b
  rw [Host.reduce_eq_fold, Finset.filter_true_of_mem (fun j _ => funext fun a => a.elim0)]
  rfl

/-- The converted integer count is the specification's count in the reals. -/
theorem count_apply (x2 : (⟨S2x2x1024, .i32⟩ : BufTy).Contents (Elt Ideal)) (i : S_.Idx) :
    val_main_v78 (F := Ideal) x2 i = Cert.Spec.nValid (val_main_v68 (F := Ideal) x2) := by
  rw [val_main_v78_apply, count_fold]
  show ((((Finset.univ : Finset S4096.Idx).fold IntOp.addi 0#32 (fun j => (val_main_v75 (F := Ideal) x2 j).setWidth 32)).toInt : ℝ) : EReal) = _
  rw [Cert.LibBitCount.coe_toInt_fold_addi _ _ (by rw [Finset.card_univ, Shape.card_idx, Shape.numel_rank1]; decide)]
  unfold Cert.Spec.nValid
  exact Finset.sum_congr rfl fun j _ => by rw [valid_apply]

/-- A row's quotient A / (B + 1e-8) where the row has a positive, else 0. -/
theorem pick_apply (x0 x1 : (⟨S2x2x64x1024, .f32⟩ : BufTy).Contents (Elt Ideal)) (x2 : (⟨S2x2x1024, .i32⟩ : BufTy).Contents (Elt Ideal)) (j : S4096.Idx) :
    val_main_v79 (F := Ideal) x0 x1 x2 j
      = Scalar.select (Cert.Spec.validBit (val_main_v68 (F := Ideal) x2) j)
          (Ideal.div (val_main_v70 (F := Ideal) x0 x1 x2 j) (val_main_v68 (F := Ideal) x2 j + Cert.Spec.eps8)) 0 := by
  rw [val_main_v79_apply, valid_apply, val_main_v73_apply, val_main_v72_apply, val_main_v71_apply, val_main_cst_13_apply,
    val_main_call10_v1_apply, val_main_call10_v0_apply, val_main_cst_16_apply]
  simp only [Ideal.ofBits_def, Ideal.ofBits_zero_f32, Ideal.hostDivf_def, Ideal.addf_def]
  unfold Cert.Spec.eps8
  rfl

/-- The sum of the picked quotients over all rows. -/
theorem picked_sum_apply (x0 x1 : (⟨S2x2x64x1024, .f32⟩ : BufTy).Contents (Elt Ideal)) (x2 : (⟨S2x2x1024, .i32⟩ : BufTy).Contents (Elt Ideal)) (i : S_.Idx) :
    val_main_v80 (F := Ideal) x0 x1 x2 i
      = ∑ j : S4096.Idx, Scalar.select (Cert.Spec.validBit (val_main_v68 (F := Ideal) x2) j)
          (Ideal.div (val_main_v70 (F := Ideal) x0 x1 x2 j) (val_main_v68 (F := Ideal) x2 j + Cert.Spec.eps8)) 0 := by
  rw [val_main_v80_apply, val_main_cst_17_apply, Ideal.ofBits_def, Ideal.ofBits_zero_f32, zero_add]
  exact Finset.sum_congr rfl fun j _ => pick_apply x0 x1 x2 j

/-- The number of rows with a positive and a label other than 0: both bits are converted and multiplied, then summed. -/
theorem fg_apply (x2 : (⟨S2x2x1024, .i32⟩ : BufTy).Contents (Elt Ideal)) (i : S_.Idx) :
    val_main_v88 (F := Ideal) x2 i = Cert.Spec.nFg (val_main_v68 (F := Ideal) x2) (val_main_v16 (F := Ideal) x2) := by
  rw [val_main_v88_apply, val_main_cst_19_apply, Ideal.ofBits_def, Ideal.ofBits_zero_f32, zero_add]
  unfold Cert.Spec.nFg
  refine Finset.sum_congr rfl fun j _ => ?_
  rw [val_main_v87_apply, val_main_v85_apply, val_main_v86_apply, val_main_v84_apply, val_main_v83_apply, val_main_c_18_apply,
    valid_apply]
  rfl

/-- The loss from the stages named A (row sums), B (row counts) and the flat labels. -/
theorem tail_apply (x0 x1 : (⟨S2x2x64x1024, .f32⟩ : BufTy).Contents (Elt Ideal)) (x2 : (⟨S2x2x1024, .i32⟩ : BufTy).Contents (Elt Ideal)) :
    val_main_v91 (F := Ideal) x0 x1 x2
      = fun _ => Cert.Spec.tail (val_main_v70 (F := Ideal) x0 x1 x2) (val_main_v68 (F := Ideal) x2) (val_main_v16 (F := Ideal) x2) := by
  funext i
  rw [val_main_v91_apply, val_main_v89_apply, val_main_v90_apply, val_main_v82_apply, val_main_v81_apply, val_main_cst_20_apply,
    fg_apply, count_apply, picked_sum_apply]
  simp only [Ideal.hostDivf_def, Ideal.mulf_def, Ideal.addf_def, Ideal.hostNegf_def, Ideal.negf_def, Ideal.ofBits_def]
  unfold Cert.Spec.tail Cert.Spec.eps8
  rfl

/-- The reference's result in the specification's words. -/
theorem result_eq (x0 x1 : (⟨S2x2x64x1024, .f32⟩ : BufTy).Contents (Elt Ideal)) (x2 : (⟨S2x2x1024, .i32⟩ : BufTy).Contents (Elt Ideal)) :
    val_main_v91 (F := Ideal) x0 x1 x2
      = fun _ => Cert.Spec.tail (Cert.Spec.asRows (Cert.Spec.AR x0 x1 x2)) (Cert.Spec.asRows (Cert.Spec.BR x2)) (Cert.Spec.labRows x2) := by
  have hA : val_main_v70 (F := Ideal) x0 x1 x2 = Cert.Spec.asRows (Cert.Spec.AR x0 x1 x2) := by
    funext j
    obtain ⟨n, rfl⟩ : ∃ n : Fin 4096, j = ix1 n := ⟨j 0, eq_ix1 j⟩
    rw [Rows.A_apply]
    rfl
  have hB : val_main_v68 (F := Ideal) x2 = Cert.Spec.asRows (Cert.Spec.BR x2) := by
    funext j
    obtain ⟨n, rfl⟩ : ∃ n : Fin 4096, j = ix1 n := ⟨j 0, eq_ix1 j⟩
    rw [Rows.B_apply]
    rfl
  have hL : val_main_v16 (F := Ideal) x2 = Cert.Spec.labRows x2 := by
    funext j
    obtain ⟨n, rfl⟩ : ∃ n : Fin 4096, j = ix1 n := ⟨j 0, eq_ix1 j⟩
    rw [Masks.labels_apply]
    rfl
  rw [tail_apply, hA, hB, hL]

end Cert.ReferenceIdeal.Tail

end
-- ==== Proof.LibAllReal.lean ====
/-
  ARRAYS OF REALS. At the ideal values a float is an extended real; an array is "all real" when no entry is an infinity or
  the junk value. This file states that notion and its closure under the host operations read at the ideal values, for any
  shapes and any dimension records: an operation that only READS its operand somewhere (a gather, a broadcast, a reshape, a
  select) keeps it; sums, differences, products and maxima of reals are reals; a finite sum of reals is a real (a scatter
  with addition, a dot product); a quotient by a nonzero real and the reciprocal square root of a positive real are reals;
  a constant whose f32 pattern has an exponent field that is not all ones is a real.
-/
import Idealize.ShloMosaic.PureOps.Ideal
import Idealize.ShloMosaic.PureOps.Ideal.Laws
import Idealize.ShloMosaic.PureOps.ShapeOps
import Idealize.ShloMosaic.PureOps.Contract
import Mathlib.Data.EReal.Basic
import Mathlib.Data.EReal.Operations
import Mathlib.Data.EReal.Inv
import Mathlib.Algebra.BigOperators.Group.Finset.Defs

noncomputable section

namespace Cert.LibAllReal

open Idealize.ShloMosaic
open scoped BigOperators

/-- Every entry is a real number. -/
def AllReal {S : Shape} (v : S.Idx → EReal) : Prop := ∀ y, ∃ r : ℝ, v y = (r : EReal)

/-! ## Reals among the extended reals -/

/-- A finite sum of reals is a real. -/
theorem real_sum {ι : Type} (s : Finset ι) (f : ι → EReal) (hf : ∀ i ∈ s, ∃ r : ℝ, f i = (r : EReal)) :
    ∃ r : ℝ, ∑ i ∈ s, f i = (r : EReal) :=
  Finset.sum_induction f (fun x => ∃ r : ℝ, x = (r : EReal))
    (by rintro _ _ ⟨a, rfl⟩ ⟨b, rfl⟩; exact ⟨a + b, (EReal.coe_add a b).symm⟩) ⟨0, EReal.coe_zero.symm⟩ hf

/-- An f32 pattern whose exponent field is not all ones denotes a real (a zero, a subnormal or a normal number). -/
theorem ofBits_f32_real (w : BitVec 32) (h : (w.extractLsb' 23 8).toNat ≠ 2 ^ 8 - 1) :
    ∃ r : ℝ, Ideal.ofBits .f32 w = (r : EReal) := by
  show ∃ r : ℝ, Ideal.ieee 8 23 w = (r : EReal)
  unfold Ideal.ieee
  dsimp only
  rw [if_neg h]
  split <;> exact ⟨_, rfl⟩

/-- A quotient of a real by a nonzero real is a real. -/
theorem real_div {x y : EReal} (hx : ∃ r : ℝ, x = (r : EReal)) (hy : ∃ r : ℝ, y = (r : EReal)) (h0 : y ≠ 0) :
    ∃ r : ℝ, Ideal.div x y = (r : EReal) := by
  obtain ⟨p, rfl⟩ := hx
  obtain ⟨q, rfl⟩ := hy
  have hq : q ≠ 0 := fun e => h0 (by rw [e]; rfl)
  exact ⟨p * (1 / q), by rw [Ideal.div_coe hq, EReal.coe_mul]⟩

/-- The reciprocal square root of a positive real is a real. -/
theorem real_rsqrt {x : EReal} (hx : ∃ r : ℝ, x = (r : EReal)) (h0 : 0 < x) : ∃ r : ℝ, Ideal.rsqrt x = (r : EReal) := by
  obtain ⟨p, rfl⟩ := hx
  have hp : 0 < p := EReal.coe_pos.1 h0
  refine ⟨(Real.sqrt p)⁻¹, ?_⟩
  rw [Ideal.rsqrt_coe, if_neg (not_lt.2 hp.le), if_neg hp.ne']

/-! ## Operations that read their operand -/

section Reads
variable {s si t : Shape} {w : Nat}

/-- A gather reads the operand at some index for each result index. -/
theorem AllReal.gather {x : s.Idx → EReal} (hx : AllReal x) (d : GatherDims s si t) (idx : IVec si w) :
    AllReal (Host.gather d x idx) := fun j => hx _

/-- A broadcast reads the operand at the index the result index keeps. -/
theorem AllReal.broadcastInDim {x : s.Idx → EReal} (hx : AllReal x) (dims : Fin s.rank → Fin t.rank)
    (h : s.BroadcastsInDim t dims) : AllReal (broadcastInDim t dims h x) := fun j => hx _

/-- A reshape reads the operand at the index of the same row-major position. -/
theorem AllReal.shapeCast {x : s.Idx → EReal} (hx : AllReal x) (h : s.ShapeCasts t) :
    AllReal (shapeCast t x h) := fun j => hx _

/-- A select takes, entry by entry, one of two reals. -/
theorem AllReal.select {a b : s.Idx → EReal} (ha : AllReal a) (hb : AllReal b) (c : IVec s 1) :
    AllReal (select c a b) := fun j => by
  show ∃ r : ℝ, Scalar.select (c j) (a j) (b j) = (r : EReal)
  unfold Scalar.select
  split
  · exact ha j
  · exact hb j

end Reads

/-! ## Arithmetic, entry by entry -/

section Arith
variable {s : Shape} {φ : FTy}

theorem AllReal.mulf {a b : FVec Ideal s φ} (ha : AllReal a) (hb : AllReal b) : AllReal (mulf a b) := fun j => by
  obtain ⟨p, hp⟩ := ha j
  obtain ⟨q, hq⟩ := hb j
  exact ⟨p * q, by show a j * b j = _; rw [hp, hq, EReal.coe_mul]⟩

theorem AllReal.addf {a b : FVec Ideal s φ} (ha : AllReal a) (hb : AllReal b) : AllReal (addf a b) := fun j => by
  obtain ⟨p, hp⟩ := ha j
  obtain ⟨q, hq⟩ := hb j
  exact ⟨p + q, by show a j + b j = _; rw [hp, hq, EReal.coe_add]⟩

theorem AllReal.subf {a b : FVec Ideal s φ} (ha : AllReal a) (hb : AllReal b) : AllReal (subf a b) := fun j => by
  obtain ⟨p, hp⟩ := ha j
  obtain ⟨q, hq⟩ := hb j
  exact ⟨p - q, by show a j - b j = _; rw [hp, hq, EReal.coe_sub]⟩

theorem AllReal.maximumf {a b : FVec Ideal s φ} (ha : AllReal a) (hb : AllReal b) : AllReal (maximumf a b) := fun j => by
  show ∃ r : ℝ, max (a j) (b j) = (r : EReal)
  rcases max_choice (a j) (b j) with e | e <;> rw [e]
  · exact ha j
  · exact hb j

/-- A quotient by an array of nonzero reals. -/
theorem AllReal.divf_of_ne_zero {a b : FVec Ideal s φ} (ha : AllReal a) (hb : AllReal b) (h0 : ∀ y, b y ≠ 0) :
    AllReal (Host.divf a b) := fun j => real_div (ha j) (hb j) (h0 j)

/-- A quotient by an array of reals that are at least 1. -/
theorem AllReal.divf {a b : FVec Ideal s φ} (ha : AllReal a) (hb : AllReal b) (h1 : ∀ y, (1 : EReal) ≤ b y) :
    AllReal (Host.divf a b) :=
  AllReal.divf_of_ne_zero ha hb fun y e => by
    have h := h1 y
    rw [e] at h
    exact absurd h (by norm_num)

/-- The reciprocal square root of an array of positive reals. -/
theorem AllReal.rsqrt {a : FVec Ideal s φ} (ha : AllReal a) (hpos : ∀ y, (0 : EReal) < a y) :
    AllReal (Host.rsqrt a) := fun j => real_rsqrt (ha j) (hpos j)

end Arith

/-! ## Constants -/

section Constants
variable (S : Shape)

/-- A splat of an f32 pattern whose exponent field is not all ones. -/
theorem AllReal.constant_of_finite (w : BitVec 32) (h : (w.extractLsb' 23 8).toNat ≠ 2 ^ 8 - 1) :
    AllReal (constant (F := Ideal) S .f32 w) := fun _ => ofBits_f32_real w h

/-- 0.0 -/
theorem AllReal.constant_zero : AllReal (constant (F := Ideal) S .f32 0x00000000#32) :=
  AllReal.constant_of_finite S _ (by decide)
/-- 1.0 -/
theorem AllReal.constant_one : AllReal (constant (F := Ideal) S .f32 0x3F800000#32) :=
  AllReal.constant_of_finite S _ (by decide)
/-- 2.0 -/
theorem AllReal.constant_two : AllReal (constant (F := Ideal) S .f32 0x40000000#32) :=
  AllReal.constant_of_finite S _ (by decide)
/-- the small positive number 0x3727C5AC (about 1e-5) -/
theorem AllReal.constant_eps : AllReal (constant (F := Ideal) S .f32 0x3727C5AC#32) :=
  AllReal.constant_of_finite S _ (by decide)

end Constants

/-! ## Finite sums: a scatter with addition, a dot product -/

section Sums

/-- A scatter with addition gives, at each entry, the operand's entry plus a finite sum of update entries. -/
theorem AllReal.scatterAdd {s si u : Shape} {w : Nat} {φ : FTy} {x : FVec Ideal s φ} {upd : FVec Ideal u φ}
    (hx : AllReal x) (hu : AllReal upd) (d : ScatterDims s si u) (idx : IVec si w) :
    AllReal (Host.scatterAdd d x idx upd) := fun i => by
  show ∃ r : ℝ, x i + ∑ j ∈ Finset.univ.filter (fun j => d.resultIdx? j idx = some i), upd j = (r : EReal)
  obtain ⟨p, hp⟩ := hx i
  obtain ⟨q, hq⟩ := real_sum _ upd (fun j _ => hu j)
  exact ⟨p + q, by rw [hp, hq, EReal.coe_add]⟩

/-- A dot product gives, at each entry, a finite sum of products of the operands' entries. -/
theorem AllReal.dotGeneral {sl sr so : Shape} {φ₁ φ₂ : FTy} {l : FVec Ideal sl φ₁} {r : FVec Ideal sr φ₂}
    (hl : AllReal l) (hr : AllReal r) (d : DotDims sl sr so) (prec : Option ContractPrecision) :
    AllReal (Host.dotGeneral d prec l r) := fun j => by
  show ∃ q : ℝ, FloatOps.dotGeneral d prec .single l r j = (q : EReal)
  rw [Ideal.dotGeneral_apply]
  refine real_sum _ _ (fun k _ => ?_)
  obtain ⟨p, hp⟩ := hl (d.lhsIdx j k)
  obtain ⟨q, hq⟩ := hr (d.rhsIdx j k)
  exact ⟨p * q, by rw [hp, hq, EReal.coe_mul]⟩

end Sums

/-! ## Further operations: a transpose, a concatenation, an integer conversion, a sum-reduction, and more arithmetic -/

section More
variable {s t : Shape} {φ : FTy}

/-- A transpose reads the operand at the permuted index. -/
theorem AllReal.transpose {x : s.Idx → EReal} (hx : AllReal x) (perm : List (Fin s.rank)) (h : s.Transposes perm t) :
    AllReal (transpose t perm x h) := fun j => hx _

/-- A concatenation reads, at each index, one of the listed arrays. -/
theorem AllReal.concatenate (a : Fin t.rank) (xs : List ((s : Shape) × (s.Idx → EReal)))
    (hxs : ∀ p ∈ xs, AllReal p.2) (h : Shape.Concatenates (xs.map (·.1)) t a) :
    AllReal (Idealize.ShloMosaic.concatenate t a xs h) := fun j => by
  unfold Idealize.ShloMosaic.concatenate
  dsimp only
  exact hxs _ (List.getElem_mem _) _

/-- A signed integer converted to a float is a real. -/
theorem AllReal.sitofp {w : Nat} (x : IVec s w) : AllReal (sitofp (F := Ideal) φ x) :=
  fun j => ⟨((x j).toInt : ℝ), rfl⟩

theorem AllReal.negf {a : FVec Ideal s φ} (ha : AllReal a) : AllReal (negf a) := fun j => by
  obtain ⟨p, hp⟩ := ha j
  exact ⟨-p, by show -(a j) = _; rw [hp, EReal.coe_neg]⟩

theorem AllReal.hostNegf {a : FVec Ideal s φ} (ha : AllReal a) : AllReal (Host.negf a) := fun j => by
  obtain ⟨p, hp⟩ := ha j
  exact ⟨-p, by show -(a j) = _; rw [hp, EReal.coe_neg]⟩

theorem AllReal.minimumf {a b : FVec Ideal s φ} (ha : AllReal a) (hb : AllReal b) : AllReal (minimumf a b) := fun j => by
  show ∃ r : ℝ, min (a j) (b j) = (r : EReal)
  rcases min_choice (a j) (b j) with e | e <;> rw [e]
  · exact ha j
  · exact hb j

/-- The exponential of a real is a real. -/
theorem AllReal.exp {a : FVec Ideal s φ} (ha : AllReal a) : AllReal (Host.exp a) := fun j => by
  obtain ⟨p, hp⟩ := ha j
  exact ⟨Real.exp p, by show Ideal.exp (a j) = _; rw [hp]; rfl⟩

/-- A sum-reduction gives, at each entry, the initial value plus a finite sum of operand entries. -/
theorem AllReal.reduceAdd {axes : List (Fin s.rank)} {u : Shape} {x : FVec Ideal s φ} {init : u.Idx → Ideal φ}
    (hx : AllReal x) (hi : AllReal init) (h : s.ReducesTo axes t) (hu : 0 < u.numel) :
    AllReal (Host.reduceAdd x init h hu) := fun j => by
  show ∃ r : ℝ, init (Shape.Idx.first hu) + ∑ i ∈ Finset.univ.filter (fun i => h.drop i = j), x i = (r : EReal)
  obtain ⟨p, hp⟩ := hi (Shape.Idx.first hu)
  obtain ⟨q, hq⟩ := real_sum _ x (fun i _ => hx i)
  exact ⟨p + q, by rw [hp, hq, EReal.coe_add]⟩

end More

end Cert.LibAllReal

end
-- ==== Proof.Bridge.lean ====
/-
  The blocked row quantity is the full one.
  Fix a query row n of image b. Off image b the full logits are -∞, so they change neither the row maximum (which is
  a real, because the 2047 other entries of image b are) nor the sum of shifted exponentials (exp (-∞) = 0), and their weights
  are 0. On image b the two masks agree (the query's own position), the weights agree, and dividing by the temperature
  is multiplying by its exact reciprocal. A kept entry's log-probability is a real (a real minus a real minus the
  logarithm of a sum of reals ≥ 0 one of which, the exponential of a real, is > 0), so replacing -∞ by 0 changes nothing there; at the query's own position
  the weight is 0 and 0 times -∞ is 0. All of this needs the similarities to be reals, which holds when the inputs are.
-/
import proofs.«173573_j6279242187472_1_alg».proof.Proof.Spec
import proofs.«173573_j6279242187472_1_alg».proof.Proof.LibAllReal
import Mathlib.Algebra.BigOperators.Group.Finset.Basic
import Mathlib.Algebra.Order.BigOperators.Group.Finset
import Mathlib.Data.Finset.Fold
import Mathlib.Data.EReal.Basic
import Mathlib.Data.EReal.Operations

noncomputable section

namespace Cert.Bridge

open Idealize.ShloMosaic Idealize.ShloMosaic.ValueIdx Cert.Spec Cert.LibAllReal
open scoped BigOperators

/-! ## Sums of reals among the extended reals -/

/-- The embedding of the reals commutes with finite sums. -/
theorem coe_sum {ι : Type} (s : Finset ι) (g : ι → ℝ) :
    ∑ i ∈ s, (g i : EReal) = ((∑ i ∈ s, g i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-! ## A row of logits each of which is -∞ or a real, at least one a real -/

section Abstract
variable {ι κ : Type} [Fintype ι] [Fintype κ]

/-- The maximum of such a row is a real: it is below +∞ because every entry is, and above -∞ because one entry is. -/
theorem rowMax_real (ℓ : ι → EReal) (hreal : ∀ j, ℓ j = ⊥ ∨ ∃ r : ℝ, ℓ j = (r : EReal))
    (hne : ∃ j, ∃ r : ℝ, ℓ j = (r : EReal)) : ∃ m : ℝ, rowMax ℓ = (m : EReal) := by
  have h1 : rowMax ℓ ≠ ⊤ := by
    apply ne_of_lt
    unfold rowMax
    rw [Finset.fold_max_lt]
    refine ⟨bot_lt_top, fun j _ => ?_⟩
    rcases hreal j with h | ⟨r, h⟩ <;> rw [h]
    · exact bot_lt_top
    · exact EReal.coe_lt_top r
  have h2 : rowMax ℓ ≠ ⊥ := by
    apply ne_of_gt
    obtain ⟨j, r, hj⟩ := hne
    unfold rowMax
    rw [Finset.lt_fold_max]
    exact Or.inr ⟨j, Finset.mem_univ j, by rw [hj]; exact EReal.bot_lt_coe r⟩
  exact ⟨(rowMax ℓ).toReal, (EReal.coe_toReal h1 h2).symm⟩

/-- The sum of the exponentials shifted by a real is a positive real: every term is a real ≥ 0 (exp (-∞) = 0) and the
    term of a real entry is > 0. -/
theorem expSum_real (ℓ : ι → EReal) (m : ℝ) (hreal : ∀ j, ℓ j = ⊥ ∨ ∃ r : ℝ, ℓ j = (r : EReal))
    (hne : ∃ j, ∃ r : ℝ, ℓ j = (r : EReal)) :
    ∃ s : ℝ, 0 < s ∧ ∑ j, Ideal.exp (ℓ j - (m : EReal)) = (s : EReal) := by
  have hterm : ∀ j, ∃ t : ℝ, 0 ≤ t ∧ ((∃ r : ℝ, ℓ j = (r : EReal)) → 0 < t) ∧
      Ideal.exp (ℓ j - (m : EReal)) = (t : EReal) := by
    intro j
    rcases hreal j with h | ⟨r, h⟩
    · refine ⟨0, le_rfl, ?_, ?_⟩
      · rintro ⟨r, hr⟩
        rw [h] at hr
        exact absurd hr.symm (EReal.coe_ne_bot r)
      · rw [h, EReal.bot_sub, Ideal.exp_bot, EReal.coe_zero]
    · refine ⟨Real.exp (r - m), (Real.exp_pos _).le, fun _ => Real.exp_pos _, ?_⟩
      rw [h, ← EReal.coe_sub, Ideal.exp_coe]
  choose t ht0 htpos ht using hterm
  obtain ⟨j1, hj1⟩ := hne
  refine ⟨∑ j, t j, ?_, ?_⟩
  · exact Finset.sum_pos' (fun j _ => ht0 j) ⟨j1, Finset.mem_univ _, htpos j1 hj1⟩
  · rw [← coe_sum]
    exact Finset.sum_congr rfl (fun j _ => ht j)

/-- The weighted log-softmax of a row over ι equals that of a row over a larger index κ which carries the first row on
    the image of an injection e, is -∞ with weight 0 off that image, takes the extra maximum with -∞, and reads a -∞
    log-probability as 0 — provided every entry is -∞ or a real, one is a real, and a -∞ entry has weight 0. -/
theorem row_bridge (e : ι → κ) (he : Function.Injective e) (ℓk wk : ι → EReal) (ℓr wr : κ → EReal)
    (hℓ : ∀ j, ℓr (e j) = ℓk j) (hℓ' : ∀ k, k ∉ Set.range e → ℓr k = ⊥)
    (hw : ∀ j, wr (e j) = wk j) (hw' : ∀ k, k ∉ Set.range e → wr k = 0)
    (hreal : ∀ j, ℓk j = ⊥ ∨ ∃ r : ℝ, ℓk j = (r : EReal))
    (hw0 : ∀ j, ℓk j = ⊥ → wk j = 0)
    (hne : ∃ j, ∃ r : ℝ, ℓk j = (r : EReal)) :
    ∑ j, wk j * logProb ℓk (rowMax ℓk) j = ∑ k, wr k * unInf (logProb ℓr (max ⊥ (rowMax ℓr)) k) := by
  -- the two maxima agree
  have hM : max ⊥ (rowMax ℓr) = rowMax ℓk := by
    rw [max_eq_right bot_le]
    apply le_antisymm
    · unfold rowMax
      rw [Finset.fold_max_le]
      refine ⟨bot_le, fun k _ => ?_⟩
      by_cases hk : k ∈ Set.range e
      · obtain ⟨j, rfl⟩ := hk
        rw [hℓ j, Finset.le_fold_max]
        exact Or.inr ⟨j, Finset.mem_univ j, le_rfl⟩
      · rw [hℓ' k hk]
        exact bot_le
    · unfold rowMax
      rw [Finset.fold_max_le]
      refine ⟨bot_le, fun j _ => ?_⟩
      rw [Finset.le_fold_max]
      exact Or.inr ⟨e j, Finset.mem_univ _, (hℓ j).ge⟩
  obtain ⟨m, hm⟩ := rowMax_real ℓk hreal hne
  rw [hM, hm]
  -- the two sums of shifted exponentials agree
  have hS : ∑ k, Ideal.exp (ℓr k - (m : EReal)) = ∑ j, Ideal.exp (ℓk j - (m : EReal)) := by
    symm
    refine Fintype.sum_of_injective e he _ _ (fun k hk => ?_) (fun j => ?_)
    · rw [hℓ' k hk, EReal.bot_sub, Ideal.exp_bot]
    · rw [hℓ j]
  obtain ⟨s, hs0, hs⟩ := expSum_real ℓk m hreal hne
  refine Fintype.sum_of_injective e he _ _ (fun k hk => ?_) (fun j => ?_)
  · rw [hw' k hk, zero_mul]
  · have hlp : logProb ℓr (m : EReal) (e j) = logProb ℓk (m : EReal) j := by
      unfold logProb
      rw [hℓ j, hS]
    rw [hw j, hlp]
    rcases hreal j with hb | ⟨r, hr⟩
    · rw [hw0 j hb, zero_mul, zero_mul]
    · have hval : logProb ℓk (m : EReal) j = ((r - m - Real.log s : ℝ) : EReal) := by
        unfold logProb
        rw [hr, hs, Ideal.log_coe, if_neg (not_le.2 hs0), ← EReal.coe_sub, ← EReal.coe_sub]
      rw [hval, unInf, if_neg (EReal.coe_ne_bot _)]

end Abstract

/-! ## The constants -/

/-- The temperature's pattern denotes 13421773 / 2^27. -/
theorem tempD_eq : tempD = ((13421773 / 134217728 : ℝ) : EReal) := by
  simp [tempD, Ideal.ofBits, Ideal.ieee, -EReal.coe_mul]; norm_num

/-- The norm floor's pattern denotes 9223372 / 2^63. -/
theorem eps12_eq : eps12 = ((9223372 / 9223372036854775808 : ℝ) : EReal) := by
  simp [eps12, Ideal.ofBits, Ideal.ieee, -EReal.coe_mul]; norm_num

/-- Dividing by the temperature is multiplying by its reciprocal, at every extended real. -/
theorem div_tempD (x : EReal) : Ideal.div x tempD = x * invT := by
  rw [tempD_eq, Ideal.div_coe (by norm_num)]
  unfold invT
  congr 2
  norm_num

/-! ## The similarities of real rows are reals -/

/-- The floored norm of a real row is a positive real. -/
theorem nrmV_real_pos (v : Fin 64 → EReal) (hv : ∀ c, ∃ r : ℝ, v c = (r : EReal)) :
    ∃ r : ℝ, 0 < r ∧ nrmV v = (r : EReal) := by
  choose f hf using hv
  have hsum : ∑ c, v c * v c = ((∑ c, f c * f c : ℝ) : EReal) := by
    rw [← coe_sum]
    refine Finset.sum_congr rfl (fun c _ => ?_)
    rw [hf c, EReal.coe_mul]
  have hnn : 0 ≤ ∑ c, f c * f c := Finset.sum_nonneg (fun c _ => mul_self_nonneg _)
  have he0 : (0 : ℝ) < 9223372 / 9223372036854775808 := by norm_num
  refine ⟨max (Real.sqrt (∑ c, f c * f c)) (9223372 / 9223372036854775808), lt_max_of_lt_right he0, ?_⟩
  unfold nrmV
  rw [hsum, Ideal.sqrt_coe, if_neg (not_lt.2 hnn), eps12_eq]
  exact (Monotone.map_max (fun a b h => EReal.coe_le_coe_iff.2 h)).symm

/-- The similarity of two real rows is a real. -/
theorem cosV_real (q k : Fin 64 → EReal) (hq : ∀ c, ∃ r : ℝ, q c = (r : EReal))
    (hk : ∀ c, ∃ r : ℝ, k c = (r : EReal)) : ∃ r : ℝ, cosV q k = (r : EReal) := by
  obtain ⟨a, ha0, ha⟩ := nrmV_real_pos q hq
  obtain ⟨b, hb0, hb⟩ := nrmV_real_pos k hk
  unfold cosV
  refine real_sum _ _ (fun c _ => ?_)
  obtain ⟨x, hx⟩ := real_div (hq c) ⟨a, ha⟩ (by rw [ha]; exact EReal.coe_ne_zero.2 ha0.ne')
  obtain ⟨y, hy⟩ := real_div (hk c) ⟨b, hb⟩ (by rw [hb]; exact EReal.coe_ne_zero.2 hb0.ne')
  exact ⟨x * y, by rw [hx, hy, EReal.coe_mul]⟩

/-! ## The positions of an image among all positions -/

theorem inImg_val (n : Fin 4096) (j : Fin 2048) : (inImg n j).val = n.val / 2048 * 2048 + j.val := rfl

theorem inImg_injective (n : Fin 4096) : Function.Injective (inImg n) := by
  intro a b h
  have h' := congrArg Fin.val h
  rw [inImg_val, inImg_val] at h'
  exact Fin.ext (by omega)

/-- A position that is not one of n's image lies in the other image. -/
theorem not_range_inImg (n k : Fin 4096) (hk : k ∉ Set.range (inImg n)) : n.val / 2048 ≠ k.val / 2048 := by
  intro hEq
  apply hk
  have hlt : k.val % 2048 < 2048 := Nat.mod_lt _ (by norm_num)
  refine ⟨⟨k.val % 2048, hlt⟩, Fin.ext ?_⟩
  rw [inImg_val]
  show n.val / 2048 * 2048 + k.val % 2048 = k.val
  omega

/-- Off n's image the full weight is 0. -/
theorem weight_off (l : SLab.Idx → BitVec 32) (n k : Fin 4096) (hk : k ∉ Set.range (inImg n)) :
    rWeight (fun n' : Fin 4096 => n.val / 2048 = n'.val / 2048 ∧ lab l n = lab l n' ∧ n.val ≠ n'.val) k = 0 := by
  have hp : ¬ (n.val / 2048 = k.val / 2048 ∧ lab l n = lab l k ∧ n.val ≠ k.val) :=
    fun h => not_range_inImg n k hk h.1
  simp only [rWeight, if_neg hp]

/-- On n's image the full weight is the blocked one. -/
theorem weight_on (l : SLab.Idx → BitVec 32) (n : Fin 4096) (j : Fin 2048) :
    rWeight (fun n' : Fin 4096 => n.val / 2048 = n'.val / 2048 ∧ lab l n = lab l n' ∧ n.val ≠ n'.val) (inImg n j) =
      kWeight (fun j : Fin 2048 => j.val = n.val % 2048) (fun j => lab l n = lab l (inImg n j)) j := by
  have hv := inImg_val n j
  have hj := j.isLt
  have hn := n.isLt
  by_cases hc : lab l n = lab l (inImg n j) ∧ ¬ j.val = n.val % 2048
  · have hp : n.val / 2048 = (inImg n j).val / 2048 ∧ lab l n = lab l (inImg n j) ∧ n.val ≠ (inImg n j).val :=
      ⟨by rw [hv]; omega, hc.1, by rw [hv]; have := hc.2; omega⟩
    simp only [rWeight, kWeight, if_pos hc, if_pos hp]
  · have hp : ¬ (n.val / 2048 = (inImg n j).val / 2048 ∧ lab l n = lab l (inImg n j) ∧ n.val ≠ (inImg n j).val) := by
      rintro ⟨_, h2, h3⟩
      exact hc ⟨h2, by rw [hv] at h3; omega⟩
    simp only [rWeight, kWeight, if_neg hc, if_neg hp]

/-! ## The two theorems -/

theorem A_eq (x0 x1 : SEmb.Idx → EReal) (l : SLab.Idx → BitVec 32) (h0 : AllReal x0) (h1 : AllReal x1) (n : Fin 4096) :
    AK x0 x1 l n = AR x0 x1 l n := by
  have hq : ∀ c, ∃ r : ℝ, row x0 n c = (r : EReal) := fun c => h0 _
  have hk : ∀ n' c, ∃ r : ℝ, row x1 n' c = (r : EReal) := fun n' c => h1 _
  have hn := n.isLt
  -- a blocked logit off the query's own position is a real
  have hkl : ∀ j : Fin 2048, ¬ j.val = n.val % 2048 → ∃ r : ℝ,
      kLogits (row x0 n) (fun j : Fin 2048 => row x1 (inImg n j)) (fun j => j.val = n.val % 2048) j = (r : EReal) := by
    intro j hs
    obtain ⟨c, hc⟩ := cosV_real _ _ hq (hk (inImg n j))
    refine ⟨c * (134217728 / 13421773), ?_⟩
    simp only [kLogits, if_neg hs]
    rw [hc, invT, EReal.coe_mul]
  unfold AK AR kRowA rRowA
  refine row_bridge (inImg n) (inImg_injective n)
    (kLogits (row x0 n) (fun j : Fin 2048 => row x1 (inImg n j)) (fun j => j.val = n.val % 2048))
    (kWeight (fun j : Fin 2048 => j.val = n.val % 2048) (fun j => lab l n = lab l (inImg n j)))
    (rLogits (row x0 n) (fun n' : Fin 4096 => row x1 n') (fun n' => n.val / 2048 = n'.val / 2048 ∧ n.val ≠ n'.val))
    (rWeight (fun n' : Fin 4096 => n.val / 2048 = n'.val / 2048 ∧ lab l n = lab l n' ∧ n.val ≠ n'.val))
    ?_ ?_ (weight_on l n) (weight_off l n) ?_ ?_ ?_
  · -- on n's image the two logits agree
    intro j
    have hv := inImg_val n j
    have hj := j.isLt
    by_cases hs : j.val = n.val % 2048
    · have hk' : ¬ (n.val / 2048 = (inImg n j).val / 2048 ∧ n.val ≠ (inImg n j).val) := by
        rw [hv]; omega
      simp only [rLogits, kLogits, if_pos hs, if_neg hk']
    · have hk' : n.val / 2048 = (inImg n j).val / 2048 ∧ n.val ≠ (inImg n j).val := by
        rw [hv]; omega
      simp only [rLogits, kLogits, if_neg hs, if_pos hk', div_tempD]
  · -- off n's image the full logit is -∞
    intro k hk
    have hk' : ¬ (n.val / 2048 = k.val / 2048 ∧ n.val ≠ k.val) := fun h => not_range_inImg n k hk h.1
    simp only [rLogits, if_neg hk']
  · intro j
    by_cases hs : j.val = n.val % 2048
    · left
      simp only [kLogits, if_pos hs]
    · exact Or.inr (hkl j hs)
  · intro j hb
    by_cases hs : j.val = n.val % 2048
    · have hc : ¬ (lab l n = lab l (inImg n j) ∧ ¬ j.val = n.val % 2048) := fun h => h.2 hs
      simp only [kWeight, if_neg hc]
    · obtain ⟨r, hr⟩ := hkl j hs
      rw [hr] at hb
      exact absurd hb (EReal.coe_ne_bot r)
  · by_cases hz : n.val % 2048 = 0
    · exact ⟨⟨1, by norm_num⟩, hkl _ (by show ¬ (1 : ℕ) = n.val % 2048; omega)⟩
    · exact ⟨⟨0, by norm_num⟩, hkl _ (by show ¬ (0 : ℕ) = n.val % 2048; omega)⟩

theorem B_eq (l : SLab.Idx → BitVec 32) (n : Fin 4096) : BK l n = BR l n := by
  unfold BK BR kRowB rRowB
  exact Fintype.sum_of_injective (inImg n) (inImg_injective n) _ _ (weight_off l n) (fun j => (weight_on l n j).symm)

end Cert.Bridge

end
-- ==== Proof.Finite.lean ====
/-
  Finite inputs are arrays of reals.
  The precondition says |x| < +∞ at every entry of both embeddings; an extended real whose absolute value is below +∞
  is neither infinity, so it is a real.
-/
import proofs.«173573_j6279242187472_1_alg».proof.Pre_finite_inputs
import proofs.«173573_j6279242187472_1_alg».proof.Proof.LibAllReal
import Idealize.ShloMosaic.Lib.ReduceAll
import Idealize.ShloMosaic.Lib.ValueIdx

noncomputable section

namespace Cert.Finite

open Idealize.ShloMosaic Idealize.ShloMosaic.ValueIdx Cert.LibAllReal Cert.Pre_finite_inputs

/-- The result of a reduction over all four axes has one index. -/
instance : Subsingleton S_.Idx := ⟨fun a b => funext fun d => d.elim0⟩

/-- The word 0x7F800000 denotes +∞: its exponent field is all ones, its fraction is zero, its sign bit is clear. -/
theorem ofBits_inf : Ideal.ofBits .f32 0x7F800000#32 = (⊤ : EReal) := by
  show Ideal.ieee 8 23 (0x7F800000#32) = ⊤
  unfold Ideal.ieee
  dsimp only
  rw [if_pos (by decide), if_pos (by decide), if_neg (by decide)]

/-- An extended real whose absolute value max x (-x) is below +∞ is a real: at -∞ and at +∞ the maximum is +∞. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- A comparison bit |x| < +∞ that is set says x is a real. -/
theorem real_of_cmp (x : EReal)
    (h : Ideal.cmp .olt (max x (-x)) (Ideal.ofBits .f32 0x7F800000#32) = 1#1) : ∃ r : ℝ, x = (r : EReal) := by
  refine real_of_abs_lt_top x ?_
  rw [ofBits_inf] at h
  by_contra hn
  simp [Ideal.cmp, hn] at h

theorem allReal_of_fn [hP : Cert.Pre_finite_inputs.Facts] (a0 a1 : FVec Ideal S2x2x64x1024 .f32) (a2 : IVec S2x2x1024 32)
    (h : Cert.Pre_finite_inputs.fn (F := Ideal) a0 a1 a2 = fun _ => 1#1) : AllReal a0 ∧ AllReal a1 := by
  have h0 := congrFun h ix0
  unfold Cert.Pre_finite_inputs.fn at h0
  dsimp only at h0
  obtain ⟨e0, e1⟩ := IntOp.andi_eq_one.1 h0
  refine ⟨fun y => ?_, fun y => ?_⟩
  · exact real_of_cmp (a0 y) (Host.reduce_andi_all _ _ _ _ _ e0 y)
  · exact real_of_cmp (a1 y) (Host.reduce_andi_all _ _ _ _ _ e1 y)

end Cert.Finite

end
-- ==== Proof.lean ====
/-
  A supervised contrastive loss over 4096 embedding rows (2 images x 2 views x 1024 pixels, 64 channels), computed in two ways.

  The reference normalises every student and teacher row, forms the full 4096 x 4096 matrix of similarities over the
  temperature, masks to -∞ every pair that is not two different positions of one image, takes a log-softmax along each
  row, reads a -∞ log-probability as 0, and sums it along the row over the positions that share the row's label; with
  the count of those positions per row this gives the loss.

  The kernel never forms the full matrix: a pair of different images is masked in the reference, so each image's
  2048 x 2048 block can be treated alone, 256 query rows at a time. It multiplies by the reciprocal of the temperature
  where the reference divides, and masks a query's own position with a large negative number standing for -∞.

  At the exact values the two agree: the masked pairs contribute exp (-∞) = 0 to a row's sum of exponentials, -∞ to
  its maximum and weight 0 to its weighted sum, so the row quantities over one image's block are the row quantities
  over all positions (Proof/Bridge.lean); the reciprocal of the temperature is named as the exact reciprocal of the
  reference's own divisor, and the negative number as -∞. The kernel's side is read off its frame run block by block
  (Proof/KPayload.lean, Proof/KArrays.lean, Proof/KTail.lean), the reference's off its run stage by stage
  (Proof/RefStages.lean, Proof/RefMasks.lean, Proof/RefLogits.lean, Proof/RefSoftmax.lean, Proof/RefTail.lean); both meet at the
  functions of Proof/Spec.lean. Finite inputs are what makes every similarity a real number (Proof/Finite.lean).
-/
import proofs.«173573_j6279242187472_1_alg».proof.Defs
import proofs.«173573_j6279242187472_1_alg».proof.Proof.Gen.Kernel
import proofs.«173573_j6279242187472_1_alg».proof.Proof.Gen.KernelIdeal
import proofs.«173573_j6279242187472_1_alg».proof.Proof.Gen.ReferenceIdeal
import proofs.«173573_j6279242187472_1_alg».proof.Proof.Gen.Pre_finite_inputs
import proofs.«173573_j6279242187472_1_alg».proof.Proof.KernelFrame
import proofs.«173573_j6279242187472_1_alg».proof.Proof.KernelIdealFrame
import proofs.«173573_j6279242187472_1_alg».proof.Proof.RefRun
import proofs.«173573_j6279242187472_1_alg».proof.Proof.RefRead
import proofs.«173573_j6279242187472_1_alg».proof.Proof.RefStages
import proofs.«173573_j6279242187472_1_alg».proof.Proof.KTail
import proofs.«173573_j6279242187472_1_alg».proof.Proof.RefTail
import proofs.«173573_j6279242187472_1_alg».proof.Proof.Bridge
import proofs.«173573_j6279242187472_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ
theorem frame_ki : Cert.frame_KernelIdeal := fun m ρ _ => Cert.KernelIdeal.GenP.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Stages.run (F := Ideal) m ρ)

/-- The two named constants denote what the table gives them: the reciprocal of the reference's temperature word, and -∞. -/
theorem preserves : Cert.preserves_Kernel_KernelIdeal :=
  ⟨IdealRules.named_const.statement Cert.KernelIdeal.κ "inv_temperature" .f32 0x41200000#32 ((134217728 / 13421773 : ℝ) : EReal) rfl,
   IdealRules.named_const.statement Cert.KernelIdeal.κ "neg_big" .f32 0xFF333332#32 ⊥ rfl⟩

/-- Both programs end at the loss of Proof/Spec.lean: the kernel's in the blocked row quantities, the reference's in
    the full ones, equal row by row when the inputs are reals. -/
theorem algebraic : Cert.algebraic_KernelIdeal_ReferenceIdeal := by
  intro m ρ m' ρ' hpre hagree
  refine ⟨Cert.KernelIdeal.Run.result m, Cert.KernelIdeal.Run.run m ρ, ?_⟩
  refine (θ_run Cert.ReferenceIdeal.defs _ _).mono (fun _ h c => ⟨(h c).1.trans ?_, (h c).2⟩)
    (Cert.ReferenceIdeal.Stages.run (F := Ideal) m' ρ')
  rw [(hagree c).1, (hagree c).2.1, (hagree c).2.2,
    Cert.ReferenceIdeal.Tail.result_eq]
  obtain ⟨h0, h1⟩ := Cert.Finite.allReal_of_fn _ _ _ (hpre c)
  unfold Cert.KernelIdeal.Run.result
  have hA : Cert.Spec.AR (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      = Cert.Spec.AK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) :=
    funext fun n => (Cert.Bridge.A_eq _ _ _ h0 h1 n).symm
  have hB : Cert.Spec.BR (m ((c.tc : Thread Cert.KernelIdeal.nD Cert.KernelIdeal.τ).loc Cert.KernelIdeal.main_arg2))
      = Cert.Spec.BK (m ((c.tc : Thread Cert.KernelIdeal.nD Cert.KernelIdeal.τ).loc Cert.KernelIdeal.main_arg2)) :=
    funext fun n => (Cert.Bridge.B_eq _ n).symm
  rw [hA, hB]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
